-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1x14x14 : Shape := ⟨4, ![256, 1, 14, 14]⟩
abbrev S256x2048x14x14 : Shape := ⟨4, ![256, 2048, 14, 14]⟩
abbrev S16x3000x2048 : Shape := ⟨3, ![16, 3000, 2048]⟩
abbrev S16x3000 : Shape := ⟨2, ![16, 3000]⟩
abbrev S256 : Shape := ⟨1, ![256]⟩
abbrev S_ : Shape := ⟨0, ![]⟩

class Facts : Prop where
  bcast_S_S256x1x14x14 : S_.BroadcastsInDim S256x1x14x14 (![] : Fin 0 → Fin S256x1x14x14.rank)
  reducesTo_S256x1x14x14_S_d0_1_2_3 : S256x1x14x14.ReducesTo [0, 1, 2, 3] S_
  h_S_ : 0 < S_.numel
  bcast_S_S256x2048x14x14 : S_.BroadcastsInDim S256x2048x14x14 (![] : Fin 0 → Fin S256x2048x14x14.rank)
  reducesTo_S256x2048x14x14_S_d0_1_2_3 : S256x2048x14x14.ReducesTo [0, 1, 2, 3] S_
  bcast_S_S16x3000x2048 : S_.BroadcastsInDim S16x3000x2048 (![] : Fin 0 → Fin S16x3000x2048.rank)
  reducesTo_S16x3000x2048_S_d0_1_2 : S16x3000x2048.ReducesTo [0, 1, 2] S_
  bcast_S_S16x3000 : S_.BroadcastsInDim S16x3000 (![] : Fin 0 → Fin S16x3000.rank)
  reducesTo_S16x3000_S_d0_1 : S16x3000.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : IVec S256 32) (main_v13 : IVec S_ 1) (main_v16 : IVec S16x3000 1) : IVec S_ 1 :=
  let main_c_5 : IVec S_ 1 := constantI S_ 1 1#1
  let main_v17 : IVec S_ 1 := (fun x v => Host.reduce IntOp.andi x v reducesTo_S16x3000_S_d0_1 h_S_) main_v16 main_c_5
  let main_v18 : IVec S_ 1 := andi main_v13 main_v17
  let main_c_6 : IVec S_ 32 := constantI S_ 32 0#32
  let main_v19 : IVec S256 32 := broadcastInDim S256 ![] bcast_S_S256 main_c_6
  let main_v20 : IVec S256 1 := cmpi .sge main_arg4 main_v19
  let main_c_7 : IVec S_ 32 := constantI S_ 32 16#32
  let main_v21 : IVec S256 32 := broadcastInDim S256 ![] bcast_S_S256 main_c_7
  let main_v22 : IVec S256 1 := cmpi .slt main_arg4 main_v21
  let main_v23 : IVec S256 1 := andi main_v20 main_v22
  let main_c_8 : IVec S_ 1 := constantI S_ 1 1#1
  let main_v24 : IVec S_ 1 := (fun x v => Host.reduce IntOp.andi x v reducesTo_S256_S_d0 h_S_) main_v23 main_c_8
  let main_v25 : IVec S_ 1 := andi main_v18 main_v24
  main_v25

def fn {F : FTy → Type} [FloatOps F] (main_arg0 : FVec F S256x1x14x14 .f32) (main_arg1 : FVec F S256x2048x14x14 .f32) (main_arg2 : FVec F S16x3000x2048 .f32) (main_arg3 : FVec F S16x3000 .f32) (main_arg4 : IVec S256 32) : IVec S_ 1 :=
  let main_v0 : FVec F S256x1x14x14 .f32 := Host.absf main_arg0
  let main_cst : FVec F S_ .f32 := constant S_ .f32 0x7F800000#32
  let main_v1 : FVec F S256x1x14x14 .f32 := broadcastInDim S256x1x14x14 ![] bcast_S_S256x1x14x14 main_cst
  let main_v2 : IVec S256x1x14x14 1 := cmpf .olt main_v0 main_v1
  let main_c : IVec S_ 1 := constantI S_ 1 1#1
  let main_v3 : IVec S_ 1 := (fun x v => Host.reduce IntOp.andi x v reducesTo_S256x1x14x14_S_d0_1_2_3 h_S_) main_v2 main_c
  let main_v4 : FVec F S256x2048x14x14 .f32 := Host.absf main_arg1
  let main_cst_0 : FVec F S_ .f32 := constant S_ .f32 0x7F800000#32
  let main_v5 : FVec F S256x2048x14x14 .f32 := broadcastInDim S256x2048x14x14 ![] bcast_S_S256x2048x14x14 main_cst_0
  let main_v6 : IVec S256x2048x14x14 1 := cmpf .olt main_v4 main_v5
  let main_c_1 : IVec S_ 1 := constantI S_ 1 1#1
  let main_v7 : IVec S_ 1 := (fun x v => Host.reduce IntOp.andi x v reducesTo_S256x2048x14x14_S_d0_1_2_3 h_S_) main_v6 main_c_1
  let main_v8 : IVec S_ 1 := andi main_v3 main_v7
  let main_v9 : FVec F S16x3000x2048 .f32 := Host.absf main_arg2
  let main_cst_2 : FVec F S_ .f32 := constant S_ .f32 0x7F800000#32
  let main_v10 : FVec F S16x3000x2048 .f32 := broadcastInDim S16x3000x2048 ![] bcast_S_S16x3000x2048 main_cst_2
  let main_v11 : IVec S16x3000x2048 1 := cmpf .olt main_v9 main_v10
  let main_c_3 : IVec S_ 1 := constantI S_ 1 1#1
  let main_v12 : IVec S_ 1 := (fun x v => Host.reduce IntOp.andi x v reducesTo_S16x3000x2048_S_d0_1_2 h_S_) main_v11 main_c_3
  let main_v13 : IVec S_ 1 := andi main_v8 main_v12
  let main_v14 : FVec F S16x3000 .f32 := Host.absf main_arg3
  let main_cst_4 : FVec F S_ .f32 := constant S_ .f32 0x7F800000#32
  let main_v15 : FVec F S16x3000 .f32 := broadcastInDim S16x3000 ![] bcast_S_S16x3000 main_cst_4
  let main_v16 : IVec S16x3000 1 := cmpf .olt main_v14 main_v15
  fn_part1 (F := F) main_arg4 main_v13 main_v16
-- ==== Kernel.lean ====
abbrev S256x1x14x14 : Shape := ⟨4, ![256, 1, 14, 14]⟩
abbrev S256x2048x14x14 : Shape := ⟨4, ![256, 2048, 14, 14]⟩
abbrev S16x3000x2048 : Shape := ⟨3, ![16, 3000, 2048]⟩
abbrev S16x3000 : Shape := ⟨2, ![16, 3000]⟩
abbrev S256 : Shape := ⟨1, ![256]⟩
abbrev S256x2048x196 : Shape := ⟨3, ![256, 2048, 196]⟩
abbrev S256x1x196 : Shape := ⟨3, ![256, 1, 196]⟩
abbrev S256x2048 : Shape := ⟨2, ![256, 2048]⟩
abbrev S16x512x196 : Shape := ⟨3, ![16, 512, 196]⟩
abbrev S16x1x196 : Shape := ⟨3, ![16, 1, 196]⟩
abbrev S16x512 : Shape := ⟨2, ![16, 512]⟩
abbrev S16x1 : Shape := ⟨2, ![16, 1]⟩
abbrev S_ : Shape := ⟨0, ![]⟩
abbrev S256x1 : Shape := ⟨2, ![256, 1]⟩
abbrev S1x16 : Shape := ⟨2, ![1, 16]⟩
abbrev S256x16 : Shape := ⟨2, ![256, 16]⟩
abbrev S256x3000 : Shape := ⟨2, ![256, 3000]⟩
abbrev S16x128x2048 : Shape := ⟨3, ![16, 128, 2048]⟩
abbrev S16x128 : Shape := ⟨2, ![16, 128]⟩
abbrev S256x128 : Shape := ⟨2, ![256, 128]⟩
abbrev S1x128x2048 : Shape := ⟨3, ![1, 128, 2048]⟩
abbrev S128x2048 : Shape := ⟨2, ![128, 2048]⟩
abbrev S1x128 : Shape := ⟨2, ![1, 128]⟩
abbrev S128 : Shape := ⟨1, ![128]⟩

abbrev nBuf : Space → Nat
  | .hbm => 23
  | .vmem => 14
  | .smem => 0
  | _ => 0

abbrev bufTy : (tb : Table) → Fin (tcTables nBuf tb) → BufTy
  | .hbm, ⟨0, _⟩ => ⟨S256x1x14x14, .f32⟩
  | .hbm, ⟨1, _⟩ => ⟨S256x2048x14x14, .f32⟩
  | .hbm, ⟨2, _⟩ => ⟨S16x3000x2048, .f32⟩
  | .hbm, ⟨3, _⟩ => ⟨S16x3000, .f32⟩
  | .hbm, ⟨4, _⟩ => ⟨S256, .i32⟩
  | .hbm, ⟨5, _⟩ => ⟨S256x2048x196, .f32⟩
  | .hbm, ⟨6, _⟩ => ⟨S256x1x196, .f32⟩
  | .hbm, ⟨7, _⟩ => ⟨S256x2048, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S1x16, .i32⟩
  | .hbm, ⟨18, _⟩ => ⟨S256x16, .i32⟩
  | .hbm, ⟨19, _⟩ => ⟨S256x16, .i32⟩
  | .hbm, ⟨20, _⟩ => ⟨S256x16, .i1⟩
  | .hbm, ⟨21, _⟩ => ⟨S256x16, .f32⟩
  | .hbm, ⟨22, _⟩ => ⟨S256x3000, .f32⟩
  | .local _ .vmem, ⟨0, _⟩ => ⟨S16x512x196, .f32⟩
  | .local _ .vmem, ⟨1, _⟩ => ⟨S16x512x196, .f32⟩
  | .local _ .vmem, ⟨2, _⟩ => ⟨S16x1x196, .f32⟩
  | .local _ .vmem, ⟨3, _⟩ => ⟨S16x1x196, .f32⟩
  | .local _ .vmem, ⟨4, _⟩ => ⟨S16x512, .bf16⟩
  | .local _ .vmem, ⟨5, _⟩ => ⟨S16x512, .bf16⟩
  | .local _ .vmem, ⟨6, _⟩ => ⟨S256x2048, .bf16⟩
  | .local _ .vmem, ⟨7, _⟩ => ⟨S16x128x2048, .f32⟩
  | .local _ .vmem, ⟨8, _⟩ => ⟨S16x128x2048, .f32⟩
  | .local _ .vmem, ⟨9, _⟩ => ⟨S16x128, .f32⟩
  | .local _ .vmem, ⟨10, _⟩ => ⟨S16x128, .f32⟩
  | .local _ .vmem, ⟨11, _⟩ => ⟨S256x16, .f32⟩
  | .local _ .vmem, ⟨12, _⟩ => ⟨S256x128, .f32⟩
  | .local _ .vmem, ⟨13, _⟩ => ⟨S256x128, .f32⟩
  | _, _ => ⟨S256x1x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v4 : Ref sig .tc := ⟨.hbm, 21, rfl⟩
abbrev main_v5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S256x2048x14x14_S256x2048x196 : S256x2048x14x14.ShapeCasts S256x2048x196
  shapeCasts_S256x1x14x14_S256x1x196 : S256x1x14x14.ShapeCasts S256x1x196
  inb_S16x1x196_S16x1x196_0_0_0 : ∀ a, (![0, 0, 0] : Fin 3 → Nat) a + S16x1x196.size a ≤ S16x1x196.size a
  h_S16x1x196 : 0 < S16x1x196.numel
  shapeCasts_S16x1x196_S16x1x196 : S16x1x196.ShapeCasts S16x1x196
  inb_S16x512x196_S16x512x196_0_0_0 : ∀ a, (![0, 0, 0] : Fin 3 → Nat) a + S16x512x196.size a ≤ S16x512x196.size a
  h_S16x512x196 : 0 < S16x512x196.numel
  shapeCasts_S16x512x196_S16x512x196 : S16x512x196.ShapeCasts S16x512x196
  broadcasts_S16x1x196_S16x512x196 : S16x1x196.Broadcasts S16x512x196
  reduces_S16x512x196_S16x512 : S16x512x196.Reduces [2] S16x512
  reduces_S16x1x196_S16x1 : S16x1x196.Reduces [2] S16x1
  broadcasts_S16x1_S16x512 : S16x1.Broadcasts S16x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  packedbf16_S16x512_S16x512_0_0 : (Rect.unit (s := S16x512) ![0, 0] S16x512.size inb_S16x512_S16x512_0_0).PackedRows (EltTy.packing .bf16)
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  bcast_S1x16_S256x16_0_1 : S1x16.BroadcastsInDim S256x16 (![0, 1] : Fin 2 → Fin S256x16.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x128_S16x128_0_0 : ∀ a, (![0, 0] : Fin 2 → Nat) a + S16x128.size a ≤ S16x128.size a
  h_S16x128 : 0 < S16x128.numel
  inb_S16x128x2048_S1x128x2048_0_0_0 : ∀ a, (![0, 0, 0] : Fin 3 → Nat) a + S1x128x2048.size a ≤ S16x128x2048.size a
  h_S1x128x2048 : 0 < S1x128x2048.numel
  shapeCasts_S1x128x2048_S128x2048 : S1x128x2048.ShapeCasts S128x2048
  slices_S16x128_o0_0_S1x128 : S16x128.Slices ![0, 0] S1x128
  shapeCasts_S1x128_S128 : S1x128.ShapeCasts S128
  shapeCasts_S128_S1x128 : S128.ShapeCasts S1x128
  broadcasts_S1x128_S256x128 : S1x128.Broadcasts S256x128
  slices_S256x16_o0_0_S256x1 : S256x16.Slices ![0, 0] S256x1
  broadcasts_S256x1_S256x128 : S256x1.Broadcasts S256x128
  inb_S16x128x2048_S1x128x2048_1_0_0 : ∀ a, (![1, 0, 0] : Fin 3 → Nat) a + S1x128x2048.size a ≤ S16x128x2048.size a
  slices_S16x128_o1_0_S1x128 : S16x128.Slices ![1, 0] S1x128
  slices_S256x16_o0_1_S256x1 : S256x16.Slices ![0, 1] S256x1
  inb_S16x128x2048_S1x128x2048_2_0_0 : ∀ a, (![2, 0, 0] : Fin 3 → Nat) a + S1x128x2048.size a ≤ S16x128x2048.size a
  slices_S16x128_o2_0_S1x128 : S16x128.Slices ![2, 0] S1x128
  slices_S256x16_o0_2_S256x1 : S256x16.Slices ![0, 2] S256x1
  inb_S16x128x2048_S1x128x2048_3_0_0 : ∀ a, (![3, 0, 0] : Fin 3 → Nat) a + S1x128x2048.size a ≤ S16x128x2048.size a
  slices_S16x128_o3_0_S1x128 : S16x128.Slices ![3, 0] S1x128
  slices_S256x16_o0_3_S256x1 : S256x16.Slices ![0, 3] S256x1
  inb_S16x128x2048_S1x128x2048_4_0_0 : ∀ a, (![4, 0, 0] : Fin 3 → Nat) a + S1x128x2048.size a ≤ S16x128x2048.size a
  slices_S16x128_o4_0_S1x128 : S16x128.Slices ![4, 0] S1x128
  slices_S256x16_o0_4_S256x1 : S256x16.Slices ![0, 4] S256x1
  inb_S16x128x2048_S1x128x2048_5_0_0 : ∀ a, (![5, 0, 0] : Fin 3 → Nat) a + S1x128x2048.size a ≤ S16x128x2048.size a
  slices_S16x128_o5_0_S1x128 : S16x128.Slices ![5, 0] S1x128
  slices_S256x16_o0_5_S256x1 : S256x16.Slices ![0, 5] S256x1
  inb_S16x128x2048_S1x128x2048_6_0_0 : ∀ a, (![6, 0, 0] : Fin 3 → Nat) a + S1x128x2048.size a ≤ S16x128x2048.size a
  slices_S16x128_o6_0_S1x128 : S16x128.Slices ![6, 0] S1x128
  slices_S256x16_o0_6_S256x1 : S256x16.Slices ![0, 6] S256x1
  inb_S16x128x2048_S1x128x2048_7_0_0 : ∀ a, (![7, 0, 0] : Fin 3 → Nat) a + S1x128x2048.size a ≤ S16x128x2048.size a
  slices_S16x128_o7_0_S1x128 : S16x128.Slices ![7, 0] S1x128
  slices_S256x16_o0_7_S256x1 : S256x16.Slices ![0, 7] S256x1
  inb_S16x128x2048_S1x128x2048_8_0_0 : ∀ a, (![8, 0, 0] : Fin 3 → Nat) a + S1x128x2048.size a ≤ S16x128x2048.size a
  slices_S16x128_o8_0_S1x128 : S16x128.Slices ![8, 0] S1x128
  slices_S256x16_o0_8_S256x1 : S256x16.Slices ![0, 8] S256x1
  inb_S16x128x2048_S1x128x2048_9_0_0 : ∀ a, (![9, 0, 0] : Fin 3 → Nat) a + S1x128x2048.size a ≤ S16x128x2048.size a
  slices_S16x128_o9_0_S1x128 : S16x128.Slices ![9, 0] S1x128
  slices_S256x16_o0_9_S256x1 : S256x16.Slices ![0, 9] S256x1
  inb_S16x128x2048_S1x128x2048_10_0_0 : ∀ a, (![10, 0, 0] : Fin 3 → Nat) a + S1x128x2048.size a ≤ S16x128x2048.size a
  slices_S16x128_o10_0_S1x128 : S16x128.Slices ![10, 0] S1x128
  slices_S256x16_o0_10_S256x1 : S256x16.Slices ![0, 10] S256x1
  inb_S16x128x2048_S1x128x2048_11_0_0 : ∀ a, (![11, 0, 0] : Fin 3 → Nat) a + S1x128x2048.size a ≤ S16x128x2048.size a
  slices_S16x128_o11_0_S1x128 : S16x128.Slices ![11, 0] S1x128
  slices_S256x16_o0_11_S256x1 : S256x16.Slices ![0, 11] S256x1
  inb_S16x128x2048_S1x128x2048_12_0_0 : ∀ a, (![12, 0, 0] : Fin 3 → Nat) a + S1x128x2048.size a ≤ S16x128x2048.size a
  slices_S16x128_o12_0_S1x128 : S16x128.Slices ![12, 0] S1x128
  slices_S256x16_o0_12_S256x1 : S256x16.Slices ![0, 12] S256x1
  inb_S16x128x2048_S1x128x2048_13_0_0 : ∀ a, (![13, 0, 0] : Fin 3 → Nat) a + S1x128x2048.size a ≤ S16x128x2048.size a
  slices_S16x128_o13_0_S1x128 : S16x128.Slices ![13, 0] S1x128
  slices_S256x16_o0_13_S256x1 : S256x16.Slices ![0, 13] S256x1
  inb_S16x128x2048_S1x128x2048_14_0_0 : ∀ a, (![14, 0, 0] : Fin 3 → Nat) a + S1x128x2048.size a ≤ S16x128x2048.size a
  slices_S16x128_o14_0_S1x128 : S16x128.Slices ![14, 0] S1x128
  slices_S256x16_o0_14_S256x1 : S256x16.Slices ![0, 14] S256x1
  inb_S16x128x2048_S1x128x2048_15_0_0 : ∀ a, (![15, 0, 0] : Fin 3 → Nat) a + S1x128x2048.size a ≤ S16x128x2048.size a
  slices_S16x128_o15_0_S1x128 : S16x128.Slices ![15, 0] S1x128
  slices_S256x16_o0_15_S256x1 : S256x16.Slices ![0, 15] S256x1
  inb_S256x128_S256x128_0_0 : ∀ a, (![0, 0] : Fin 2 → Nat) a + S256x128.size a ≤ S256x128.size a
  h_S256x128 : 0 < S256x128.numel
  dot_S256x2048_S128x2048_S256x128_1_1_0_0_n_n_wf : DotDims.WF S256x2048 S128x2048 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x196.size a ≤ S256x2048x196.size a
  hwx0_0 : ∀ i : grid0.Coords, EltTy.bits .f32 = 32 ∨ (Rect.block (s := S256x2048x196) S16x512x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x196.size a ≤ S256x1x196.size a
  hwx0_1 : ∀ i : grid0.Coords, EltTy.bits .f32 = 32 ∨ (Rect.block (s := S256x1x196) S16x1x196.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S256x2048.size a
  hwx0_2 : ∀ i : grid0.Coords, EltTy.bits .bf16 = 32 ∨ (Rect.block (s := S256x2048) S16x512.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S256x2048.size a
  hwx1_0 : ∀ i : grid1.Coords, EltTy.bits .bf16 = 32 ∨ (Rect.block (s := S256x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S16x128x2048.size a < S16x3000x2048.size a
  hwx1_1 : ∀ i : grid1.Coords, EltTy.bits .f32 = 32 ∨ (Rect.unit (s := S16x3000x2048) (fun a => cc1_transform_1 i a * S16x128x2048.size a) (fun a => (Pipeline.Clip.of (cc1_transform_1 i a) (S16x128x2048.size a) (S16x3000x2048.size a)).extent (S16x128x2048.size a)) fun a => Pipeline.Clip.inb (Pipeline.Clip.ok_of (hstart1_1 i a))).WholeWords (EltTy.packing .f32)
  hwxs1_1 : ∀ i : grid1.Coords, EltTy.bits .f32 = 32 ∨ (Rect.unit (s := S16x128x2048) (fun _ => 0) (fun a => (Pipeline.Clip.of (cc1_transform_1 i a) (S16x128x2048.size a) (S16x3000x2048.size a)).extent (S16x128x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S16x128.size a < S16x3000.size a
  hwx1_2 : ∀ i : grid1.Coords, EltTy.bits .f32 = 32 ∨ (Rect.unit (s := S16x3000) (fun a => cc1_transform_2 i a * S16x128.size a) (fun a => (Pipeline.Clip.of (cc1_transform_2 i a) (S16x128.size a) (S16x3000.size a)).extent (S16x128.size a)) fun a => Pipeline.Clip.inb (Pipeline.Clip.ok_of (hstart1_2 i a))).WholeWords (EltTy.packing .f32)
  hwxs1_2 : ∀ i : grid1.Coords, EltTy.bits .f32 = 32 ∨ (Rect.unit (s := S16x128) (fun _ => 0) (fun a => (Pipeline.Clip.of (cc1_transform_2 i a) (S16x128.size a) (S16x3000.size a)).extent (S16x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S256x16.size a
  hwx1_3 : ∀ i : grid1.Coords, EltTy.bits .f32 = 32 ∨ (Rect.block (s := S256x16) S256x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S256x128.size a < S256x3000.size a
  hwx1_4 : ∀ i : grid1.Coords, EltTy.bits .f32 = 32 ∨ (Rect.unit (s := S256x3000) (fun a => cc1_transform_4 i a * S256x128.size a) (fun a => (Pipeline.Clip.of (cc1_transform_4 i a) (S256x128.size a) (S256x3000.size a)).extent (S256x128.size a)) fun a => Pipeline.Clip.inb (Pipeline.Clip.ok_of (hstart1_4 i a))).WholeWords (EltTy.packing .f32)
  hwxs1_4 : ∀ i : grid1.Coords, EltTy.bits .f32 = 32 ∨ (Rect.unit (s := S256x128) (fun _ => 0) (fun a => (Pipeline.Clip.of (cc1_transform_4 i a) (S256x128.size a) (S256x3000.size a)).extent (S256x128.size a)) fun a => (Nat.zero_add _).trans_le (Pipeline.Clip.extent_le (Pipeline.Clip.ok_of (hstart1_4 i a)))).WholeWords (EltTy.packing .f32)

variable [Facts₀]

def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf

abbrev win0_0 : Pipeline.Window sig grid0 :=
  Pipeline.Window.ofSpec (Memref.whole main_v0) S16x512x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1x196.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S16x128x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg3) S16x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v4) S256x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v5) S256x128.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x1x14x14 : Shape := ⟨4, ![256, 1, 14, 14]⟩
abbrev S256x2048x14x14 : Shape := ⟨4, ![256, 2048, 14, 14]⟩
abbrev S16x3000x2048 : Shape := ⟨3, ![16, 3000, 2048]⟩
abbrev S16x3000 : Shape := ⟨2, ![16, 3000]⟩
abbrev S256 : Shape := ⟨1, ![256]⟩
abbrev S256x2048x196 : Shape := ⟨3, ![256, 2048, 196]⟩
abbrev S256x1x196 : Shape := ⟨3, ![256, 1, 196]⟩
abbrev S_ : Shape := ⟨0, ![]⟩
abbrev S256x2048 : Shape := ⟨2, ![256, 2048]⟩
abbrev S256x1 : Shape := ⟨2, ![256, 1]⟩
abbrev S256x16x3000 : Shape := ⟨3, ![256, 16, 3000]⟩
abbrev S1x16x3000 : Shape := ⟨3, ![1, 16, 3000]⟩
abbrev S256x1x1 : Shape := ⟨3, ![256, 1, 1]⟩
abbrev S1 : Shape := ⟨1, ![1]⟩
abbrev S1x1x1 : Shape := ⟨3, ![1, 1, 1]⟩
abbrev S256x1x3000 : Shape := ⟨3, ![256, 1, 3000]⟩
abbrev S256x3000 : Shape := ⟨2, ![256, 3000]⟩

abbrev nBuf : Space → Nat
  | .hbm => 46
  | .vmem => 0
  | .smem => 0
  | _ => 0

abbrev bufTy : (tb : Table) → Fin (tcTables nBuf tb) → BufTy
  | .hbm, ⟨0, _⟩ => ⟨S256x1x14x14, .f32⟩
  | .hbm, ⟨1, _⟩ => ⟨S256x2048x14x14, .f32⟩
  | .hbm, ⟨2, _⟩ => ⟨S16x3000x2048, .f32⟩
  | .hbm, ⟨3, _⟩ => ⟨S16x3000, .f32⟩
  | .hbm, ⟨4, _⟩ => ⟨S256, .i32⟩
  | .hbm, ⟨5, _⟩ => ⟨S256x2048x196, .f32⟩
  | .hbm, ⟨6, _⟩ => ⟨S256x1x196, .f32⟩
  | .hbm, ⟨7, _⟩ => ⟨S_, .f32⟩
  | .hbm, ⟨8, _⟩ => ⟨S256x1x196, .f32⟩
  | .hbm, ⟨9, _⟩ => ⟨S256x1x196, .f32⟩
  | .hbm, ⟨10, _⟩ => ⟨S256x2048x196, .f32⟩
  | .hbm, ⟨11, _⟩ => ⟨S256x2048x196, .f32⟩
  | .hbm, ⟨12, _⟩ => ⟨S_, .f32⟩
  | .hbm, ⟨13, _⟩ => ⟨S256x2048, .f32⟩
  | .hbm, ⟨14, _⟩ => ⟨S_, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x16x3000, .f32⟩
  | .hbm, ⟨19, _⟩ => ⟨S1x16x3000, .f32⟩
  | .hbm, ⟨20, _⟩ => ⟨S256x16x3000, .f32⟩
  | .hbm, ⟨21, _⟩ => ⟨S256x16x3000, .f32⟩
  | .hbm, ⟨22, _⟩ => ⟨S256x1x1, .i32⟩
  | .hbm, ⟨23, _⟩ => ⟨S_, .i32⟩
  | .hbm, ⟨24, _⟩ => ⟨S256x1x1, .i32⟩
  | .hbm, ⟨25, _⟩ => ⟨S256x1x1, .i1⟩
  | .hbm, ⟨26, _⟩ => ⟨S_, .i32⟩
  | .hbm, ⟨27, _⟩ => ⟨S256x1x1, .i32⟩
  | .hbm, ⟨28, _⟩ => ⟨S256x1x1, .i32⟩
  | .hbm, ⟨29, _⟩ => ⟨S256x1x1, .i32⟩
  | .hbm, ⟨30, _⟩ => ⟨S1, .i32⟩
  | .hbm, ⟨31, _⟩ => ⟨S_, .i32⟩
  | .hbm, ⟨32, _⟩ => ⟨S256x1x1, .i32⟩
  | .hbm, ⟨33, _⟩ => ⟨S256x1x1, .i1⟩
  | .hbm, ⟨34, _⟩ => ⟨S1x1x1, .i32⟩
  | .hbm, ⟨35, _⟩ => ⟨S256x1x1, .i32⟩
  | .hbm, ⟨36, _⟩ => ⟨S256x1x1, .i1⟩
  | .hbm, ⟨37, _⟩ => ⟨S256x1x1, .i1⟩
  | .hbm, ⟨38, _⟩ => ⟨S_, .i1⟩
  | .hbm, ⟨39, _⟩ => ⟨S256x1, .i1⟩
  | .hbm, ⟨40, _⟩ => ⟨S256x1x3000, .f32⟩
  | .hbm, ⟨41, _⟩ => ⟨S256x1x3000, .i1⟩
  | .hbm, ⟨42, _⟩ => ⟨S_, .f32⟩
  | .hbm, ⟨43, _⟩ => ⟨S256x1x3000, .f32⟩
  | .hbm, ⟨44, _⟩ => ⟨S256x1x3000, .f32⟩
  | .hbm, ⟨45, _⟩ => ⟨S256x3000, .f32⟩
  | _, _ => ⟨S256x1x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_c_2 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]

class Facts₀ : Prop where
  shapeCasts_S256x2048x14x14_S256x2048x196 : S256x2048x14x14.ShapeCasts S256x2048x196
  shapeCasts_S256x1x14x14_S256x1x196 : S256x1x14x14.ShapeCasts S256x1x196
  bcast_S_S256x1x196 : S_.BroadcastsInDim S256x1x196 (![] : Fin 0 → Fin S256x1x196.rank)
  bcast_S256x1x196_S256x2048x196_0_1_2 : S256x1x196.BroadcastsInDim S256x2048x196 (![0, 1, 2] : Fin 3 → Fin S256x2048x196.rank)
  reducesTo_S256x2048x196_S256x2048_d2 : S256x2048x196.ReducesTo [2] S256x2048
  h_S_ : 0 < S_.numel
  reducesTo_S256x1x196_S256x1_d2 : S256x1x196.ReducesTo [2] S256x1
  bcast_S256x1_S256x2048_0_1 : S256x1.BroadcastsInDim S256x2048 (![0, 1] : Fin 2 → Fin S256x2048.rank)
  bcast_S16x3000_S1x16x3000_1_2 : S16x3000.BroadcastsInDim S1x16x3000 (![1, 2] : Fin 2 → Fin S1x16x3000.rank)
  bcast_S1x16x3000_S256x16x3000_0_1_2 : S1x16x3000.BroadcastsInDim S256x16x3000 (![0, 1, 2] : Fin 3 → Fin S256x16x3000.rank)
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  bcast_S256x1_S256x1x3000_0_1 : S256x1.BroadcastsInDim S256x1x3000 (![0, 1] : Fin 2 → Fin S256x1x3000.rank)
  bcast_S_S256x1x3000 : S_.BroadcastsInDim S256x1x3000 (![] : Fin 0 → Fin S256x1x3000.rank)
  shapeCasts_S256x1x3000_S256x3000 : S256x1x3000.ShapeCasts S256x3000
  dot_S256x2048_S16x3000x2048_S256x16x3000_1_2_0_01_n_n_wf : DotDims.WF S256x2048 S16x3000x2048 S256x16x3000 [1] [2] [0] [0, 1] [] []
  gather_S256x16x3000_S256x1x1_S256x1x3000_2_1_0_0_1_2_113000_wf : GatherDims.WF S256x16x3000 S256x1x1 S256x1x3000 [2] [1] [0] [1] [0] 2 ![1, 1, 3000]

variable [Facts₀]

def dot_S256x2048_S16x3000x2048_S256x16x3000_1_2_0_01_n_n : DotDims S256x2048 S16x3000x2048 S256x16x3000 where
  lhsContracting := [1]
  rhsContracting := [2]
  lhsNonContracting := [0]
  rhsNonContracting := [0, 1]
  lhsBatch := []
  rhsBatch := []
  wf := dot_S256x2048_S16x3000x2048_S256x16x3000_1_2_0_01_n_n_wf
def gather_S256x16x3000_S256x1x1_S256x1x3000_2_1_0_0_1_2_113000 : GatherDims S256x16x3000 S256x1x1 S256x1x3000 where
  offsetDims := [2]
  collapsedSliceDims := [1]
  operandBatchingDims := [0]
  startIndicesBatchingDims := [0]
  startIndexMap := [1]
  indexVectorDim := 2
  sliceSizes := ![1, 1, 3000]
  wf := gather_S256x16x3000_S256x1x1_S256x1x3000_2_1_0_0_1_2_113000_wf

class Facts : Prop extends Facts₀ where

variable [Facts]
-- ==== Proof.KExpertFn.lean ====
/-
  The expert kernel's stored value as ONE pure function of the four staging blocks, at any float instance:
  the attended rows `x0` [256, 2048], the sixteen experts' weight rows `x1` [16, 128, 2048] (one block of 128
  answers), the bias block `x2` [16, 128] and the one-hot selector `x3` [256, 16].  The body unrolls the
  experts: for e = 0 … 15 it takes the slice x1[e] (a [1, 128, 2048] load), contracts the attended rows with it over
  the 2048 channels, adds the bias row x2[e], scales by the selector column x3[:, e] and adds into the accumulator,
  which starts at zero.  The printed body is cut into parts of sixty statements; the stages below follow that cut
  (two experts and part of the third, then up to the sixth, the ninth, the thirteenth, and the last three).
-/
import proofs.«406250_j6047313952809_3_alg».proof.Proof.Gen.Kernel.Skeleton
import Idealize.ShloMosaic.Lib.Pipeline.FrameBody
import Idealize.ShloMosaic.Lib.Pipeline.Value

noncomputable section

namespace Cert.Kernel.Hand

open Idealize.ShloMosaic Idealize.SL.Sem
open Cert.Kernel Cert.Kernel.Gen

variable {F : FTy → Type} [FloatOps F]

/-! ## The sixteen slices of the weight block: expert `e`'s rows, a [1, 128, 2048] rectangle at offset (e, 0, 0) -/

abbrev rW0 : Rect S16x128x2048 := Rect.unit (s := S16x128x2048) ![0, 0, 0] S1x128x2048.size inb_S16x128x2048_S1x128x2048_0_0_0
abbrev rW1 : Rect S16x128x2048 := Rect.unit (s := S16x128x2048) ![1, 0, 0] S1x128x2048.size inb_S16x128x2048_S1x128x2048_1_0_0
abbrev rW2 : Rect S16x128x2048 := Rect.unit (s := S16x128x2048) ![2, 0, 0] S1x128x2048.size inb_S16x128x2048_S1x128x2048_2_0_0
abbrev rW3 : Rect S16x128x2048 := Rect.unit (s := S16x128x2048) ![3, 0, 0] S1x128x2048.size inb_S16x128x2048_S1x128x2048_3_0_0
abbrev rW4 : Rect S16x128x2048 := Rect.unit (s := S16x128x2048) ![4, 0, 0] S1x128x2048.size inb_S16x128x2048_S1x128x2048_4_0_0
abbrev rW5 : Rect S16x128x2048 := Rect.unit (s := S16x128x2048) ![5, 0, 0] S1x128x2048.size inb_S16x128x2048_S1x128x2048_5_0_0
abbrev rW6 : Rect S16x128x2048 := Rect.unit (s := S16x128x2048) ![6, 0, 0] S1x128x2048.size inb_S16x128x2048_S1x128x2048_6_0_0
abbrev rW7 : Rect S16x128x2048 := Rect.unit (s := S16x128x2048) ![7, 0, 0] S1x128x2048.size inb_S16x128x2048_S1x128x2048_7_0_0
abbrev rW8 : Rect S16x128x2048 := Rect.unit (s := S16x128x2048) ![8, 0, 0] S1x128x2048.size inb_S16x128x2048_S1x128x2048_8_0_0
abbrev rW9 : Rect S16x128x2048 := Rect.unit (s := S16x128x2048) ![9, 0, 0] S1x128x2048.size inb_S16x128x2048_S1x128x2048_9_0_0
abbrev rW10 : Rect S16x128x2048 := Rect.unit (s := S16x128x2048) ![10, 0, 0] S1x128x2048.size inb_S16x128x2048_S1x128x2048_10_0_0
abbrev rW11 : Rect S16x128x2048 := Rect.unit (s := S16x128x2048) ![11, 0, 0] S1x128x2048.size inb_S16x128x2048_S1x128x2048_11_0_0
abbrev rW12 : Rect S16x128x2048 := Rect.unit (s := S16x128x2048) ![12, 0, 0] S1x128x2048.size inb_S16x128x2048_S1x128x2048_12_0_0
abbrev rW13 : Rect S16x128x2048 := Rect.unit (s := S16x128x2048) ![13, 0, 0] S1x128x2048.size inb_S16x128x2048_S1x128x2048_13_0_0
abbrev rW14 : Rect S16x128x2048 := Rect.unit (s := S16x128x2048) ![14, 0, 0] S1x128x2048.size inb_S16x128x2048_S1x128x2048_14_0_0
abbrev rW15 : Rect S16x128x2048 := Rect.unit (s := S16x128x2048) ![15, 0, 0] S1x128x2048.size inb_S16x128x2048_S1x128x2048_15_0_0

/-! ## The stages of the accumulator -/

/-- After the first part: experts 0 and 1 accumulated. -/
def accA (x0 : Vec F S256x2048 .bf16) (x1 : Vec F S16x128x2048 .f32) (x2 : Vec F S16x128 .f32) (x3 : Vec F S256x16 .f32) : FVec F S256x128 .f32 :=
  k1_pay4 x0 x3 x2 (View.ld x1 rW0) (View.ld x1 rW1)

/-- After the second part: experts 0 … 5 accumulated (expert 2's product and bias row were formed in the first part). -/
def accB (x0 : Vec F S256x2048 .bf16) (x1 : Vec F S16x128x2048 .f32) (x2 : Vec F S16x128 .f32) (x3 : Vec F S256x16 .f32) : FVec F S256x128 .f32 :=
  k1_pay7 (k1_pay2 x0) (k1_pay3 x3) x2 (accA x0 x1 x2 x3) (k1_pay5 x0 (View.ld x1 rW2)) (k1_pay6 x2)
    (View.ld x1 rW3) (View.ld x1 rW4) (View.ld x1 rW5)

/-- After the third part: experts 0 … 8 accumulated (expert 6's slice was loaded in the second part). -/
def accC (x0 : Vec F S256x2048 .bf16) (x1 : Vec F S16x128x2048 .f32) (x2 : Vec F S16x128 .f32) (x3 : Vec F S256x16 .f32) : FVec F S256x128 .f32 :=
  k1_pay8 (k1_pay2 x0) (k1_pay3 x3) x2 (accB x0 x1 x2 x3) (View.ld x1 rW6) (View.ld x1 rW7) (View.ld x1 rW8)

/-- After the fourth part: experts 0 … 12 accumulated (expert 9's product with its bias row was formed in the third part). -/
def accD (x0 : Vec F S256x2048 .bf16) (x1 : Vec F S16x128x2048 .f32) (x2 : Vec F S16x128 .f32) (x3 : Vec F S256x16 .f32) : FVec F S256x128 .f32 :=
  k1_pay10 (k1_pay2 x0) (k1_pay3 x3) x2 (accC x0 x1 x2 x3) (k1_pay9 (k1_pay2 x0) x2 (View.ld x1 rW9))
    (View.ld x1 rW10) (View.ld x1 rW11) (View.ld x1 rW12)

/-- What the body stores: all sixteen experts accumulated (expert 13's slice was loaded and re-laid in the fourth part). -/
def expertOut (x0 : Vec F S256x2048 .bf16) (x1 : Vec F S16x128x2048 .f32) (x2 : Vec F S16x128 .f32) (x3 : Vec F S256x16 .f32) : Vec F S256x128 .f32 :=
  k1_pay1 (k1_pay2 x0) (k1_pay3 x3) x2 (accD x0 x1 x2 x3) (k1_pay11 (View.ld x1 rW13)) (View.ld x1 rW14) (View.ld x1 rW15)

/-- What the pooling body stores: the masked average of the feature block `x0` [16, 512, 196] under the mask block `x1` [16, 1, 196]. -/
def poolOut (x0 : Vec F S16x512x196 .f32) (x1 : Vec F S16x1x196 .f32) : Vec F S16x512 .bf16 :=
  k0_pay1 x1 x0

end Cert.Kernel.Hand

end
-- ==== Proof.KPoolData.lean ====
/-
  The pooling region (the first pallas_call): on a 16 x 4 grid, point (i, j) reads the feature block
  [16 i .. 16 i + 15, 512 j .. 512 j + 511, all 196 positions] and the mask block [16 i .., 0, all positions] and
  writes the [16, 512] block of masked averages.  Every block lies inside its array, every load and the one store
  take the whole staging buffer.  Stated at a parameter `V`, the buffer contents when the region is entered, and
  at any float instance.
-/
import proofs.«406250_j6047313952809_3_alg».proof.Proof.Gen.Kernel.Launch
import proofs.«406250_j6047313952809_3_alg».proof.Proof.Gen.Kernel.Skeleton
import proofs.«406250_j6047313952809_3_alg».proof.Proof.Gen.Kernel.Points
import proofs.«406250_j6047313952809_3_alg».proof.Proof.KExpertFn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the pooling pipeline: the arrays as found; after the body each input buffer at its block and
    the output buffer at the masked average of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => poolOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = poolOut (iblk0 V c 0 t) (iblk0 V c 1 t) := by dsimp only [dat0]

end Region

end Cert.Kernel.Hand

end
-- ==== Proof.KExpertData.lean ====
/-
  The expert region (the second pallas_call): on a grid of 24 points, point j reads the whole attended array
  [256, 2048] and the whole selector [256, 16] (fetched once, at the first point), the weight block
  [16, 128 j .. 128 j + 127, 2048] and the bias block [16, 128 j .. 128 j + 127], and writes the block
  [256, 128 j .. 128 j + 127] of the result.  3000 = 23 * 128 + 56: at the last point the weight, bias and result
  blocks overhang their arrays by 72 answers; the fetches fill the first 56 and leave the rest at contents nothing
  names, and the write-back moves the first 56 only.  Stated at a parameter `V`, at any float instance.
-/
import proofs.«406250_j6047313952809_3_alg».proof.Proof.Gen.Kernel.Launch
import proofs.«406250_j6047313952809_3_alg».proof.Proof.Gen.Kernel.Skeleton
import proofs.«406250_j6047313952809_3_alg».proof.Proof.Gen.Kernel.Points
import proofs.«406250_j6047313952809_3_alg».proof.Proof.KExpertFn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` — its part inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight block at point `t` filled out to [16, 128, 2048] with `d` past the array's end. -/
def wfill (c : Dev nD) (t : Fin cfg1.N) (d : S16x128x2048.Idx → Elt F .f32) : S16x128x2048.Idx → Elt F .f32 :=
  win1_1.fill (grid1.coords t) d (iblk1 V c 1 t)
/-- The bias block at point `t` filled out to [16, 128] with `d` past the array's end. -/
def bfill (c : Dev nD) (t : Fin cfg1.N) (d : S16x128.Idx → Elt F .f32) : S16x128.Idx → Elt F .f32 :=
  win1_2.fill (grid1.coords t) d (iblk1 V c 2 t)
/-- The same with the zero word as filler: the contents the proof data names. -/
def wblk (c : Dev nD) (t : Fin cfg1.N) : S16x128x2048.Idx → Elt F .f32 := wfill V c t (fun _ => Scalar.ofBits .f32 0#32)
def bblk (c : Dev nD) (t : Fin cfg1.N) : S16x128.Idx → Elt F .f32 := bfill V c t (fun _ => Scalar.ofBits .f32 0#32)

/-- The proof data of the expert pipeline: the arrays as found; after the body each input buffer at its block
    (filled out with zero words where the block overhangs) and the result buffer at the body's function of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => iblk1 V c 3 t
    | ⟨4, _⟩ => expertOut (iblk1 V c 0 t) (wblk V c t) (bblk V c t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = expertOut (iblk1 V c 0 t) (wblk V c t) (bblk V c t) (iblk1 V c 3 t) := by dsimp only [dat1]

/-- The mask that forgets the result window (window 4) and no other. -/
def forget4 : Fin cfg1.W → Bool
  | ⟨4, _⟩ => true
  | _ => false

end Region

end Cert.Kernel.Hand

end
-- ==== Proof.KPool.lean ====
/-
  The pooling region (the first pallas_call), its body obligation: on a 16 x 4 grid, point (i, j) reads the feature
  block [16 i .. 16 i + 15, 512 j .. 512 j + 511, all 196 positions] and the mask block [16 i .., 0, all positions]
  and writes the [16, 512] block of masked averages.  Every block lies inside its array, every load and the one
  store take the whole staging buffer: a whole load reads the buffer's contents and the one whole store leaves its
  payload, so the result buffer after the body is the masked average of the two input blocks.  Stated at a
  parameter `V`, the buffer contents when the region is entered, and at any float instance.
-/
import proofs.«406250_j6047313952809_3_alg».proof.Proof.KPoolData
import proofs.«406250_j6047313952809_3_alg».proof.Proof.Gen.Kernel.Launch
import proofs.«406250_j6047313952809_3_alg».proof.Proof.Gen.Kernel.Skeleton
import proofs.«406250_j6047313952809_3_alg».proof.Proof.Gen.Kernel.Points
import proofs.«406250_j6047313952809_3_alg».proof.Proof.KExpertFn
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The input windows' buffers hold their blocks -/

/-- The feature window's current staging buffer holds its block at every point: fetched at every point, the window
    uncut and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's current staging buffer holds its block at every point, fetched there (the points t with
    t % 4 = 0) or not: unfetched, the block index has not moved since the previous point and the body left the block
    in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each takes a whole staging buffer -/

abbrev rF0 : Rect S16x512x196 := Rect.unit (s := S16x512x196) ![0, 0, 0] S16x512x196.size inb_S16x512x196_S16x512x196_0_0_0
abbrev rM0 : Rect S16x1x196 := Rect.unit (s := S16x1x196) ![0, 0, 0] S16x1x196.size inb_S16x1x196_S16x1x196_0_0_0
abbrev rO0 : Rect S16x512 := Rect.unit (s := S16x512) ![0, 0] S16x512.size inb_S16x512_S16x512_0_0

theorem zeros2 : (![0, 0] : Fin 2 → Nat) = fun _ => 0 := by
  funext a; match a with | 0 => rfl | 1 => rfl
theorem zeros3 : (![0, 0, 0] : Fin 3 → Nat) = fun _ => 0 := by
  funext a; match a with | 0 => rfl | 1 => rfl | 2 => rfl

/-- The result window's staging buffer after the body, from the two input buffers: its one store as one piece. -/
def out0_2 (x0 : Vec F S16x512x196 .f32) (x1 : Vec F S16x1x196 .f32) : Vec F S16x512 .bf16 :=
  View.canon [⟨rO0, k0_pay1 (View.ld x1 rM0) (View.ld x0 rF0)⟩]

/-- The one store covers the buffer: its rectangle is the whole shape. -/
theorem cover0_2 (p0 : Vec F S16x512 .bf16) (y : S16x512.Idx) :
    ∃ pc ∈ ([⟨rO0, p0⟩] : List (View.Piece (Elt F) S16x512 .bf16)), y ∈ pc.1.set :=
  ⟨_, List.mem_singleton_self _, View.mem_set_unit_zero zeros2 inb_S16x512_S16x512_0_0 y⟩

/-- A whole load reads the buffer and the one whole store leaves its payload: the buffer after the body is the
    masked average of the two input buffers. -/
theorem out0_2_eq (x0 : Vec F S16x512x196 .f32) (x1 : Vec F S16x1x196 .f32) : out0_2 x0 x1 = poolOut x0 x1 := by
  unfold out0_2 poolOut
  rw [View.canon_unit_zero zeros2, View.ld_unit_zero zeros3, View.ld_unit_zero zeros3]

/-! ## The body's triple -/

set_option maxHeartbeats 1000000 in
/-- The kernel body on whole staging buffers, the inputs' at contents `x0`, `x1` and the result's at anything, runs
    to the continuation holding the inputs' as they were and the result's at `out0_2` of them. -/
theorem sound_kernel0 (c : Dev nD) (E : Set ℕ) (i : grid0.Coords)
    (arg2 : Memref sig .tc .vmem S16x512x196 .f32) (harg2 : arg2.IsWhole)
    (arg3 : Memref sig .tc .vmem S16x1x196 .f32) (harg3 : arg3.IsWhole)
    (arg4 : Memref sig .tc .vmem S16x512 .bf16) (harg4 : arg4.IsWhole)
    (x0 : Vec F S16x512x196 .f32) (x1 : Vec F S16x1x196 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__pool_kernel i arg2 harg2 arg3 harg3 arg4 harg4) K := by
  simp only [cc0__pool_kernel_eq_skeleton]; unfold cc0__pool_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, ← out0_2_eq]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pooling pipeline at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KRun.lean ====
/-
  The run of the whole program: two host stretches of re-laying, the pooling region, the host stretches that clamp the
  expert index and make the selector, and the expert region — every weakly fair execution terminates, and at the end every
  buffer that outlives the regions holds what the host operations and the two pipelines leave: the arguments as
  launched, and the result array at what the expert pipeline's write-backs leave (named when the expert region's proof
  data names its result, otherwise at contents not named).  At any float instance; the expert region's body obligation
  is a parameter, with the mask of the windows whose contents it does not name.
-/
import proofs.«406250_j6047313952809_3_alg».proof.Proof.Gen.Kernel.Regions
import proofs.«406250_j6047313952809_3_alg».proof.Proof.KPoolData
import proofs.«406250_j6047313952809_3_alg».proof.Proof.KExpertData
import proofs.«406250_j6047313952809_3_alg».proof.Proof.KPool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (Seg HostSeg RDat)

variable (m : (ℓ : Loc nD τ sig) → Buf (Elt F) ℓ) (ρ : Dev nD → PrngReg)

/-! ## The buffer contents at the regions' entries and exits -/

/-- What the pooling region finds: the launch contents after the two re-layings. -/
abbrev E1 : (c : Dev nD) → (b : Ref sig .tc) → Buf (Elt F) ((c : Thread nD τ).loc b) := fun c b => V1 m c b

/-- What the pooling region leaves: its arrays at what its write-backs leave, every other buffer as found. -/
def X2 (c : Dev nD) : Valuation τ sig (Elt F) :=
  Pipeline.withArrays spec0 c (V1 m c) fun w => (dat0 (E1 m) c).arrAt w cfg0.N

/-- The pooling region's result as the contents the later items are stated over. -/
def outs2 : Outs (F := F) := fun _ r c => X2 m c (Proc.devRef .tc r)

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = V1 m c (Proc.devRef .tc b) := by
  unfold X2; exact Pipeline.withArrays_of_ne spec0 c _ _ b hb

/-- The contents after the pooling region, read at the TensorCore's references. -/
abbrev E2 : (c : Dev nD) → (b : Ref sig .tc) → Buf (Elt F) ((c : Thread nD τ).loc b) := fun c b => V2 m (outs2 m) c b

/-- After the pooling region its result array holds what the write-backs leave, -/
theorem E2_main_v2 (c : Dev nD) : E2 m c main_v2 = (dat0 (E1 m) c).arrAt 2 cfg0.N := by
  show Function.update (V1 m c) (Proc.devRef .tc main_v2) (X2 m c (Proc.devRef .tc main_v2)) (Proc.devRef .tc main_v2) = _
  rw [Function.update_self]; exact X2_arr m c 2
/-- and every other buffer what it held. -/
theorem E2_of_ne (c : Dev nD) (b : Ref sig .tc) (hb : b ≠ main_v2) : E2 m c b = E1 m c b :=
  V2_of m (outs2 m) c b (by simp only [List.mem_singleton]; exact hb)

/-- What the expert region finds. -/
abbrev E5 : (c : Dev nD) → (b : Ref sig .tc) → Buf (Elt F) ((c : Thread nD τ).loc b) := fun c b => V5 m (outs2 m) c b

/-- What the expert region leaves when its result array ends at `F4`. -/
def Vfin (c : Dev nD) (F4 : Buf (Elt F) ((c : Thread nD τ).loc main_v5)) : Valuation τ sig (Elt F) :=
  Function.update (V5 m (outs2 m) c) (Proc.devRef .tc main_v5) F4
abbrev Efin (c : Dev nD) (F4 : Buf (Elt F) ((c : Thread nD τ).loc main_v5)) : (b : Ref sig .tc) → Buf (Elt F) ((c : Thread nD τ).loc b) :=
  fun b => Vfin m c F4 b

theorem Efin_main_v5 (c : Dev nD) (F4 : Buf (Elt F) ((c : Thread nD τ).loc main_v5)) : Efin m c F4 main_v5 = F4 := by
  show Function.update (V5 m (outs2 m) c) (Proc.devRef .tc main_v5) F4 (Proc.devRef .tc main_v5) = _
  rw [Function.update_self]
theorem Efin_of_ne (c : Dev nD) (F4 : Buf (Elt F) ((c : Thread nD τ).loc main_v5)) (b : Ref sig .tc) (hb : b ≠ main_v5) :
    Efin m c F4 b = E5 m c b := by
  show Function.update (V5 m (outs2 m) c) (Proc.devRef .tc main_v5) F4 (Proc.devRef .tc b) = _
  rw [Function.update_of_ne (StableHlo.devRef_ne_of_ne hb)]

/-! ## The proof data -/

/-- The prefetched tables' admissible contents: no pipeline has a table. -/
abbrev adm' : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E5 m) c

/-- At the pooling region's exit each of its arrays holds what the pipeline leaves, -/
theorem hF0 (c : Dev nD) (w : Fin cfg0.W) : (pdats m 0 c).arrAt w cfg0.N = E2 m c (Pipeline.arrRef spec0 w) := by
  match w with
  | ⟨0, _⟩ => exact ((dat0 (E1 m) c).arrAt_in 0 rfl _).trans (E2_of_ne m c main_v0 (by decide)).symm
  | ⟨1, _⟩ => exact ((dat0 (E1 m) c).arrAt_in 1 rfl _).trans (E2_of_ne m c main_v1 (by decide)).symm
  | ⟨2, _⟩ => exact (E2_main_v2 m c).symm
/-- and every other buffer what it held. -/
theorem hrest0 (c : Dev nD) : ∀ b, b ∉ Finset.univ.image (Pipeline.arrRef spec0) → E2 m c b = E1 m c b :=
  fun b hb => E2_of_ne m c b fun e => hb (Finset.mem_image.mpr ⟨2, Finset.mem_univ _, e.symm⟩)

variable (fgt1 : Fin cfg1.W → Bool)

/-- The same read as relations between what the body is handed and what it leaves, the expert region's windows
    in `fgt1` left unnamed. -/
def rdats : (p : Fin 2) → (c : Dev nD) → RDat τ (Elt F) Unit ℕ (UR sig nD τ) ℕ (Pipeline.pin (pcfgs (F := F)) adm' p) c
  | ⟨0, _⟩ => fun c => (dat0 (E1 m) c).toRForget (fun _ => false)
  | ⟨1, _⟩ => fun c => (dat1 (E5 m) c).toRForget fgt1

abbrev 𝒱₀' : Variants := Variants.none
abbrev L' : GSem nD τ sig → Finset Unit := fun _ => ∅
abbrev lv' : GSem nD τ sig → Unit → ℕ := fun _ _ => 0
/-- What rides beside the buffers: the generator register at some state, and the core owing nothing. -/
abbrev R' (c : Dev nD) : sProp 𝕄 := iprop((∃ r, prngReg c r) ∗ ∃ W, owes (c : Thread nD τ) (0 : CellTallies nD τ sig Unit) W)

set_option backward.isDefEq.respectTransparency.types false in
/-- THE POOLING REGION over the thread state: entered from every unscoped buffer at the contents after the re-layings, left
    at those with the attended array at what the write-backs leave. -/
def reg0 : Pipeline.RDat.RegionSeg (pcfgs (F := F)) adm' (rdats m fgt1) () defs₀ 𝒱₀' L' lv' 0 where
  win := launch0.win.to₀
  block_pos := launch0.block_pos
  stage_whole := launch0.stage_whole
  K := PEmpty
  osem k := k.elim
  ho := Pipeline.OwnSemFacts.none _
  hbody c := ((body_obligation0 (E1 m) c).loose).toRForget
  hwaits := Pipeline.RDat.hwaits_of_owed_zero _ _ _ _ L' lv' 0 fun _ _ => rfl
  pre c := iprop(StableHlo.held (c : Thread nD τ) (Pipeline.ucRefs τ sig) (V1 m c) ∗ R' c)
  post c := iprop(StableHlo.held (c : Thread nD τ) (Pipeline.ucRefs τ sig) (V2 m (outs2 m) c) ∗ R' c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) adm' (rdats m fgt1) launch0.win launch0.arr_whole c
      (fun w => (dat0 (E1 m) c).share_full (fun _ => rfl) w) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    rw [show (rdats m fgt1 0 c).arraysAt (Pipeline.pin (pcfgs (F := F)) adm' 0).N = (pdats m 0 c).toR.arraysAt cfg0.N from rfl,
      Dat.toR_arraysAt_eq]
    have hjoin := Pipeline.unscopedBufs_of_arrays (p := 0) (pcfgs (F := F)) adm' (Ix := Unit) (Name := ℕ) (U := UR sig nD τ) (Lvl := ℕ)
      launch0.win launch0.arr_whole c (pdats m) (fun w => (dat0 (E1 m) c).share_full (fun _ => rfl) w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

variable (hb1 : ∀ c, BodyObligationLoose (dat1 (F := F) (E5 m) c) (defs₀ (F := F)) Variants.none () Set.univ fgt1)

/-- The last thread state: every unscoped buffer at the contents after the expert region, the result array at SOME contents
    `F4` — what the write-backs leave, when the expert region's data names its result —, the generator register at some state. -/
def Tfin (c : Dev nD) : sProp 𝕄 :=
  iprop(∃ F4 : Buf (Elt F) ((c : Thread nD τ).loc main_v5), ⌜fgt1 4 = false → F4 = (dat1 (E5 m) c).arrAt 4 cfg1.N⌝
    ∗ StableHlo.held (c : Thread nD τ) (Pipeline.ucRefs τ sig) (Vfin m c F4) ∗ ∃ r, prngReg c r)

/-- The expert region's arrays at its exit, when the result array ends at `F4`: the inputs as found. -/
def Ffin (c : Dev nD) (F4 : Buf (Elt F) ((c : Thread nD τ).loc main_v5)) :
    (w : Fin cfg1.W) → Buf (Elt F) ((cfg1.win w).arr.view.loc (c : Thread nD τ))
  | ⟨0, _⟩ => (pdats m 1 c).A 0
  | ⟨1, _⟩ => (pdats m 1 c).A 1
  | ⟨2, _⟩ => (pdats m 1 c).A 2
  | ⟨3, _⟩ => (pdats m 1 c).A 3
  | ⟨4, _⟩ => F4

theorem hF1 (c : Dev nD) (F4 : Buf (Elt F) ((c : Thread nD τ).loc main_v5)) (w : Fin cfg1.W) :
    Ffin m c F4 w = Efin m c F4 (Pipeline.arrRef spec1 w) := by
  match w with
  | ⟨0, _⟩ => exact (Efin_of_ne m c F4 main_v2 (by decide)).symm
  | ⟨1, _⟩ => exact (Efin_of_ne m c F4 main_arg2 (by decide)).symm
  | ⟨2, _⟩ => exact (Efin_of_ne m c F4 main_arg3 (by decide)).symm
  | ⟨3, _⟩ => exact (Efin_of_ne m c F4 main_v4 (by decide)).symm
  | ⟨4, _⟩ => exact (Efin_main_v5 m c F4).symm
theorem hrest1 (c : Dev nD) (F4 : Buf (Elt F) ((c : Thread nD τ).loc main_v5)) :
    ∀ b, b ∉ Finset.univ.image (Pipeline.arrRef spec1) → Efin m c F4 b = E5 m c b :=
  fun b hb => Efin_of_ne m c F4 b fun e => hb (Finset.mem_image.mpr ⟨4, Finset.mem_univ _, e.symm⟩)

set_option backward.isDefEq.respectTransparency.types false in
/-- THE EXPERT REGION over the thread state: entered from every unscoped buffer at the contents after the selector is made,
    left at the last thread state beside the core owing nothing. -/
def reg1 : Pipeline.RDat.RegionSeg (pcfgs (F := F)) adm' (rdats m fgt1) () defs₀ 𝒱₀' L' lv' 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L' lv' 1 fun _ _ => rfl
  pre c := iprop(StableHlo.held (c : Thread nD τ) (Pipeline.ucRefs τ sig) (V5 m (outs2 m) c) ∗ R' c)
  post c := iprop(Tfin m fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.RDat.arrays_of_unscopedBufs (p := 1) (pcfgs (F := F)) adm' (rdats m fgt1) launch1.win launch1.arr_whole c
      (fun w => (dat1 (E5 m) c).share_full (fun _ => rfl) w) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    have hjoinF := fun (F4 : Buf (Elt F) ((c : Thread nD τ).loc main_v5)) =>
      Pipeline.unscopedBufs_of_arrays (p := 1) (pcfgs (F := F)) adm' (Ix := Unit) (Name := ℕ) (U := UR sig nD τ) (Lvl := ℕ)
        launch1.win launch1.arr_whole c (pdats m) (fun w => (dat1 (E5 m) c).share_full (fun _ => rfl) w)
        (E5 m c) (Efin m c F4) (Ffin m c F4) (hF1 m c F4) (hrest1 m c F4)
    unfold Pipeline.RDat.arraysAt
    rw [bigSep_W1]
    iintro ⟨⟨⟨%G0, %h0, H0⟩, ⟨%G1, %h1, H1⟩, ⟨%G2, %h2, H2⟩, ⟨%G3, %h3, H3⟩, ⟨%G4, %h4, H4⟩⟩, HO, HY, Hrest⟩
    rw [(rdats m fgt1 1 c).ArrAt_in 0 rfl] at h0
    rw [(rdats m fgt1 1 c).ArrAt_in 1 rfl] at h1
    rw [(rdats m fgt1 1 c).ArrAt_in 2 rfl] at h2
    rw [(rdats m fgt1 1 c).ArrAt_in 3 rfl] at h3
    subst h0 h1 h2 h3
    imodintro
    isplitr [HO]
    · unfold Tfin
      iexists G4
      isplitr
      · ipureintro; intro hf; exact ((dat1 (E5 m) c).toRForget_arrAt_iff hf _ G4).mp h4
      isplitr [HY]
      · have hj := hjoinF G4
        rw [Pipeline.unscopedBufs_held] at hj
        iapply hj
        isplitr [Hrest]
        · unfold Pipeline.Dat.arrays
          rw [bigSep_W1]
          isplitl [H0]; · iexact H0
          isplitl [H1]; · iexact H1
          isplitl [H2]; · iexact H2
          isplitl [H3]; · iexact H3
          iexact H4
        · iexact Hrest
      · iexact HY
    · unfold Pipeline.RDat.owesAt Pipeline.owesWithin
      icases HO with ⟨%W, -, HO⟩; iexists W; iexact HO

/-! ## @main as segments, and the launch -/

/-- The rest that rides along the host stretches: the same at each. -/
abbrev Erest : Fin 3 → Dev nD → sProp 𝕄 := fun _ c => R' c

/-- @main's six items in order: the re-layings, the pooling region, the two constants, the clamp, the selector, the expert region. -/
abbrev segs : List (Pipeline.RDat.Seg (pcfgs (F := F)) adm' (rdats m fgt1) () defs₀ 𝒱₀' L' lv') :=
  [ .host (seg0 m 𝒱₀' L' lv' (Erest (F := F))),
    .region (reg0 m fgt1),
    .host (seg2 m (outs2 m) 𝒱₀' L' lv' (Erest (F := F))),
    .host (seg3 m (outs2 m) 𝒱₀' L' lv' (Erest (F := F))),
    .host (seg4 m (outs2 m) 𝒱₀' L' lv' (Erest (F := F))),
    .region (reg1 m fgt1 hb1) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, and every final state holds
    each unscoped buffer at the contents after the expert region, the result array at some `F4` which is what the
    write-backs leave when the expert region's data names its result. -/
theorem run_main (hb1 : ∀ c, BodyObligationLoose (dat1 (F := F) (E5 m) c) (defs₀ (F := F)) Variants.none () Set.univ fgt1) : θ_run defs (onTc (τ := τ) (main (F := F))) ⟨m, fun _ => 0, ρ⟩ (fun r => ∀ c : Dev nD,
      ∃ F4 : Buf (Elt F) ((c : Thread nD τ).loc main_v5), (fgt1 4 = false → F4 = (dat1 (E5 m) c).arrAt 4 cfg1.N)
        ∧ ∀ b ∈ Pipeline.ucRefs τ sig, r.2.mem ((c : Thread nD τ).1, b) = Vfin m c F4 b) :=
  Pipeline.RDat.θ_run_regions_kit (pcfgs (F := F)) adm' (rdats m fgt1) () cellOf_inj emb₁ defs₀ 𝒱₀' L' lv' m ρ main (segs m fgt1 hb1)
    (fun c Q => by
      rewrite [main_chain c, Pipeline.RDat.Seg.run_eq_chain,
        show (segs m fgt1 hb1).map Pipeline.RDat.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R' c)) (Tₙ := Tfin m fgt1)
    (hch := ⟨fun _ => .rfl, fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ F4 : Buf (Elt F) ((c : Thread nD τ).loc main_v5), (fgt1 4 = false → F4 = (dat1 (E5 m) c).arrAt 4 cfg1.N)
        ∧ ∀ b ∈ Pipeline.ucRefs τ sig, s.mem ((c : Thread nD τ).1, b) = Vfin m c F4 b)
    (hfin := fun c s' => by
      unfold Tfin StableHlo.held
      iintro ⟨⟨%F4, %hF4, Hh, -⟩, HSI⟩
      ihave Hr := (pointsTo_read_all (Pipeline.ucRefs τ sig) (fun b => ((c : Thread nD τ).1, b)) (Vfin m c F4) s') $$ [Hh HSI]
      · isplitl [Hh] <;> iassumption
      icases Hr with ⟨%h, HSI⟩
      imodintro
      isplitr
      · ipureintro; exact ⟨F4, hF4, h⟩
      · iexact HSI)
    (hQ := fun _ h => h)

/-! ## What the run says of the arguments and of the result -/

/-- An argument's buffer is as launched at the end, whatever the result array ends at: no item writes it. -/
theorem Vfin_arg (c : Dev nD) (F4 : Buf (Elt F) ((c : Thread nD τ).loc main_v5)) (b : Ref sig .tc) (hb : b ≠ main_v5)
    (h6 : V6 m (outs2 m) c b = m ((c : Thread nD τ).loc b)) : Vfin m c F4 b = m ((c : Thread nD τ).loc b) :=
  (Efin_of_ne m c F4 b hb).trans ((V6_of m (outs2 m) c b (by simp only [List.mem_singleton]; exact hb)).symm.trans h6)

/-- THE FRAME: every weakly fair execution terminates and every argument ends as launched. -/
theorem frame_of_run (fgt1 : Fin cfg1.W → Bool) (hb1 : ∀ c, BodyObligationLoose (dat1 (F := F) (E5 m) c) (defs₀ (F := F)) Variants.none () Set.univ fgt1) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨F4, -, hm⟩ := h c
    exact ⟨(hm _ (mem_uc main_arg0 (by decide))).trans (Vfin_arg m c F4 main_arg0 (by decide) (V6_main_arg0 m (outs2 m) c)),
      (hm _ (mem_uc main_arg1 (by decide))).trans (Vfin_arg m c F4 main_arg1 (by decide) (V6_main_arg1 m (outs2 m) c)),
      (hm _ (mem_uc main_arg2 (by decide))).trans (Vfin_arg m c F4 main_arg2 (by decide) (V6_main_arg2 m (outs2 m) c)),
      (hm _ (mem_uc main_arg3 (by decide))).trans (Vfin_arg m c F4 main_arg3 (by decide) (V6_main_arg3 m (outs2 m) c)),
      (hm _ (mem_uc main_arg4 (by decide))).trans (Vfin_arg m c F4 main_arg4 (by decide) (V6_main_arg4 m (outs2 m) c))⟩)
    (run_main m ρ fgt1 hb1)

/-- THE VALUE: when the expert region's data names its result, the result array ends at what the write-backs leave, the
    arguments as launched. -/
theorem value_of_run (hb1 : ∀ c, BodyObligationLoose (dat1 (F := F) (E5 m) c) (defs₀ (F := F)) Variants.none () Set.univ fgt1) (hf : fgt1 4 = false) : θ_run defs (onTc (τ := τ) (main (F := F))) ⟨m, fun _ => 0, ρ⟩ (fun r => ∀ c : Dev nD,
      r.2.mem ((c.tc : Thread nD τ).loc main_v5) = (dat1 (E5 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨F4, hF4, hm⟩ := h c
    exact ⟨((hm _ (mem_uc main_v5 (by decide))).trans (Efin_main_v5 m c F4)).trans (hF4 hf),
      (hm _ (mem_uc main_arg0 (by decide))).trans (Vfin_arg m c F4 main_arg0 (by decide) (V6_main_arg0 m (outs2 m) c)),
      (hm _ (mem_uc main_arg1 (by decide))).trans (Vfin_arg m c F4 main_arg1 (by decide) (V6_main_arg1 m (outs2 m) c)),
      (hm _ (mem_uc main_arg2 (by decide))).trans (Vfin_arg m c F4 main_arg2 (by decide) (V6_main_arg2 m (outs2 m) c)),
      (hm _ (mem_uc main_arg3 (by decide))).trans (Vfin_arg m c F4 main_arg3 (by decide) (V6_main_arg3 m (outs2 m) c)),
      (hm _ (mem_uc main_arg4 (by decide))).trans (Vfin_arg m c F4 main_arg4 (by decide) (V6_main_arg4 m (outs2 m) c))⟩)
    (run_main m ρ fgt1 hb1)

end Cert.Kernel.Hand

end
-- ==== Proof.KExpert.lean ====
/-
  The expert region (the second pallas_call): on a grid of 24 points, point j reads the whole attended array
  [256, 2048] and the whole selector [256, 16] (fetched once, at the first point), the weight block
  [16, 128 j .. 128 j + 127, 2048] and the bias block [16, 128 j .. 128 j + 127], and writes the block
  [256, 128 j .. 128 j + 127] of the result.  3000 = 23 * 128 + 56: at the last point the weight, bias and result
  blocks overhang their arrays by 72 answers; the fetches fill the first 56 and leave the rest at contents nothing
  names, and the write-back moves the first 56 only.  Stated at a parameter `V`, at any float instance.
-/
import proofs.«406250_j6047313952809_3_alg».proof.Proof.Gen.Kernel.Launch
import proofs.«406250_j6047313952809_3_alg».proof.Proof.Gen.Kernel.Skeleton
import proofs.«406250_j6047313952809_3_alg».proof.Proof.Gen.Kernel.Points
import proofs.«406250_j6047313952809_3_alg».proof.Proof.KExpertFn
import proofs.«406250_j6047313952809_3_alg».proof.Proof.KExpertData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The kernel body on whole staging memrefs: the four inputs' at contents `x0 x1 x2 x3` and the result's at anything, it
    runs to the continuation holding the inputs' as they were and the result's at `expertOut x0 x1 x2 x3` — the three whole
    loads read the contents, the sixteen slice loads read the weight block's sixteen rectangles, the one whole store
    leaves its payload. -/
theorem sound_kernel1 (c : Dev nD) (E : Set ℕ) (i : grid1.Coords)
    (arg1 : Memref sig .tc .vmem S256x2048 .bf16) (harg1 : arg1.IsWhole)
    (arg2 : Memref sig .tc .vmem S16x128x2048 .f32) (harg2 : arg2.IsWhole)
    (arg3 : Memref sig .tc .vmem S16x128 .f32) (harg3 : arg3.IsWhole)
    (arg4 : Memref sig .tc .vmem S256x16 .f32) (harg4 : arg4.IsWhole)
    (arg5 : Memref sig .tc .vmem S256x128 .f32) (harg5 : arg5.IsWhole)
    (x0 : Vec F S256x2048 .bf16) (x1 : Vec F S16x128x2048 .f32) (x2 : Vec F S16x128 .f32) (x3 : Vec F S256x16 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (expertOut x0 x1 x2 x3)) -∗ K ⟨⟩))
      ⊢ wp frame (wpE (defs₀ (F := F)) Variants.none c none) E
          (cc1__expert_kernel i arg1 harg1 arg2 harg2 arg3 harg3 arg4 harg4 arg5 harg5) K := by
  simp only [cc1__expert_kernel_eq_skeleton]; unfold cc1__expert_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  have hz2 : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz2 inb_S256x128_S256x128_0_0 y⟩),
    View.canon_unit_zero hz2]
  sl_unfold_run_names
  have e0 : View.readAt (Elt F) arg1.view (Rect.unit ![0, 0] S256x2048.size inb_S256x2048_S256x2048_0_0).toLoadRect f0
      = View.read (Elt F) arg1.view f0 := View.ld_unit_zero hz2 inb_S256x2048_S256x2048_0_0 _
  have e2 : View.readAt (Elt F) arg3.view (Rect.unit ![0, 0] S16x128.size inb_S16x128_S16x128_0_0).toLoadRect f2
      = View.read (Elt F) arg3.view f2 := View.ld_unit_zero hz2 inb_S16x128_S16x128_0_0 _
  have e3 : View.readAt (Elt F) arg4.view (Rect.unit ![0, 0] S256x16.size inb_S256x16_S256x16_0_0).toLoadRect f3
      = View.read (Elt F) arg4.view f3 := View.ld_unit_zero hz2 inb_S256x16_S256x16_0_0 _
  rw [e0, e2, e3]
  simp only [View.readAt_eq_ld]
  unfold expertOut accD accC accB accA
  with_reducible rfl

section Region
variable (V : (c : Dev nD) → (b : Ref sig .tc) → Buf (Elt F) ((c : Thread nD τ).loc b))

/-- The attended rows' buffer holds the whole array at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The selector's buffer likewise. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The weight block's buffer, fetched at every point: the block inside the array, `d` past its end. -/
theorem before1_1 (c : Dev nD) (t : Fin cfg1.N) (d) : (dat1 V c).before 1 t d = wfill V c t d := by
  unfold Dat.before; rw [if_pos (fetch1_1 t)]; rfl

/-- The bias block's buffer likewise. -/
theorem before1_2 (c : Dev nD) (t : Fin cfg1.N) (d) : (dat1 V c).before 2 t d = bfill V c t d := by
  unfold Dat.before; rw [if_pos (fetch1_2 t)]; rfl

/-- The result's buffer, written back at every point, holds anything when the body starts. -/
theorem before1_4 (c : Dev nD) (t : Fin cfg1.N) (d) : (dat1 V c).before 4 t d = d :=
  (dat1 V c).before_out_reset 4 rfl t
    (by by_cases h0 : t.val = 0
        · exact .inl h0
        · exact .inr ⟨h0, flush1_4 _⟩) d

/-- The body at point `t`, the result window forgotten: the inputs' buffers hold their blocks (`before1_W`), the result's
    anything; the body leaves the inputs' as they were, and the result's at some contents. -/
theorem sound_body1_forget (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ X, owns (c : Thread nD τ) (st1_4 t) fullShare X))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ (∃ d, owns (c : Thread nD τ) (st1_1 t) fullShare
            (win1_1.fill (grid1.coords t) d (win1_1.cut (grid1.coords t) ((dat1 V c).after 1 t))))
        ∗ (∃ d, owns (c : Thread nD τ) (st1_2 t) fullShare
            (win1_2.fill (grid1.coords t) d (win1_2.cut (grid1.coords t) ((dat1 V c).after 2 t))))
        ∗ owns (c : Thread nD τ) (st1_3 t) fullShare ((dat1 V c).after 3 t)
        ∗ (∃ X, owns (c : Thread nD τ) (st1_4 t) fullShare X))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩, ⟨%X, H4⟩⟩
  iapply (sound_kernel1 c Set.univ _ _ _ _ _ _ _ _ _ _ _ (iblk1 V c 0 t) (wfill V c t d1) (bfill V c t d2) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H1]
  · iexists d1; rw [h1]; iexact H1
  isplitl [H2]
  · iexists d2; rw [h2]; iexact H2
  isplitl [H3]; · iexact H3
  iexists _; iexact H4

/-- The body obligation with the result window forgotten: at any float instance. -/
theorem body_obligation1_forget (c : Dev nD) :
    BodyObligationLoose (dat1 (F := F) V c) (defs₀ (F := F)) Variants.none () Set.univ forget4 := fun t => by
  rw [bigSep_W1, bigSep_W1]
  exact sound_body1_forget V c t

/-- The body at point `t`, the result named: the body leaves `expertOut` of what the four input buffers hold — the weight
    and bias blocks filled out past their arrays' ends with whatever was there —, which on the part the write-back moves is
    `expertOut` of the blocks filled out with zero words (`hloc`). -/
theorem sound_body1_of_local (c : Dev nD)
    (hloc : ∀ (t : Fin cfg1.N) (dW : S16x128x2048.Idx → Elt F .f32) (db : S16x128.Idx → Elt F .f32),
      win1_4.cut (grid1.coords t) (expertOut (iblk1 V c 0 t) (wfill V c t dW) (bfill V c t db) (iblk1 V c 3 t))
        = win1_4.cut (grid1.coords t) (expertOut (iblk1 V c 0 t) (wblk V c t) (bblk V c t) (iblk1 V c 3 t)))
    (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ (∃ d, owns (c : Thread nD τ) (st1_1 t) fullShare
            (win1_1.fill (grid1.coords t) d (win1_1.cut (grid1.coords t) ((dat1 V c).after 1 t))))
        ∗ (∃ d, owns (c : Thread nD τ) (st1_2 t) fullShare
            (win1_2.fill (grid1.coords t) d (win1_2.cut (grid1.coords t) ((dat1 V c).after 2 t))))
        ∗ owns (c : Thread nD τ) (st1_3 t) fullShare ((dat1 V c).after 3 t)
        ∗ (∃ d, owns (c : Thread nD τ) (st1_4 t) fullShare
            (win1_4.fill (grid1.coords t) d (win1_4.cut (grid1.coords t) ((dat1 V c).after 4 t)))))) := by
  unfold bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (wfill V c t d1) (bfill V c t d2) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H1]
  · iexists d1; rw [h1]; iexact H1
  isplitl [H2]
  · iexists d2; rw [h2]; iexact H2
  isplitl [H3]; · iexact H3
  iexists expertOut (iblk1 V c 0 t) (wfill V c t d1) (bfill V c t d2) (iblk1 V c 3 t)
  rw [win1_4.fill_congr_cut (grid1.coords t) (hloc t d1 d2)]
  iexact H4

/-- The body obligation with the result named, GIVEN that the part of the result the write-back moves does not depend on
    what fills the weight and bias buffers past their arrays' ends. -/
theorem body_obligation1_of_local (c : Dev nD)
    (hloc : ∀ (t : Fin cfg1.N) (dW : S16x128x2048.Idx → Elt F .f32) (db : S16x128.Idx → Elt F .f32),
      win1_4.cut (grid1.coords t) (expertOut (iblk1 V c 0 t) (wfill V c t dW) (bfill V c t db) (iblk1 V c 3 t))
        = win1_4.cut (grid1.coords t) (expertOut (iblk1 V c 0 t) (wblk V c t) (bblk V c t) (iblk1 V c 3 t))) :
    BodyObligationLoose (dat1 (F := F) V c) (defs₀ (F := F)) Variants.none () Set.univ := fun t => by
  rw [bigSep_W1, bigSep_W1]
  exact sound_body1_of_local V c hloc t

end Region

end Cert.Kernel.Hand

end
-- ==== Proof.ExpertFn.lean ====
/-
  The expert kernel's stored value as ONE pure function of the four staging blocks, at any float instance:
  the attended rows `x0` [256, 2048], the sixteen experts' weight rows `x1` [16, 128, 2048] (one block of 128
  answers), the bias block `x2` [16, 128] and the one-hot selector `x3` [256, 16].  The body unrolls the
  experts: for e = 0 … 15 it takes the slice x1[e] (a [1, 128, 2048] load), contracts the attended rows with it over
  the 2048 channels, adds the bias row x2[e], scales by the selector column x3[:, e] and adds into the accumulator,
  which starts at zero.  The printed body is cut into parts of sixty statements; the stages below follow that cut
  (two experts and part of the third, then up to the sixth, the ninth, the thirteenth, and the last three).
-/
import proofs.«406250_j6047313952809_3_alg».proof.Proof.Gen.KernelIdeal.Skeleton
import Idealize.ShloMosaic.Lib.Pipeline.FrameBody
import Idealize.ShloMosaic.Lib.Pipeline.Value

noncomputable section

namespace Cert.KernelIdeal.Hand

open Idealize.ShloMosaic Idealize.SL.Sem
open Cert.KernelIdeal Cert.KernelIdeal.Gen

variable {F : FTy → Type} [FloatOps F]

/-! ## The sixteen slices of the weight block: expert `e`'s rows, a [1, 128, 2048] rectangle at offset (e, 0, 0) -/

abbrev rW0 : Rect S16x128x2048 := Rect.unit (s := S16x128x2048) ![0, 0, 0] S1x128x2048.size inb_S16x128x2048_S1x128x2048_0_0_0
abbrev rW1 : Rect S16x128x2048 := Rect.unit (s := S16x128x2048) ![1, 0, 0] S1x128x2048.size inb_S16x128x2048_S1x128x2048_1_0_0
abbrev rW2 : Rect S16x128x2048 := Rect.unit (s := S16x128x2048) ![2, 0, 0] S1x128x2048.size inb_S16x128x2048_S1x128x2048_2_0_0
abbrev rW3 : Rect S16x128x2048 := Rect.unit (s := S16x128x2048) ![3, 0, 0] S1x128x2048.size inb_S16x128x2048_S1x128x2048_3_0_0
abbrev rW4 : Rect S16x128x2048 := Rect.unit (s := S16x128x2048) ![4, 0, 0] S1x128x2048.size inb_S16x128x2048_S1x128x2048_4_0_0
abbrev rW5 : Rect S16x128x2048 := Rect.unit (s := S16x128x2048) ![5, 0, 0] S1x128x2048.size inb_S16x128x2048_S1x128x2048_5_0_0
abbrev rW6 : Rect S16x128x2048 := Rect.unit (s := S16x128x2048) ![6, 0, 0] S1x128x2048.size inb_S16x128x2048_S1x128x2048_6_0_0
abbrev rW7 : Rect S16x128x2048 := Rect.unit (s := S16x128x2048) ![7, 0, 0] S1x128x2048.size inb_S16x128x2048_S1x128x2048_7_0_0
abbrev rW8 : Rect S16x128x2048 := Rect.unit (s := S16x128x2048) ![8, 0, 0] S1x128x2048.size inb_S16x128x2048_S1x128x2048_8_0_0
abbrev rW9 : Rect S16x128x2048 := Rect.unit (s := S16x128x2048) ![9, 0, 0] S1x128x2048.size inb_S16x128x2048_S1x128x2048_9_0_0
abbrev rW10 : Rect S16x128x2048 := Rect.unit (s := S16x128x2048) ![10, 0, 0] S1x128x2048.size inb_S16x128x2048_S1x128x2048_10_0_0
abbrev rW11 : Rect S16x128x2048 := Rect.unit (s := S16x128x2048) ![11, 0, 0] S1x128x2048.size inb_S16x128x2048_S1x128x2048_11_0_0
abbrev rW12 : Rect S16x128x2048 := Rect.unit (s := S16x128x2048) ![12, 0, 0] S1x128x2048.size inb_S16x128x2048_S1x128x2048_12_0_0
abbrev rW13 : Rect S16x128x2048 := Rect.unit (s := S16x128x2048) ![13, 0, 0] S1x128x2048.size inb_S16x128x2048_S1x128x2048_13_0_0
abbrev rW14 : Rect S16x128x2048 := Rect.unit (s := S16x128x2048) ![14, 0, 0] S1x128x2048.size inb_S16x128x2048_S1x128x2048_14_0_0
abbrev rW15 : Rect S16x128x2048 := Rect.unit (s := S16x128x2048) ![15, 0, 0] S1x128x2048.size inb_S16x128x2048_S1x128x2048_15_0_0

/-! ## The stages of the accumulator -/

/-- After the first part: experts 0 and 1 accumulated. -/
def accA (x0 : Vec F S256x2048 .bf16) (x1 : Vec F S16x128x2048 .f32) (x2 : Vec F S16x128 .f32) (x3 : Vec F S256x16 .f32) : FVec F S256x128 .f32 :=
  k1_pay4 x0 x3 x2 (View.ld x1 rW0) (View.ld x1 rW1)

/-- After the second part: experts 0 … 5 accumulated (expert 2's product and bias row were formed in the first part). -/
def accB (x0 : Vec F S256x2048 .bf16) (x1 : Vec F S16x128x2048 .f32) (x2 : Vec F S16x128 .f32) (x3 : Vec F S256x16 .f32) : FVec F S256x128 .f32 :=
  k1_pay7 (k1_pay2 x0) (k1_pay3 x3) x2 (accA x0 x1 x2 x3) (k1_pay5 x0 (View.ld x1 rW2)) (k1_pay6 x2)
    (View.ld x1 rW3) (View.ld x1 rW4) (View.ld x1 rW5)

/-- After the third part: experts 0 … 8 accumulated (expert 6's slice was loaded in the second part). -/
def accC (x0 : Vec F S256x2048 .bf16) (x1 : Vec F S16x128x2048 .f32) (x2 : Vec F S16x128 .f32) (x3 : Vec F S256x16 .f32) : FVec F S256x128 .f32 :=
  k1_pay8 (k1_pay2 x0) (k1_pay3 x3) x2 (accB x0 x1 x2 x3) (View.ld x1 rW6) (View.ld x1 rW7) (View.ld x1 rW8)

/-- After the fourth part: experts 0 … 12 accumulated (expert 9's product with its bias row was formed in the third part). -/
def accD (x0 : Vec F S256x2048 .bf16) (x1 : Vec F S16x128x2048 .f32) (x2 : Vec F S16x128 .f32) (x3 : Vec F S256x16 .f32) : FVec F S256x128 .f32 :=
  k1_pay10 (k1_pay2 x0) (k1_pay3 x3) x2 (accC x0 x1 x2 x3) (k1_pay9 (k1_pay2 x0) x2 (View.ld x1 rW9))
    (View.ld x1 rW10) (View.ld x1 rW11) (View.ld x1 rW12)

/-- What the body stores: all sixteen experts accumulated (expert 13's slice was loaded and re-laid in the fourth part). -/
def expertOut (x0 : Vec F S256x2048 .bf16) (x1 : Vec F S16x128x2048 .f32) (x2 : Vec F S16x128 .f32) (x3 : Vec F S256x16 .f32) : Vec F S256x128 .f32 :=
  k1_pay1 (k1_pay2 x0) (k1_pay3 x3) x2 (accD x0 x1 x2 x3) (k1_pay11 (View.ld x1 rW13)) (View.ld x1 rW14) (View.ld x1 rW15)

/-- What the pooling body stores: the masked average of the feature block `x0` [16, 512, 196] under the mask block `x1` [16, 1, 196]. -/
def poolOut (x0 : Vec F S16x512x196 .f32) (x1 : Vec F S16x1x196 .f32) : Vec F S16x512 .bf16 :=
  k0_pay1 x1 x0

end Cert.KernelIdeal.Hand

end
-- ==== Proof.PoolData.lean ====
/-
  The pooling region (the first pallas_call): on a 16 x 4 grid, point (i, j) reads the feature block
  [16 i .. 16 i + 15, 512 j .. 512 j + 511, all 196 positions] and the mask block [16 i .., 0, all positions] and
  writes the [16, 512] block of masked averages.  Every block lies inside its array, every load and the one store
  take the whole staging buffer.  Stated at a parameter `V`, the buffer contents when the region is entered, and
  at any float instance.
-/
import proofs.«406250_j6047313952809_3_alg».proof.Proof.Gen.KernelIdeal.Launch
import proofs.«406250_j6047313952809_3_alg».proof.Proof.Gen.KernelIdeal.Skeleton
import proofs.«406250_j6047313952809_3_alg».proof.Proof.Gen.KernelIdeal.Points
import proofs.«406250_j6047313952809_3_alg».proof.Proof.ExpertFn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the pooling pipeline: the arrays as found; after the body each input buffer at its block and
    the output buffer at the masked average of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => poolOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = poolOut (iblk0 V c 0 t) (iblk0 V c 1 t) := by dsimp only [dat0]

end Region

end Cert.KernelIdeal.Hand

end
-- ==== Proof.ExpertData.lean ====
/-
  The expert region (the second pallas_call): on a grid of 24 points, point j reads the whole attended array
  [256, 2048] and the whole selector [256, 16] (fetched once, at the first point), the weight block
  [16, 128 j .. 128 j + 127, 2048] and the bias block [16, 128 j .. 128 j + 127], and writes the block
  [256, 128 j .. 128 j + 127] of the result.  3000 = 23 * 128 + 56: at the last point the weight, bias and result
  blocks overhang their arrays by 72 answers; the fetches fill the first 56 and leave the rest at contents nothing
  names, and the write-back moves the first 56 only.  Stated at a parameter `V`, at any float instance.
-/
import proofs.«406250_j6047313952809_3_alg».proof.Proof.Gen.KernelIdeal.Launch
import proofs.«406250_j6047313952809_3_alg».proof.Proof.Gen.KernelIdeal.Skeleton
import proofs.«406250_j6047313952809_3_alg».proof.Proof.Gen.KernelIdeal.Points
import proofs.«406250_j6047313952809_3_alg».proof.Proof.ExpertFn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t` — its part inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weight block at point `t` filled out to [16, 128, 2048] with `d` past the array's end. -/
def wfill (c : Dev nD) (t : Fin cfg1.N) (d : S16x128x2048.Idx → Elt F .f32) : S16x128x2048.Idx → Elt F .f32 :=
  win1_1.fill (grid1.coords t) d (iblk1 V c 1 t)
/-- The bias block at point `t` filled out to [16, 128] with `d` past the array's end. -/
def bfill (c : Dev nD) (t : Fin cfg1.N) (d : S16x128.Idx → Elt F .f32) : S16x128.Idx → Elt F .f32 :=
  win1_2.fill (grid1.coords t) d (iblk1 V c 2 t)
/-- The same with the zero word as filler: the contents the proof data names. -/
def wblk (c : Dev nD) (t : Fin cfg1.N) : S16x128x2048.Idx → Elt F .f32 := wfill V c t (fun _ => Scalar.ofBits .f32 0#32)
def bblk (c : Dev nD) (t : Fin cfg1.N) : S16x128.Idx → Elt F .f32 := bfill V c t (fun _ => Scalar.ofBits .f32 0#32)

/-- The proof data of the expert pipeline: the arrays as found; after the body each input buffer at its block
    (filled out with zero words where the block overhangs) and the result buffer at the body's function of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => iblk1 V c 3 t
    | ⟨4, _⟩ => expertOut (iblk1 V c 0 t) (wblk V c t) (bblk V c t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = expertOut (iblk1 V c 0 t) (wblk V c t) (bblk V c t) (iblk1 V c 3 t) := by dsimp only [dat1]

/-- The mask that forgets the result window (window 4) and no other. -/
def forget4 : Fin cfg1.W → Bool
  | ⟨4, _⟩ => true
  | _ => false

end Region

end Cert.KernelIdeal.Hand

end
-- ==== Proof.Pool.lean ====
/-
  The pooling region (the first pallas_call), its body obligation: on a 16 x 4 grid, point (i, j) reads the feature
  block [16 i .. 16 i + 15, 512 j .. 512 j + 511, all 196 positions] and the mask block [16 i .., 0, all positions]
  and writes the [16, 512] block of masked averages.  Every block lies inside its array, every load and the one
  store take the whole staging buffer: a whole load reads the buffer's contents and the one whole store leaves its
  payload, so the result buffer after the body is the masked average of the two input blocks.  Stated at a
  parameter `V`, the buffer contents when the region is entered, and at any float instance.
-/
import proofs.«406250_j6047313952809_3_alg».proof.Proof.PoolData
import proofs.«406250_j6047313952809_3_alg».proof.Proof.Gen.KernelIdeal.Launch
import proofs.«406250_j6047313952809_3_alg».proof.Proof.Gen.KernelIdeal.Skeleton
import proofs.«406250_j6047313952809_3_alg».proof.Proof.Gen.KernelIdeal.Points
import proofs.«406250_j6047313952809_3_alg».proof.Proof.ExpertFn
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The input windows' buffers hold their blocks -/

/-- The feature window's current staging buffer holds its block at every point: fetched at every point, the window
    uncut and never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's current staging buffer holds its block at every point, fetched there (the points t with
    t % 4 = 0) or not: unfetched, the block index has not moved since the previous point and the body left the block
    in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each takes a whole staging buffer -/

abbrev rF0 : Rect S16x512x196 := Rect.unit (s := S16x512x196) ![0, 0, 0] S16x512x196.size inb_S16x512x196_S16x512x196_0_0_0
abbrev rM0 : Rect S16x1x196 := Rect.unit (s := S16x1x196) ![0, 0, 0] S16x1x196.size inb_S16x1x196_S16x1x196_0_0_0
abbrev rO0 : Rect S16x512 := Rect.unit (s := S16x512) ![0, 0] S16x512.size inb_S16x512_S16x512_0_0

theorem zeros2 : (![0, 0] : Fin 2 → Nat) = fun _ => 0 := by
  funext a; match a with | 0 => rfl | 1 => rfl
theorem zeros3 : (![0, 0, 0] : Fin 3 → Nat) = fun _ => 0 := by
  funext a; match a with | 0 => rfl | 1 => rfl | 2 => rfl

/-- The result window's staging buffer after the body, from the two input buffers: its one store as one piece. -/
def out0_2 (x0 : Vec F S16x512x196 .f32) (x1 : Vec F S16x1x196 .f32) : Vec F S16x512 .bf16 :=
  View.canon [⟨rO0, k0_pay1 (View.ld x1 rM0) (View.ld x0 rF0)⟩]

/-- The one store covers the buffer: its rectangle is the whole shape. -/
theorem cover0_2 (p0 : Vec F S16x512 .bf16) (y : S16x512.Idx) :
    ∃ pc ∈ ([⟨rO0, p0⟩] : List (View.Piece (Elt F) S16x512 .bf16)), y ∈ pc.1.set :=
  ⟨_, List.mem_singleton_self _, View.mem_set_unit_zero zeros2 inb_S16x512_S16x512_0_0 y⟩

/-- A whole load reads the buffer and the one whole store leaves its payload: the buffer after the body is the
    masked average of the two input buffers. -/
theorem out0_2_eq (x0 : Vec F S16x512x196 .f32) (x1 : Vec F S16x1x196 .f32) : out0_2 x0 x1 = poolOut x0 x1 := by
  unfold out0_2 poolOut
  rw [View.canon_unit_zero zeros2, View.ld_unit_zero zeros3, View.ld_unit_zero zeros3]

/-! ## The body's triple -/

set_option maxHeartbeats 1000000 in
/-- The kernel body on whole staging buffers, the inputs' at contents `x0`, `x1` and the result's at anything, runs
    to the continuation holding the inputs' as they were and the result's at `out0_2` of them. -/
theorem sound_kernel0 (c : Dev nD) (E : Set ℕ) (i : grid0.Coords)
    (arg2 : Memref sig .tc .vmem S16x512x196 .f32) (harg2 : arg2.IsWhole)
    (arg3 : Memref sig .tc .vmem S16x1x196 .f32) (harg3 : arg3.IsWhole)
    (arg4 : Memref sig .tc .vmem S16x512 .bf16) (harg4 : arg4.IsWhole)
    (x0 : Vec F S16x512x196 .f32) (x1 : Vec F S16x1x196 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__pool_kernel i arg2 harg2 arg3 harg3 arg4 harg4) K := by
  simp only [cc0__pool_kernel_eq_skeleton]; unfold cc0__pool_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, ← out0_2_eq]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pooling pipeline at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.Run.lean ====
/-
  The run of the whole program: two host stretches of re-laying, the pooling region, the host stretches that clamp the
  expert index and make the selector, and the expert region — every weakly fair execution terminates, and at the end every
  buffer that outlives the regions holds what the host operations and the two pipelines leave: the arguments as
  launched, and the result array at what the expert pipeline's write-backs leave (named when the expert region's proof
  data names its result, otherwise at contents not named).  At any float instance; the expert region's body obligation
  is a parameter, with the mask of the windows whose contents it does not name.
-/
import proofs.«406250_j6047313952809_3_alg».proof.Proof.Gen.KernelIdeal.Regions
import proofs.«406250_j6047313952809_3_alg».proof.Proof.PoolData
import proofs.«406250_j6047313952809_3_alg».proof.Proof.ExpertData
import proofs.«406250_j6047313952809_3_alg».proof.Proof.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (Seg HostSeg RDat)

variable (m : (ℓ : Loc nD τ sig) → Buf (Elt F) ℓ) (ρ : Dev nD → PrngReg)

/-! ## The buffer contents at the regions' entries and exits -/

/-- What the pooling region finds: the launch contents after the two re-layings. -/
abbrev E1 : (c : Dev nD) → (b : Ref sig .tc) → Buf (Elt F) ((c : Thread nD τ).loc b) := fun c b => V1 m c b

/-- What the pooling region leaves: its arrays at what its write-backs leave, every other buffer as found. -/
def X2 (c : Dev nD) : Valuation τ sig (Elt F) :=
  Pipeline.withArrays spec0 c (V1 m c) fun w => (dat0 (E1 m) c).arrAt w cfg0.N

/-- The pooling region's result as the contents the later items are stated over. -/
def outs2 : Outs (F := F) := fun _ r c => X2 m c (Proc.devRef .tc r)

theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = V1 m c (Proc.devRef .tc b) := by
  unfold X2; exact Pipeline.withArrays_of_ne spec0 c _ _ b hb

/-- The contents after the pooling region, read at the TensorCore's references. -/
abbrev E2 : (c : Dev nD) → (b : Ref sig .tc) → Buf (Elt F) ((c : Thread nD τ).loc b) := fun c b => V2 m (outs2 m) c b

/-- After the pooling region its result array holds what the write-backs leave, -/
theorem E2_main_v2 (c : Dev nD) : E2 m c main_v2 = (dat0 (E1 m) c).arrAt 2 cfg0.N := by
  show Function.update (V1 m c) (Proc.devRef .tc main_v2) (X2 m c (Proc.devRef .tc main_v2)) (Proc.devRef .tc main_v2) = _
  rw [Function.update_self]; exact X2_arr m c 2
/-- and every other buffer what it held. -/
theorem E2_of_ne (c : Dev nD) (b : Ref sig .tc) (hb : b ≠ main_v2) : E2 m c b = E1 m c b :=
  V2_of m (outs2 m) c b (by simp only [List.mem_singleton]; exact hb)

/-- What the expert region finds. -/
abbrev E5 : (c : Dev nD) → (b : Ref sig .tc) → Buf (Elt F) ((c : Thread nD τ).loc b) := fun c b => V5 m (outs2 m) c b

/-- What the expert region leaves when its result array ends at `F4`. -/
def Vfin (c : Dev nD) (F4 : Buf (Elt F) ((c : Thread nD τ).loc main_v5)) : Valuation τ sig (Elt F) :=
  Function.update (V5 m (outs2 m) c) (Proc.devRef .tc main_v5) F4
abbrev Efin (c : Dev nD) (F4 : Buf (Elt F) ((c : Thread nD τ).loc main_v5)) : (b : Ref sig .tc) → Buf (Elt F) ((c : Thread nD τ).loc b) :=
  fun b => Vfin m c F4 b

theorem Efin_main_v5 (c : Dev nD) (F4 : Buf (Elt F) ((c : Thread nD τ).loc main_v5)) : Efin m c F4 main_v5 = F4 := by
  show Function.update (V5 m (outs2 m) c) (Proc.devRef .tc main_v5) F4 (Proc.devRef .tc main_v5) = _
  rw [Function.update_self]
theorem Efin_of_ne (c : Dev nD) (F4 : Buf (Elt F) ((c : Thread nD τ).loc main_v5)) (b : Ref sig .tc) (hb : b ≠ main_v5) :
    Efin m c F4 b = E5 m c b := by
  show Function.update (V5 m (outs2 m) c) (Proc.devRef .tc main_v5) F4 (Proc.devRef .tc b) = _
  rw [Function.update_of_ne (StableHlo.devRef_ne_of_ne hb)]

/-! ## The proof data -/

/-- The prefetched tables' admissible contents: no pipeline has a table. -/
abbrev adm' : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E5 m) c

/-- At the pooling region's exit each of its arrays holds what the pipeline leaves, -/
theorem hF0 (c : Dev nD) (w : Fin cfg0.W) : (pdats m 0 c).arrAt w cfg0.N = E2 m c (Pipeline.arrRef spec0 w) := by
  match w with
  | ⟨0, _⟩ => exact ((dat0 (E1 m) c).arrAt_in 0 rfl _).trans (E2_of_ne m c main_v0 (by decide)).symm
  | ⟨1, _⟩ => exact ((dat0 (E1 m) c).arrAt_in 1 rfl _).trans (E2_of_ne m c main_v1 (by decide)).symm
  | ⟨2, _⟩ => exact (E2_main_v2 m c).symm
/-- and every other buffer what it held. -/
theorem hrest0 (c : Dev nD) : ∀ b, b ∉ Finset.univ.image (Pipeline.arrRef spec0) → E2 m c b = E1 m c b :=
  fun b hb => E2_of_ne m c b fun e => hb (Finset.mem_image.mpr ⟨2, Finset.mem_univ _, e.symm⟩)

variable (fgt1 : Fin cfg1.W → Bool)

/-- The same read as relations between what the body is handed and what it leaves, the expert region's windows
    in `fgt1` left unnamed. -/
def rdats : (p : Fin 2) → (c : Dev nD) → RDat τ (Elt F) Unit ℕ (UR sig nD τ) ℕ (Pipeline.pin (pcfgs (F := F)) adm' p) c
  | ⟨0, _⟩ => fun c => (dat0 (E1 m) c).toRForget (fun _ => false)
  | ⟨1, _⟩ => fun c => (dat1 (E5 m) c).toRForget fgt1

abbrev 𝒱₀' : Variants := Variants.none
abbrev L' : GSem nD τ sig → Finset Unit := fun _ => ∅
abbrev lv' : GSem nD τ sig → Unit → ℕ := fun _ _ => 0
/-- What rides beside the buffers: the generator register at some state, and the core owing nothing. -/
abbrev R' (c : Dev nD) : sProp 𝕄 := iprop((∃ r, prngReg c r) ∗ ∃ W, owes (c : Thread nD τ) (0 : CellTallies nD τ sig Unit) W)

set_option backward.isDefEq.respectTransparency.types false in
/-- THE POOLING REGION over the thread state: entered from every unscoped buffer at the contents after the re-layings, left
    at those with the attended array at what the write-backs leave. -/
def reg0 : Pipeline.RDat.RegionSeg (pcfgs (F := F)) adm' (rdats m fgt1) () defs₀ 𝒱₀' L' lv' 0 where
  win := launch0.win.to₀
  block_pos := launch0.block_pos
  stage_whole := launch0.stage_whole
  K := PEmpty
  osem k := k.elim
  ho := Pipeline.OwnSemFacts.none _
  hbody c := ((body_obligation0 (E1 m) c).loose).toRForget
  hwaits := Pipeline.RDat.hwaits_of_owed_zero _ _ _ _ L' lv' 0 fun _ _ => rfl
  pre c := iprop(StableHlo.held (c : Thread nD τ) (Pipeline.ucRefs τ sig) (V1 m c) ∗ R' c)
  post c := iprop(StableHlo.held (c : Thread nD τ) (Pipeline.ucRefs τ sig) (V2 m (outs2 m) c) ∗ R' c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.RDat.arrays_of_unscopedBufs (p := 0) (pcfgs (F := F)) adm' (rdats m fgt1) launch0.win launch0.arr_whole c
      (fun w => (dat0 (E1 m) c).share_full (fun _ => rfl) w) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    rw [show (rdats m fgt1 0 c).arraysAt (Pipeline.pin (pcfgs (F := F)) adm' 0).N = (pdats m 0 c).toR.arraysAt cfg0.N from rfl,
      Dat.toR_arraysAt_eq]
    have hjoin := Pipeline.unscopedBufs_of_arrays (p := 0) (pcfgs (F := F)) adm' (Ix := Unit) (Name := ℕ) (U := UR sig nD τ) (Lvl := ℕ)
      launch0.win launch0.arr_whole c (pdats m) (fun w => (dat0 (E1 m) c).share_full (fun _ => rfl) w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

variable (hb1 : ∀ c, BodyObligationLoose (dat1 (F := F) (E5 m) c) (defs₀ (F := F)) Variants.none () Set.univ fgt1)

/-- The last thread state: every unscoped buffer at the contents after the expert region, the result array at SOME contents
    `F4` — what the write-backs leave, when the expert region's data names its result —, the generator register at some state. -/
def Tfin (c : Dev nD) : sProp 𝕄 :=
  iprop(∃ F4 : Buf (Elt F) ((c : Thread nD τ).loc main_v5), ⌜fgt1 4 = false → F4 = (dat1 (E5 m) c).arrAt 4 cfg1.N⌝
    ∗ StableHlo.held (c : Thread nD τ) (Pipeline.ucRefs τ sig) (Vfin m c F4) ∗ ∃ r, prngReg c r)

/-- The expert region's arrays at its exit, when the result array ends at `F4`: the inputs as found. -/
def Ffin (c : Dev nD) (F4 : Buf (Elt F) ((c : Thread nD τ).loc main_v5)) :
    (w : Fin cfg1.W) → Buf (Elt F) ((cfg1.win w).arr.view.loc (c : Thread nD τ))
  | ⟨0, _⟩ => (pdats m 1 c).A 0
  | ⟨1, _⟩ => (pdats m 1 c).A 1
  | ⟨2, _⟩ => (pdats m 1 c).A 2
  | ⟨3, _⟩ => (pdats m 1 c).A 3
  | ⟨4, _⟩ => F4

theorem hF1 (c : Dev nD) (F4 : Buf (Elt F) ((c : Thread nD τ).loc main_v5)) (w : Fin cfg1.W) :
    Ffin m c F4 w = Efin m c F4 (Pipeline.arrRef spec1 w) := by
  match w with
  | ⟨0, _⟩ => exact (Efin_of_ne m c F4 main_v2 (by decide)).symm
  | ⟨1, _⟩ => exact (Efin_of_ne m c F4 main_arg2 (by decide)).symm
  | ⟨2, _⟩ => exact (Efin_of_ne m c F4 main_arg3 (by decide)).symm
  | ⟨3, _⟩ => exact (Efin_of_ne m c F4 main_v4 (by decide)).symm
  | ⟨4, _⟩ => exact (Efin_main_v5 m c F4).symm
theorem hrest1 (c : Dev nD) (F4 : Buf (Elt F) ((c : Thread nD τ).loc main_v5)) :
    ∀ b, b ∉ Finset.univ.image (Pipeline.arrRef spec1) → Efin m c F4 b = E5 m c b :=
  fun b hb => Efin_of_ne m c F4 b fun e => hb (Finset.mem_image.mpr ⟨4, Finset.mem_univ _, e.symm⟩)

set_option backward.isDefEq.respectTransparency.types false in
/-- THE EXPERT REGION over the thread state: entered from every unscoped buffer at the contents after the selector is made,
    left at the last thread state beside the core owing nothing. -/
def reg1 : Pipeline.RDat.RegionSeg (pcfgs (F := F)) adm' (rdats m fgt1) () defs₀ 𝒱₀' L' lv' 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L' lv' 1 fun _ _ => rfl
  pre c := iprop(StableHlo.held (c : Thread nD τ) (Pipeline.ucRefs τ sig) (V5 m (outs2 m) c) ∗ R' c)
  post c := iprop(Tfin m fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.RDat.arrays_of_unscopedBufs (p := 1) (pcfgs (F := F)) adm' (rdats m fgt1) launch1.win launch1.arr_whole c
      (fun w => (dat1 (E5 m) c).share_full (fun _ => rfl) w) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    have hjoinF := fun (F4 : Buf (Elt F) ((c : Thread nD τ).loc main_v5)) =>
      Pipeline.unscopedBufs_of_arrays (p := 1) (pcfgs (F := F)) adm' (Ix := Unit) (Name := ℕ) (U := UR sig nD τ) (Lvl := ℕ)
        launch1.win launch1.arr_whole c (pdats m) (fun w => (dat1 (E5 m) c).share_full (fun _ => rfl) w)
        (E5 m c) (Efin m c F4) (Ffin m c F4) (hF1 m c F4) (hrest1 m c F4)
    unfold Pipeline.RDat.arraysAt
    rw [bigSep_W1]
    iintro ⟨⟨⟨%G0, %h0, H0⟩, ⟨%G1, %h1, H1⟩, ⟨%G2, %h2, H2⟩, ⟨%G3, %h3, H3⟩, ⟨%G4, %h4, H4⟩⟩, HO, HY, Hrest⟩
    rw [(rdats m fgt1 1 c).ArrAt_in 0 rfl] at h0
    rw [(rdats m fgt1 1 c).ArrAt_in 1 rfl] at h1
    rw [(rdats m fgt1 1 c).ArrAt_in 2 rfl] at h2
    rw [(rdats m fgt1 1 c).ArrAt_in 3 rfl] at h3
    subst h0 h1 h2 h3
    imodintro
    isplitr [HO]
    · unfold Tfin
      iexists G4
      isplitr
      · ipureintro; intro hf; exact ((dat1 (E5 m) c).toRForget_arrAt_iff hf _ G4).mp h4
      isplitr [HY]
      · have hj := hjoinF G4
        rw [Pipeline.unscopedBufs_held] at hj
        iapply hj
        isplitr [Hrest]
        · unfold Pipeline.Dat.arrays
          rw [bigSep_W1]
          isplitl [H0]; · iexact H0
          isplitl [H1]; · iexact H1
          isplitl [H2]; · iexact H2
          isplitl [H3]; · iexact H3
          iexact H4
        · iexact Hrest
      · iexact HY
    · unfold Pipeline.RDat.owesAt Pipeline.owesWithin
      icases HO with ⟨%W, -, HO⟩; iexists W; iexact HO

/-! ## @main as segments, and the launch -/

/-- The rest that rides along the host stretches: the same at each. -/
abbrev Erest : Fin 3 → Dev nD → sProp 𝕄 := fun _ c => R' c

/-- @main's six items in order: the re-layings, the pooling region, the two constants, the clamp, the selector, the expert region. -/
abbrev segs : List (Pipeline.RDat.Seg (pcfgs (F := F)) adm' (rdats m fgt1) () defs₀ 𝒱₀' L' lv') :=
  [ .host (seg0 m 𝒱₀' L' lv' (Erest (F := F))),
    .region (reg0 m fgt1),
    .host (seg2 m (outs2 m) 𝒱₀' L' lv' (Erest (F := F))),
    .host (seg3 m (outs2 m) 𝒱₀' L' lv' (Erest (F := F))),
    .host (seg4 m (outs2 m) 𝒱₀' L' lv' (Erest (F := F))),
    .region (reg1 m fgt1 hb1) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, and every final state holds
    each unscoped buffer at the contents after the expert region, the result array at some `F4` which is what the
    write-backs leave when the expert region's data names its result. -/
theorem run_main (hb1 : ∀ c, BodyObligationLoose (dat1 (F := F) (E5 m) c) (defs₀ (F := F)) Variants.none () Set.univ fgt1) : θ_run defs (onTc (τ := τ) (main (F := F))) ⟨m, fun _ => 0, ρ⟩ (fun r => ∀ c : Dev nD,
      ∃ F4 : Buf (Elt F) ((c : Thread nD τ).loc main_v5), (fgt1 4 = false → F4 = (dat1 (E5 m) c).arrAt 4 cfg1.N)
        ∧ ∀ b ∈ Pipeline.ucRefs τ sig, r.2.mem ((c : Thread nD τ).1, b) = Vfin m c F4 b) :=
  Pipeline.RDat.θ_run_regions_kit (pcfgs (F := F)) adm' (rdats m fgt1) () cellOf_inj emb₁ defs₀ 𝒱₀' L' lv' m ρ main (segs m fgt1 hb1)
    (fun c Q => by
      rewrite [main_chain c, Pipeline.RDat.Seg.run_eq_chain,
        show (segs m fgt1 hb1).map Pipeline.RDat.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R' c)) (Tₙ := Tfin m fgt1)
    (hch := ⟨fun _ => .rfl, fun _ => .rfl, fun _ => .rfl, fun _ => .rfl, fun _ => .rfl, fun _ => .rfl, fun _ => .rfl⟩)
    (hinit := by
      refine Pipeline.initEach L' lv' fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ F4 : Buf (Elt F) ((c : Thread nD τ).loc main_v5), (fgt1 4 = false → F4 = (dat1 (E5 m) c).arrAt 4 cfg1.N)
        ∧ ∀ b ∈ Pipeline.ucRefs τ sig, s.mem ((c : Thread nD τ).1, b) = Vfin m c F4 b)
    (hfin := fun c s' => by
      unfold Tfin StableHlo.held
      iintro ⟨⟨%F4, %hF4, Hh, -⟩, HSI⟩
      ihave Hr := (pointsTo_read_all (Pipeline.ucRefs τ sig) (fun b => ((c : Thread nD τ).1, b)) (Vfin m c F4) s') $$ [Hh HSI]
      · isplitl [Hh] <;> iassumption
      icases Hr with ⟨%h, HSI⟩
      imodintro
      isplitr
      · ipureintro; exact ⟨F4, hF4, h⟩
      · iexact HSI)
    (hQ := fun _ h => h)

/-! ## What the run says of the arguments and of the result -/

/-- An argument's buffer is as launched at the end, whatever the result array ends at: no item writes it. -/
theorem Vfin_arg (c : Dev nD) (F4 : Buf (Elt F) ((c : Thread nD τ).loc main_v5)) (b : Ref sig .tc) (hb : b ≠ main_v5)
    (h6 : V6 m (outs2 m) c b = m ((c : Thread nD τ).loc b)) : Vfin m c F4 b = m ((c : Thread nD τ).loc b) :=
  (Efin_of_ne m c F4 b hb).trans ((V6_of m (outs2 m) c b (by simp only [List.mem_singleton]; exact hb)).symm.trans h6)

/-- THE FRAME: every weakly fair execution terminates and every argument ends as launched. -/
theorem frame_of_run (fgt1 : Fin cfg1.W → Bool) (hb1 : ∀ c, BodyObligationLoose (dat1 (F := F) (E5 m) c) (defs₀ (F := F)) Variants.none () Set.univ fgt1) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨F4, -, hm⟩ := h c
    exact ⟨(hm _ (mem_uc main_arg0 (by decide))).trans (Vfin_arg m c F4 main_arg0 (by decide) (V6_main_arg0 m (outs2 m) c)),
      (hm _ (mem_uc main_arg1 (by decide))).trans (Vfin_arg m c F4 main_arg1 (by decide) (V6_main_arg1 m (outs2 m) c)),
      (hm _ (mem_uc main_arg2 (by decide))).trans (Vfin_arg m c F4 main_arg2 (by decide) (V6_main_arg2 m (outs2 m) c)),
      (hm _ (mem_uc main_arg3 (by decide))).trans (Vfin_arg m c F4 main_arg3 (by decide) (V6_main_arg3 m (outs2 m) c)),
      (hm _ (mem_uc main_arg4 (by decide))).trans (Vfin_arg m c F4 main_arg4 (by decide) (V6_main_arg4 m (outs2 m) c))⟩)
    (run_main m ρ fgt1 hb1)

/-- THE VALUE: when the expert region's data names its result, the result array ends at what the write-backs leave, the
    arguments as launched. -/
theorem value_of_run (hb1 : ∀ c, BodyObligationLoose (dat1 (F := F) (E5 m) c) (defs₀ (F := F)) Variants.none () Set.univ fgt1) (hf : fgt1 4 = false) : θ_run defs (onTc (τ := τ) (main (F := F))) ⟨m, fun _ => 0, ρ⟩ (fun r => ∀ c : Dev nD,
      r.2.mem ((c.tc : Thread nD τ).loc main_v5) = (dat1 (E5 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨F4, hF4, hm⟩ := h c
    exact ⟨((hm _ (mem_uc main_v5 (by decide))).trans (Efin_main_v5 m c F4)).trans (hF4 hf),
      (hm _ (mem_uc main_arg0 (by decide))).trans (Vfin_arg m c F4 main_arg0 (by decide) (V6_main_arg0 m (outs2 m) c)),
      (hm _ (mem_uc main_arg1 (by decide))).trans (Vfin_arg m c F4 main_arg1 (by decide) (V6_main_arg1 m (outs2 m) c)),
      (hm _ (mem_uc main_arg2 (by decide))).trans (Vfin_arg m c F4 main_arg2 (by decide) (V6_main_arg2 m (outs2 m) c)),
      (hm _ (mem_uc main_arg3 (by decide))).trans (Vfin_arg m c F4 main_arg3 (by decide) (V6_main_arg3 m (outs2 m) c)),
      (hm _ (mem_uc main_arg4 (by decide))).trans (Vfin_arg m c F4 main_arg4 (by decide) (V6_main_arg4 m (outs2 m) c))⟩)
    (run_main m ρ fgt1 hb1)

end Cert.KernelIdeal.Hand

end
-- ==== Proof.Expert.lean ====
/-
  The expert region (the second pallas_call): on a grid of 24 points, point j reads the whole attended array
  [256, 2048] and the whole selector [256, 16] (fetched once, at the first point), the weight block
  [16, 128 j .. 128 j + 127, 2048] and the bias block [16, 128 j .. 128 j + 127], and writes the block
  [256, 128 j .. 128 j + 127] of the result.  3000 = 23 * 128 + 56: at the last point the weight, bias and result
  blocks overhang their arrays by 72 answers; the fetches fill the first 56 and leave the rest at contents nothing
  names, and the write-back moves the first 56 only.  Stated at a parameter `V`, at any float instance.
-/
import proofs.«406250_j6047313952809_3_alg».proof.Proof.Gen.KernelIdeal.Launch
import proofs.«406250_j6047313952809_3_alg».proof.Proof.Gen.KernelIdeal.Skeleton
import proofs.«406250_j6047313952809_3_alg».proof.Proof.Gen.KernelIdeal.Points
import proofs.«406250_j6047313952809_3_alg».proof.Proof.ExpertFn
import proofs.«406250_j6047313952809_3_alg».proof.Proof.ExpertData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The kernel body on whole staging memrefs: the four inputs' at contents `x0 x1 x2 x3` and the result's at anything, it
    runs to the continuation holding the inputs' as they were and the result's at `expertOut x0 x1 x2 x3` — the three whole
    loads read the contents, the sixteen slice loads read the weight block's sixteen rectangles, the one whole store
    leaves its payload. -/
theorem sound_kernel1 (c : Dev nD) (E : Set ℕ) (i : grid1.Coords)
    (arg1 : Memref sig .tc .vmem S256x2048 .bf16) (harg1 : arg1.IsWhole)
    (arg2 : Memref sig .tc .vmem S16x128x2048 .f32) (harg2 : arg2.IsWhole)
    (arg3 : Memref sig .tc .vmem S16x128 .f32) (harg3 : arg3.IsWhole)
    (arg4 : Memref sig .tc .vmem S256x16 .f32) (harg4 : arg4.IsWhole)
    (arg5 : Memref sig .tc .vmem S256x128 .f32) (harg5 : arg5.IsWhole)
    (x0 : Vec F S256x2048 .bf16) (x1 : Vec F S16x128x2048 .f32) (x2 : Vec F S16x128 .f32) (x3 : Vec F S256x16 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (expertOut x0 x1 x2 x3)) -∗ K ⟨⟩))
      ⊢ wp frame (wpE (defs₀ (F := F)) Variants.none c none) E
          (cc1__expert_kernel i arg1 harg1 arg2 harg2 arg3 harg3 arg4 harg4 arg5 harg5) K := by
  simp only [cc1__expert_kernel_eq_skeleton]; unfold cc1__expert_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  have hz2 : (![0, 0] : Fin 2 → Nat) = fun _ => 0 := funext fun a => by fin_cases a <;> rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz2 inb_S256x128_S256x128_0_0 y⟩),
    View.canon_unit_zero hz2]
  sl_unfold_run_names
  have e0 : View.readAt (Elt F) arg1.view (Rect.unit ![0, 0] S256x2048.size inb_S256x2048_S256x2048_0_0).toLoadRect f0
      = View.read (Elt F) arg1.view f0 := View.ld_unit_zero hz2 inb_S256x2048_S256x2048_0_0 _
  have e2 : View.readAt (Elt F) arg3.view (Rect.unit ![0, 0] S16x128.size inb_S16x128_S16x128_0_0).toLoadRect f2
      = View.read (Elt F) arg3.view f2 := View.ld_unit_zero hz2 inb_S16x128_S16x128_0_0 _
  have e3 : View.readAt (Elt F) arg4.view (Rect.unit ![0, 0] S256x16.size inb_S256x16_S256x16_0_0).toLoadRect f3
      = View.read (Elt F) arg4.view f3 := View.ld_unit_zero hz2 inb_S256x16_S256x16_0_0 _
  rw [e0, e2, e3]
  simp only [View.readAt_eq_ld]
  unfold expertOut accD accC accB accA
  with_reducible rfl

section Region
variable (V : (c : Dev nD) → (b : Ref sig .tc) → Buf (Elt F) ((c : Thread nD τ).loc b))

/-- The attended rows' buffer holds the whole array at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The selector's buffer likewise. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The weight block's buffer, fetched at every point: the block inside the array, `d` past its end. -/
theorem before1_1 (c : Dev nD) (t : Fin cfg1.N) (d) : (dat1 V c).before 1 t d = wfill V c t d := by
  unfold Dat.before; rw [if_pos (fetch1_1 t)]; rfl

/-- The bias block's buffer likewise. -/
theorem before1_2 (c : Dev nD) (t : Fin cfg1.N) (d) : (dat1 V c).before 2 t d = bfill V c t d := by
  unfold Dat.before; rw [if_pos (fetch1_2 t)]; rfl

/-- The result's buffer, written back at every point, holds anything when the body starts. -/
theorem before1_4 (c : Dev nD) (t : Fin cfg1.N) (d) : (dat1 V c).before 4 t d = d :=
  (dat1 V c).before_out_reset 4 rfl t
    (by by_cases h0 : t.val = 0
        · exact .inl h0
        · exact .inr ⟨h0, flush1_4 _⟩) d

/-- The body at point `t`, the result window forgotten: the inputs' buffers hold their blocks (`before1_W`), the result's
    anything; the body leaves the inputs' as they were, and the result's at some contents. -/
theorem sound_body1_forget (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ X, owns (c : Thread nD τ) (st1_4 t) fullShare X))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ (∃ d, owns (c : Thread nD τ) (st1_1 t) fullShare
            (win1_1.fill (grid1.coords t) d (win1_1.cut (grid1.coords t) ((dat1 V c).after 1 t))))
        ∗ (∃ d, owns (c : Thread nD τ) (st1_2 t) fullShare
            (win1_2.fill (grid1.coords t) d (win1_2.cut (grid1.coords t) ((dat1 V c).after 2 t))))
        ∗ owns (c : Thread nD τ) (st1_3 t) fullShare ((dat1 V c).after 3 t)
        ∗ (∃ X, owns (c : Thread nD τ) (st1_4 t) fullShare X))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩, ⟨%X, H4⟩⟩
  iapply (sound_kernel1 c Set.univ _ _ _ _ _ _ _ _ _ _ _ (iblk1 V c 0 t) (wfill V c t d1) (bfill V c t d2) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H1]
  · iexists d1; rw [h1]; iexact H1
  isplitl [H2]
  · iexists d2; rw [h2]; iexact H2
  isplitl [H3]; · iexact H3
  iexists _; iexact H4

/-- The body obligation with the result window forgotten: at any float instance. -/
theorem body_obligation1_forget (c : Dev nD) :
    BodyObligationLoose (dat1 (F := F) V c) (defs₀ (F := F)) Variants.none () Set.univ forget4 := fun t => by
  rw [bigSep_W1, bigSep_W1]
  exact sound_body1_forget V c t

/-- The body at point `t`, the result named: the body leaves `expertOut` of what the four input buffers hold — the weight
    and bias blocks filled out past their arrays' ends with whatever was there —, which on the part the write-back moves is
    `expertOut` of the blocks filled out with zero words (`hloc`). -/
theorem sound_body1_of_local (c : Dev nD)
    (hloc : ∀ (t : Fin cfg1.N) (dW : S16x128x2048.Idx → Elt F .f32) (db : S16x128.Idx → Elt F .f32),
      win1_4.cut (grid1.coords t) (expertOut (iblk1 V c 0 t) (wfill V c t dW) (bfill V c t db) (iblk1 V c 3 t))
        = win1_4.cut (grid1.coords t) (expertOut (iblk1 V c 0 t) (wblk V c t) (bblk V c t) (iblk1 V c 3 t)))
    (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ (∃ d, owns (c : Thread nD τ) (st1_1 t) fullShare
            (win1_1.fill (grid1.coords t) d (win1_1.cut (grid1.coords t) ((dat1 V c).after 1 t))))
        ∗ (∃ d, owns (c : Thread nD τ) (st1_2 t) fullShare
            (win1_2.fill (grid1.coords t) d (win1_2.cut (grid1.coords t) ((dat1 V c).after 2 t))))
        ∗ owns (c : Thread nD τ) (st1_3 t) fullShare ((dat1 V c).after 3 t)
        ∗ (∃ d, owns (c : Thread nD τ) (st1_4 t) fullShare
            (win1_4.fill (grid1.coords t) d (win1_4.cut (grid1.coords t) ((dat1 V c).after 4 t)))))) := by
  unfold bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (wfill V c t d1) (bfill V c t d2) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  have h1 : win1_1.cut (grid1.coords t) (wblk V c t) = iblk1 V c 1 t := win1_1.cut_fill _ _ _
  have h2 : win1_2.cut (grid1.coords t) (bblk V c t) = iblk1 V c 2 t := win1_2.cut_fill _ _ _
  isplitl [H1]
  · iexists d1; rw [h1]; iexact H1
  isplitl [H2]
  · iexists d2; rw [h2]; iexact H2
  isplitl [H3]; · iexact H3
  iexists expertOut (iblk1 V c 0 t) (wfill V c t d1) (bfill V c t d2) (iblk1 V c 3 t)
  rw [win1_4.fill_congr_cut (grid1.coords t) (hloc t d1 d2)]
  iexact H4

/-- The body obligation with the result named, GIVEN that the part of the result the write-back moves does not depend on
    what fills the weight and bias buffers past their arrays' ends. -/
theorem body_obligation1_of_local (c : Dev nD)
    (hloc : ∀ (t : Fin cfg1.N) (dW : S16x128x2048.Idx → Elt F .f32) (db : S16x128.Idx → Elt F .f32),
      win1_4.cut (grid1.coords t) (expertOut (iblk1 V c 0 t) (wfill V c t dW) (bfill V c t db) (iblk1 V c 3 t))
        = win1_4.cut (grid1.coords t) (expertOut (iblk1 V c 0 t) (wblk V c t) (bblk V c t) (iblk1 V c 3 t))) :
    BodyObligationLoose (dat1 (F := F) V c) (defs₀ (F := F)) Variants.none () Set.univ := fun t => by
  rw [bigSep_W1, bigSep_W1]
  exact sound_body1_of_local V c hloc t

end Region

end Cert.KernelIdeal.Hand

end
-- ==== Proof.Spec.lean ====
/-
  The mathematics both programs compute, on the extended reals, and the one law that joins them.

  Inputs: a mask [256, 1, 196] and features [256, 2048, 196] (the fourteen-by-fourteen positions flattened), sixteen
  experts' weights [16, 3000, 2048] and biases [16, 3000], and an expert index per sample [256].
  The mask is shifted by a small positive guard word g (the same 32-bit word in both programs, never evaluated);
  sample b's attended channel k is the weighted average  (sum_s feat(b,k,s) (mask(b,0,s) + g)) / (sum_s (mask(b,0,s) + g));
  expert e's logit for answer a is  sum_k att(b,k) W(e,a,k) + bias(e,a);  the result keeps, per sample, the logits of
  the expert its index names.  One program computes all sixteen experts' logits and gathers the named one; the
  other scales each expert's logits by the indicator of "this is the named expert" and adds the sixteen up.  The law
  between them: a sum of terms weighted by the indicator of one index is that index's term — on the extended reals too,
  since zero times anything is zero there and zero is neutral for addition.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SFeat : Shape := ⟨3, ![256, 2048, 196]⟩
abbrev SMask : Shape := ⟨3, ![256, 1, 196]⟩
abbrev SW : Shape := ⟨3, ![16, 3000, 2048]⟩
abbrev SBias : Shape := ⟨2, ![16, 3000]⟩
abbrev SInst : Shape := ⟨1, ![256]⟩
abbrev SAtt : Shape := ⟨2, ![256, 2048]⟩
abbrev SOut : Shape := ⟨2, ![256, 3000]⟩

/-- The guard added to the mask: the word both programs carry, read at the ideal instance. -/
abbrev guard : EReal := Ideal.ofBits .f32 0x2EDBE6FF#32

/-- Sample `b`'s attended channel `k`: the features averaged over the positions with the guarded mask as weights. -/
def attendedAt (feat : SFeat.Idx → EReal) (mask : SMask.Idx → EReal) (b : Fin 256) (k : Fin 2048) : EReal :=
  Ideal.div (∑ s : Fin 196, feat (ix3 b k s) * (mask (ix3 b (0 : Fin 1) s) + guard))
    (∑ s : Fin 196, (mask (ix3 b (0 : Fin 1) s) + guard))

/-- Expert `e`'s logit of answer `a` for a sample whose attended row is `att`. -/
def logitAt (att : Fin 2048 → EReal) (W : SW.Idx → EReal) (bias : SBias.Idx → EReal) (e : Fin 16) (a : Fin 3000) : EReal :=
  (∑ k : Fin 2048, att k * W (ix3 e a k)) + bias (ix2 e a)

/-- The index is a valid expert number: as a signed integer it lies in 0 … 15, for every sample. -/
def InRange (inst : IVec SInst 32) : Prop :=
  ∀ b : Fin 256, 0 ≤ (inst (ix1 b)).toInt ∧ (inst (ix1 b)).toInt < 16

/-- The expert sample `b` names (its index read as a signed integer; reduced into the range so that it is total). -/
def expertOf (inst : IVec SInst 32) (b : Fin 256) : Fin 16 :=
  ⟨(inst (ix1 b)).toInt.toNat % 16, Nat.mod_lt _ (by decide)⟩

/-- THE RESULT: per sample the named expert's logits. -/
def result (feat : SFeat.Idx → EReal) (mask : SMask.Idx → EReal) (W : SW.Idx → EReal) (bias : SBias.Idx → EReal)
    (inst : IVec SInst 32) : SOut.Idx → EReal :=
  fun j => logitAt (attendedAt feat mask (j 0)) W bias (expertOf inst (j 0)) (j 1)

theorem result_apply (feat : SFeat.Idx → EReal) (mask : SMask.Idx → EReal) (W : SW.Idx → EReal) (bias : SBias.Idx → EReal)
    (inst : IVec SInst 32) (b : Fin 256) (a : Fin 3000) :
    result feat mask W bias inst (ix2 b a) = logitAt (attendedAt feat mask b) W bias (expertOf inst b) a := rfl

/-- In range, the named expert's number is the index itself. -/
theorem expertOf_val {inst : IVec SInst 32} (h : InRange inst) (b : Fin 256) :
    ((expertOf inst b).val : Int) = (inst (ix1 b)).toInt := by
  obtain ⟨h0, h1⟩ := h b
  show (((inst (ix1 b)).toInt.toNat % 16 : Nat) : Int) = _
  have : (inst (ix1 b)).toInt.toNat < 16 := by omega
  rw [Nat.mod_eq_of_lt this]; omega

/-- THE LAW: a sum weighted by the indicator of one index is that index's term. -/
theorem indicator_sum (f : Fin 16 → EReal) (e0 : Fin 16) :
    ∑ e : Fin 16, (if e = e0 then (1 : EReal) else 0) * f e = f e0 := by
  rw [Finset.sum_eq_single e0]
  · rw [if_pos rfl, one_mul]
  · intro e _ hne; rw [if_neg hne, zero_mul]
  · intro h; exact absurd (Finset.mem_univ e0) h

abbrev SSel : Shape := ⟨2, ![256, 16]⟩

/-- The sixteen experts' logits weighted by a selector [256, 16] and added up: what the kernel's second region computes
    from the attended array, the weights, the biases and the selector. -/
def mixture (sel : SSel.Idx → EReal) (att : SAtt.Idx → EReal) (W : SW.Idx → EReal) (bias : SBias.Idx → EReal) :
    SOut.Idx → EReal :=
  fun j => ∑ e : Fin 16, sel (ix2 (j 0) e) * logitAt (fun k => att (ix2 (j 0) k)) W bias e (j 1)

theorem mixture_apply (sel : SSel.Idx → EReal) (att : SAtt.Idx → EReal) (W : SW.Idx → EReal) (bias : SBias.Idx → EReal)
    (b : Fin 256) (a : Fin 3000) :
    mixture sel att W bias (ix2 b a) = ∑ e : Fin 16, sel (ix2 b e) * logitAt (fun k => att (ix2 b k)) W bias e a := rfl

/-- When the selector is the indicator of one expert per sample, the mixture is that expert's logits. -/
theorem mixture_indicator (sel : SSel.Idx → EReal) (att : SAtt.Idx → EReal) (W : SW.Idx → EReal) (bias : SBias.Idx → EReal)
    (e0 : Fin 256 → Fin 16) (h : ∀ b e, sel (ix2 b e) = if e = e0 b then (1 : EReal) else 0) (b : Fin 256) (a : Fin 3000) :
    mixture sel att W bias (ix2 b a) = logitAt (fun k => att (ix2 b k)) W bias (e0 b) a := by
  rw [mixture_apply]
  simp only [h]
  exact indicator_sum (fun e => logitAt (fun k => att (ix2 b k)) W bias e a) (e0 b)

end Cert.Spec

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.PoolIdeal.lean ====
/-
  The pooling region on the extended reals: the body's stored value at an index, and the attended array the region
  leaves.  Entry (b, k) of a [16, 512] block is the sum over the 196 positions of feature(b, k, s) * (mask(b, 0, s) + g)
  divided by the sum over the positions of (mask(b, 0, s) + g), g the guard word; the 64 blocks tile the
  [256, 2048] array, block (i, j) covering rows 16 i … 16 i + 15 and channels 512 j … 512 j + 511, and every point
  writes its block back, so the array ends holding the masked average of every sample and channel.
-/
import proofs.«406250_j6047313952809_3_alg».proof.Proof.PoolData
import proofs.«406250_j6047313952809_3_alg».proof.Proof.Spec
import proofs.«406250_j6047313952809_3_alg».proof.Proof.LibKeepdimsColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## Reading a sum over the last axis and a broadcast along the middle axis at coordinates -/

/-- Over the pair `(p, q)`, the index with coordinate `s` inserted on the last axis is `(p, q, s)`. -/
theorem pool_lift_last3 {a b n : Nat} (h : (⟨3, ![a, b, n]⟩ : Shape).Reduces [2] ⟨2, ![a, b]⟩) (p : Fin a) (q : Fin b) (s : Fin n) :
    h.lift (ix2 p q) s = ix3 p q s :=
  funext fun c => Fin.ext (by
    match c with
    | ⟨0, _⟩ => rfl
    | ⟨1, _⟩ => rfl
    | ⟨2, _⟩ => rfl)

/-- The sum of an `[a, b, n]` array over its last axis, at `(p, q)`. -/
theorem pool_sum_last3_apply {a b n : Nat} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ s : Fin n, src (ix3 p q s) := by
  rw [Ideal.multiReduction_add_single]
  exact Finset.sum_congr rfl fun s _ => congrArg src (pool_lift_last3 h p q s)

/-- An `[a, 1, n]` array broadcast to `[a, b, n]` reads, at `(p, q, s)`, the operand at `(p, 0, s)`. -/
theorem pool_broadcastTo_a1n_abn_apply {α : Type} {a b n : ℕ} (v : (⟨3, ![a, 1, n]⟩ : Shape).Idx → α)
    (h : (⟨3, ![a, 1, n]⟩ : Shape).Broadcasts ⟨3, ![a, b, n]⟩) (p : Fin a) (q : Fin b) (s : Fin n) :
    broadcastTo ⟨3, ![a, b, n]⟩ v h (ix3 p q s) = v (ix3 p (0 : Fin 1) s) := by
  refine broadcastTo_apply v h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if n = 1 then 0 else s.val
    split
    · have := s.isLt; omega
    · rfl

/-- THE POOLED BLOCK AT AN INDEX. -/
theorem poolOut_apply (x0 : FVec Ideal S16x512x196 .f32) (x1 : FVec Ideal S16x1x196 .f32) (b : Fin 16) (k : Fin 512) :
    poolOut (F := Ideal) x0 x1 (ix2 b k)
      = Ideal.div (∑ s : Fin 196, x0 (ix3 b k s) * (x1 (ix3 b (0 : Fin 1) s) + Cert.Spec.guard))
          (∑ s : Fin 196, (x1 (ix3 b (0 : Fin 1) s) + Cert.Spec.guard)) := by
  unfold poolOut k0_pay1
  dsimp only
  rw [truncf_apply, divf_apply]
  refine congrArg₂ Ideal.div ?_ ?_
  · refine (pool_sum_last3_apply _ _ _ _ _ b k).trans (Finset.sum_congr rfl fun s _ => ?_)
    rw [mulf_apply, shapeCast_self, pool_broadcastTo_a1n_abn_apply, addf_apply, shapeCast_self, broadcast_apply]
    rfl
  · rw [Cert.LibKeepdimsColumn.broadcastTo_a1_ab_apply]
    refine (pool_sum_last3_apply _ _ _ _ _ b (0 : Fin 1)).trans (Finset.sum_congr rfl fun s _ => ?_)
    rw [addf_apply, shapeCast_self, broadcast_apply]
    rfl

section Final
variable (V : (c : Dev nD) → (b : Ref sig .tc) → Buf (Elt Ideal) ((c : Thread nD τ).loc b))

/-- A pooled block entry is the masked average of the arrays' entries its rows come from: when the feature block's
    row `(p, q, ·)` is the features' row `(B, K, ·)` and the mask block's row `(p, 0, ·)` is the mask's row `(B, 0, ·)`. -/
theorem poolOut_of_rows (feat : Cert.Spec.SFeat.Idx → EReal) (mask : Cert.Spec.SMask.Idx → EReal)
    (x0 : FVec Ideal S16x512x196 .f32) (x1 : FVec Ideal S16x1x196 .f32) (p : Fin 16) (q : Fin 512) (B : Fin 256) (K : Fin 2048)
    (h0 : ∀ s : Fin 196, x0 (ix3 p q s) = feat (ix3 B K s))
    (h1 : ∀ s : Fin 196, x1 (ix3 p (0 : Fin 1) s) = mask (ix3 B (0 : Fin 1) s)) :
    poolOut (F := Ideal) x0 x1 (ix2 p q) = Cert.Spec.attendedAt feat mask B K := by
  rw [poolOut_apply]
  unfold Cert.Spec.attendedAt
  simp only [h0, h1]

/-- The three windows' block indices over the grid: the feature block moves with the result block on the sample and
    channel axes, the mask block with it on the sample axis; the other block indices are zero; the result's block
    indices stay in their ranges. -/
theorem pool_idx_facts : ∀ t : Fin cfg0.N, win0_0.index t (0 : Fin 3) = win0_2.index t (0 : Fin 2)
    ∧ win0_0.index t (1 : Fin 3) = win0_2.index t (1 : Fin 2)
    ∧ win0_0.index t (2 : Fin 3) = 0
    ∧ win0_1.index t (0 : Fin 3) = win0_2.index t (0 : Fin 2)
    ∧ win0_1.index t (1 : Fin 3) = 0
    ∧ win0_1.index t (2 : Fin 3) = 0
    ∧ win0_2.index t (0 : Fin 2) ≤ 15 ∧ win0_2.index t (1 : Fin 2) ≤ 3 :=
  (by decide +kernel : ∀ t : Fin grid0.N, _)

/-- Every block of the result array is some point's. -/
theorem pool_idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- The masked average of every sample and channel, as a function of the result array's index. -/
abbrev poolAttended (c : Dev nD) : S256x2048.Idx → EReal :=
  fun j => Cert.Spec.attendedAt (V c main_v0) (V c main_v1) (j 0) (j 1)

/-- WHAT POINT `t` WRITES BACK is block `t` of the masked average of the arrays as the region finds them. -/
theorem pool_flushed_eq (c : Dev nD) (t : Fin cfg0.N) :
    (dat0 (F := Ideal) V c).flushed 2 t = ((cfg0.win 2).blk t).view.read (Elt Ideal) (poolAttended V c) := by
  show (cfg0.win 2).cut (grid0.coords t) ((dat0 (F := Ideal) V c).after 2 t) = _
  rw [after0_2]
  obtain ⟨e0, e1, e2, e3, e4, e5, e6, e7⟩ := pool_idx_facts t
  funext j
  obtain ⟨p, q, rfl⟩ : ∃ (p : Fin 16) (q : Fin 512), j = ix2 p q := ⟨j 0, j 1, eq_ix2 j⟩
  show poolOut (F := Ideal) (iblk0 V c 0 t) (iblk0 V c 1 t) (ix2 p q)
    = Cert.Spec.attendedAt (V c main_v0) (V c main_v1) ((((cfg0.win 2).blk t).view.emb (ix2 p q)) 0) ((((cfg0.win 2).blk t).view.emb (ix2 p q)) 1)
  refine poolOut_of_rows (V c main_v0) (V c main_v1) _ _ p q _ _ (fun s => ?_) (fun s => ?_)
  · show V c main_v0 (((cfg0.win 0).blk t).view.emb (ix3 p q s)) = V c main_v0 _
    refine congrArg (V c main_v0) (funext fun a => Fin.ext ?_)
    match a with
    | ⟨0, _⟩ => show win0_0.index t (0 : Fin 3) * 16 + 1 * p.val = win0_2.index t (0 : Fin 2) * 16 + 1 * p.val; omega
    | ⟨1, _⟩ => show win0_0.index t (1 : Fin 3) * 512 + 1 * q.val = win0_2.index t (1 : Fin 2) * 512 + 1 * q.val; omega
    | ⟨2, _⟩ => show win0_0.index t (2 : Fin 3) * 196 + 1 * s.val = s.val; omega
  · show V c main_v1 (((cfg0.win 1).blk t).view.emb (ix3 p (0 : Fin 1) s)) = V c main_v1 _
    refine congrArg (V c main_v1) (funext fun a => Fin.ext ?_)
    match a with
    | ⟨0, _⟩ => show win0_1.index t (0 : Fin 3) * 16 + 1 * p.val = win0_2.index t (0 : Fin 2) * 16 + 1 * p.val; omega
    | ⟨1, _⟩ => show win0_1.index t (1 : Fin 3) * 1 + 1 * 0 = 0; omega
    | ⟨2, _⟩ => show win0_1.index t (2 : Fin 3) * 196 + 1 * s.val = s.val; omega

/-- An index of the result array is in point `t`'s block iff each coordinate is in the block's range on its axis. -/
theorem pool_mem_blk (t : Fin cfg0.N) (i : S256x2048.Idx) :
    i ∈ ((cfg0.win 2).blk t).view.set ↔ ∀ a : Fin 2, win0_2.index t a * S16x512.size a ≤ (i a).val ∧ (i a).val < win0_2.index t a * S16x512.size a + S16x512.size a := by
  show i ∈ ((View.whole main_v2).slice (win0_2.rect t)).set ↔ _
  rw [View.set_slice_whole, Rect.mem_set_unit]
  exact Iff.rfl

/-- Every index of the result array lies in the block of the point whose block indices are (row / 16, channel / 512),
    and every point writes its block back. -/
theorem pool_covered (i : S256x2048.Idx) :
    ∃ t : Fin cfg0.N, (cfg0.win 2).flush t = true ∧ i ∈ ((cfg0.win 2).blk t).view.set := by
  have hi0 : (i 0).val < 256 := (i 0).isLt
  have hi1 : (i 1).val < 2048 := (i 1).isLt
  obtain ⟨t, ht⟩ := pool_idx_onto ⟨(i 0).val / 16, by omega⟩ ⟨(i 1).val / 512, by omega⟩
  have q0 : win0_2.index t (0 : Fin 2) = (i 0).val / 16 := congrFun ht 0
  have q1 : win0_2.index t (1 : Fin 2) = (i 1).val / 512 := congrFun ht 1
  refine ⟨t, flush0_2 t, ?_⟩
  rw [pool_mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 512 ≤ (i 1).val ∧ (i 1).val < win0_2.index t (1 : Fin 2) * 512 + 512; omega

/-- The result array after the region is the masked average, as one function of its index. -/
theorem final0_fun (c : Dev nD) : (dat0 (F := Ideal) V c).arrAt 2 cfg0.N = poolAttended V c :=
  (dat0 (F := Ideal) V c).arrAt_eq_of_cover 2 (poolAttended V c) (fun t _ => pool_flushed_eq V c t) (pool_covered)

/-- THE ATTENDED ARRAY AFTER THE REGION: the masked average of the features and the mask as the region found them. -/
theorem final0 (c : Dev nD) (b : Fin 256) (k : Fin 2048) :
    (dat0 (F := Ideal) V c).arrAt 2 cfg0.N (ix2 b k) = Cert.Spec.attendedAt (V c main_v0) (V c main_v1) b k :=
  congrFun (final0_fun V c) (ix2 b k)

end Final

end Cert.KernelIdeal.Hand

end
-- ==== Proof.LibAttnOps.lean ====
/-
  General lemmas: four vector operations of an attention body read at an index on the extended reals, for any sizes.

  * a matrix product contracting the FIRST axis of both operands, `[K, M] × [K, N] → [M, N]` (queries against keys, both
    stored channels-first): entry `(p, q)` is `∑ k, l[k, p] · r[k, q]`;
  * a matrix product contracting the SECOND axis of both operands, `[M, K] × [N, K] → [M, N]` (weights against values stored
    channels-first): entry `(p, q)` is `∑ k, l[p, k] · r[q, k]`;
  * a row maximum, `multi_reduction <maximumf>` of an `[a, b]` array over axis 1: entry `i` is the fold of `max` from the
    accumulator's value over row `i`;
  * a row sum, `multi_reduction <add>` over axis 1: entry `i` is `∑ k, src[i, k]`.

  The two products go the same way: the record of dimension numbers is replaced by the literal one with those lists, the
  operand indices at a result index and a contraction index are read coordinate by coordinate (the contracted axis
  carries the contraction index's one coordinate, the kept axis the result's row or column), and the sum over the
  one-axis contraction shape is re-indexed by that axis's coordinate. The two reductions read the library's one-axis
  reduction laws at axis 1 of a rank-2 shape, where the index inserted over row `i` at coordinate `k` is `(i, k)`.
-/
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

/-! ## Contracting axis 0 of both operands -/

namespace TN

/-- The dimension numbers contracting axis 0 with axis 0 as a literal record; `wf` are their conditions. -/
abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

/-- The left operand's row is the contracted coordinate. -/
theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

/-- The left operand's column is the result's row. -/
theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

/-- The right operand's row is the contracted coordinate. -/
theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

/-- The right operand's column is the result's column. -/
theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

/-- The product of the literal record at `(p, q)`. -/
theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

/-- `[K, M] × [K, N]` contracting axis 0 of both, into a zero accumulator, at `(p, q)`. -/
theorem matmul_tn_apply {M K N : Nat} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 k p) * r (ix2 k q) := by
  obtain ⟨lc, rc, ln, rn, lb, rb, wf⟩ := d
  simp only at h1 h2 h3 h4 h5 h6
  subst h1 h2 h3 h4 h5 h6
  exact TN.matmul_dims_apply wf prec l r p q

/-! ## Contracting axis 1 of both operands -/

namespace NT

/-- The dimension numbers contracting axis 1 with axis 1 as a literal record; `wf` are their conditions. -/
abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the result's row. -/
theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

/-- The left operand's column is the contracted coordinate. -/
theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

/-- The right operand's row is the result's column. -/
theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

/-- The right operand's column is the contracted coordinate. -/
theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

/-- The product of the literal record at `(p, q)`. -/
theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

/-- `[M, K] × [N, K]` contracting axis 1 of both, into a zero accumulator, at `(p, q)`. -/
theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

/-! ## Reductions over axis 1 of a rank-2 array -/

/-- Over row `i`, the index inserted at coordinate `k` of axis 1 is `(i, k)`. -/
theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

/-- The row maximum of an `[a, b]` array at row `i`: the fold of `max` from the accumulator's value over the row. -/
theorem rowmax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i) : Fin b → EReal) = fun k => src (ix2 i k) :=
    funext fun k => congrArg src (lift_row h i k)
  exact congrArg (fun f : Fin b → EReal => (Finset.univ : Finset (Fin b)).fold max (Ideal.ofBits φ acc) f) e

/-- The row sum of an `[a, b]` array at row `i`. -/
theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

end Cert.LibAttnOps

end
-- ==== Proof.ExpertIdeal.lean ====
/-
  The expert body's stored value read at an index on the extended reals: entry (p, q) of the [256, 128] block is
  the sum over the sixteen experts e of  selector(p, e) * ( sum_k attended(p, k) * weight(e, q, k) + bias(e, q) ).
  Each expert's product is a matrix product contracting the second axis of both operands, into a zero accumulator;
  a change of float format is the identity; the bias row is broadcast down the rows and the selector column along
  the columns; the accumulator starts at zero, and addition of extended reals is commutative and associative.
-/
import proofs.«406250_j6047313952809_3_alg».proof.Proof.ExpertFn
import proofs.«406250_j6047313952809_3_alg».proof.Proof.LibAttnOps
import proofs.«406250_j6047313952809_3_alg».proof.Proof.LibKeepdimsColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! ## One expert's pieces at an index -/

/-- The selector column of expert `e`, cut out of the [256, 16] selector and broadcast along the 128 columns: at (p, q) it is the selector at (p, e). -/
theorem sel_apply (x3 : FVec Ideal S256x16 .f32) (e : ℕ) (e' : Fin 16) (he : e'.val = e)
    (h1 : S256x16.Slices ![0, e] S256x1) (hb : S256x1.Broadcasts S256x128) (p : Fin 256) (q : Fin 128) :
    broadcastTo S256x128 (extractStridedSlice S256x1 ![0, e] x3 h1) hb (ix2 p q) = x3 (ix2 p e') :=
  (Cert.LibKeepdimsColumn.broadcastTo_a1_ab_apply _ hb p q).trans
    (slice2_axis1_apply e x3 h1 p (0 : Fin 1) e' (by rw [he]; rfl))

/-- The bias row of expert `e`, cut out of the [16, 128] block, flattened, given back its unit axis and broadcast down the 256 rows: at (p, q) it is the bias at (e, q). -/
theorem bias_apply (x2 : FVec Ideal S16x128 .f32) (e : ℕ) (e' : Fin 16) (he : e'.val = e)
    (h4 : S16x128.Slices ![e, 0] S1x128) (h5 : S1x128.ShapeCasts S128) (h6 : S128.ShapeCasts S1x128)
    (h7 : S1x128.Broadcasts S256x128) (p : Fin 256) (q : Fin 128) :
    broadcastTo S256x128 (shapeCast S1x128 (shapeCast S128 (extractStridedSlice S1x128 ![e, 0] x2 h4) h5) h6) h7 (ix2 p q)
      = x2 (ix2 e' q) :=
  (broadcastTo_1b_ab_apply _ h7 p q).trans <|
  (shapeCast_a_1a_apply _ h6 (0 : Fin 1) q).trans <|
  (shapeCast_1a_a_apply _ h5 q).trans <|
  slice2_axis0_apply e x2 h4 (0 : Fin 1) q e' (by rw [he]; rfl)

/-- The product of the attended rows with one expert's [1, 128, 2048] slice (its unit axis dropped, its format changed, contracted over the 2048 channels into a zero accumulator): at (p, q) the sum over k of attended(p, k) * slice(0, q, k). -/
theorem prod_apply (x0 : FVec Ideal S256x2048 .bf16) (w : FVec Ideal S1x128x2048 .f32)
    (hc : S1x128x2048.ShapeCasts S128x2048) (hlt : FTy.bits .bf16 < FTy.bits .f32) (p : Fin 256) (q : Fin 128) :
    matmul dot_S256x2048_S128x2048_S256x128_1_1_0_0_n_n none x0 (truncf .bf16 (shapeCast S128x2048 w hc) hlt)
        (constant S256x128 .f32 0x00000000#32) (ix2 p q)
      = ∑ k : Fin 2048, x0 (ix2 p k) * w (ix3 (0 : Fin 1) q k) := by
  refine (Cert.LibAttnOps.matmul_nt_apply dot_S256x2048_S128x2048_S256x128_1_1_0_0_n_n rfl rfl rfl rfl rfl rfl none x0
    (truncf .bf16 (shapeCast S128x2048 w hc) hlt) p q).trans ?_
  refine Finset.sum_congr rfl fun k _ => ?_
  rw [truncf_apply, shapeCast_1ab_ab_apply]

/-- Expert `e`'s slice of the weight block, a [1, 128, 2048] rectangle at offset (e, 0, 0): at (0, q, k) it is the weight at (e, q, k). -/
theorem ld_w_apply (x1 : Vec Ideal S16x128x2048 .f32) (e : ℕ) (e' : Fin 16) (he : e'.val = e)
    (inb : ∀ a, (![e, 0, 0] : Fin 3 → ℕ) a + S1x128x2048.size a ≤ S16x128x2048.size a) (q : Fin 128) (k : Fin 2048) :
    View.ld (Val := Elt Ideal) x1 (Rect.unit (s := S16x128x2048) ![e, 0, 0] S1x128x2048.size inb) (ix3 (0 : Fin 1) q k) = x1 (ix3 e' q k) :=
  congrArg x1 (funext fun a => Fin.ext (by
    match a with
    | ⟨0, _⟩ => show e + 1 * 0 = e'.val; omega
    | ⟨1, _⟩ => show 0 + 1 * q.val = q.val; omega
    | ⟨2, _⟩ => show 0 + 1 * k.val = k.val; omega))

/-! ## One expert's term -/

/-- Expert `e`'s term at (p, q): selector(p, e) * ( sum_k attended(p, k) * weight(e, q, k) + bias(e, q) ). -/
def termAt (x0 : FVec Ideal S256x2048 .bf16) (x1 : FVec Ideal S16x128x2048 .f32) (x2 : FVec Ideal S16x128 .f32)
    (x3 : FVec Ideal S256x16 .f32) (p : Fin 256) (q : Fin 128) (e : Fin 16) : EReal :=
  x3 (ix2 p e) * ((∑ k : Fin 2048, x0 (ix2 p k) * x1 (ix3 e q k)) + x2 (ix2 e q))

/-- The product with expert `e`'s slice of the weight block. -/
theorem prodW_apply (x0 : FVec Ideal S256x2048 .bf16) (x1 : FVec Ideal S16x128x2048 .f32) (e : ℕ) (e' : Fin 16) (he : e'.val = e)
    (inb : ∀ a, (![e, 0, 0] : Fin 3 → ℕ) a + S1x128x2048.size a ≤ S16x128x2048.size a)
    (hc : S1x128x2048.ShapeCasts S128x2048) (hlt : FTy.bits .bf16 < FTy.bits .f32) (p : Fin 256) (q : Fin 128) :
    matmul dot_S256x2048_S128x2048_S256x128_1_1_0_0_n_n none x0
        (truncf .bf16 (shapeCast S128x2048
          (View.ld (Val := Elt Ideal) (e' := .f32) x1 (Rect.unit (s := S16x128x2048) ![e, 0, 0] S1x128x2048.size inb)) hc) hlt)
        (constant S256x128 .f32 0x00000000#32) (ix2 p q)
      = ∑ k : Fin 2048, x0 (ix2 p k) * x1 (ix3 e' q k) :=
  (prod_apply x0 _ hc hlt p q).trans
    (Finset.sum_congr rfl fun k _ => congrArg (fun t : EReal => x0 (ix2 p k) * t) (ld_w_apply x1 e e' he inb q k))

/-- ONE EXPERT'S TERM AT AN INDEX: the selector column times (the product plus the bias row). The attended rows and the
    selector may come through a cast to their own shape. -/
theorem term_apply (x0 x0' : FVec Ideal S256x2048 .bf16) (hx0 : x0' = x0) (x1 : FVec Ideal S16x128x2048 .f32)
    (x2 : FVec Ideal S16x128 .f32) (x3 x3' : FVec Ideal S256x16 .f32) (hx3 : x3' = x3)
    (e : ℕ) (e' : Fin 16) (he : e'.val = e)
    (inb : ∀ a, (![e, 0, 0] : Fin 3 → ℕ) a + S1x128x2048.size a ≤ S16x128x2048.size a)
    (h1 : S256x16.Slices ![0, e] S256x1) (h4 : S16x128.Slices ![e, 0] S1x128)
    (hc : S1x128x2048.ShapeCasts S128x2048) (hlt : FTy.bits .bf16 < FTy.bits .f32)
    (h5 : S1x128.ShapeCasts S128) (h6 : S128.ShapeCasts S1x128)
    (h7 : S1x128.Broadcasts S256x128) (hb : S256x1.Broadcasts S256x128) (p : Fin 256) (q : Fin 128) :
    mulf (broadcastTo S256x128 (extractStridedSlice S256x1 ![0, e] x3' h1) hb)
      (addf
        (matmul dot_S256x2048_S128x2048_S256x128_1_1_0_0_n_n none x0'
          (truncf .bf16 (shapeCast S128x2048
            (View.ld (Val := Elt Ideal) (e' := .f32) x1 (Rect.unit (s := S16x128x2048) ![e, 0, 0] S1x128x2048.size inb)) hc) hlt)
          (constant S256x128 .f32 0x00000000#32))
        (broadcastTo S256x128 (shapeCast S1x128 (shapeCast S128 (extractStridedSlice S1x128 ![e, 0] x2 h4) h5) h6) h7))
      (ix2 p q)
      = termAt x0 x1 x2 x3 p q e' := by
  subst hx0 hx3
  refine (mulf_apply _ _ _).trans ?_
  refine congrArg₂ (fun a b : EReal => a * b) (sel_apply x3' e e' he h1 hb p q) ?_
  refine (addf_apply _ _ _).trans ?_
  exact congrArg₂ (fun a b : EReal => a + b) (prodW_apply x0' x1 e e' he inb hc hlt p q) (bias_apply x2 e e' he h4 h5 h6 h7 p q)

/-- The accumulator's start: the zero word splat. -/
theorem zero_apply (p : Fin 256) (q : Fin 128) :
    broadcast S256x128 (Scalar.ofBits (F := Ideal) .f32 0x00000000#32) (ix2 p q) = (0 : EReal) :=
  Ideal.ofBits_zero_f32

/-- A sum over the sixteen experts, written out from zero in the order the accumulator adds them. -/
theorem sum16 (f : Fin 16 → EReal) :
    ∑ e : Fin 16, f e = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-! ## The stages -/

section Stages
variable (x0 : FVec Ideal S256x2048 .bf16) (x1 : FVec Ideal S16x128x2048 .f32) (x2 : FVec Ideal S16x128 .f32)
  (x3 : FVec Ideal S256x16 .f32) (p : Fin 256) (q : Fin 128)

theorem pay2_eq : k1_pay2 (F := Ideal) x0 = x0 := shapeCast_self _ _
theorem pay3_eq : k1_pay3 (F := Ideal) x3 = x3 := shapeCast_self _ _

/-- After the first part: zero, then experts 0 and 1. -/
theorem accA_apply :
    accA (F := Ideal) x0 x1 x2 x3 (ix2 p q) = 0 + termAt x0 x1 x2 x3 p q 0 + termAt x0 x1 x2 x3 p q 1 := by
  unfold accA k1_pay4
  simp only [addf_apply]
  exact congrArg₂ (fun a b : EReal => a + b)
    (congrArg₂ (fun a b : EReal => a + b) (zero_apply p q)
      (term_apply x0 _ (pay2_eq x0) x1 x2 x3 _ (pay3_eq x3) 0 0 rfl _ _ _ _ _ _ _ _ _ p q))
    (term_apply x0 _ (pay2_eq x0) x1 x2 x3 _ (pay3_eq x3) 1 1 rfl _ _ _ _ _ _ _ _ _ p q)

/-- After the second part: experts 2 … 5 added. -/
theorem accB_apply :
    accB (F := Ideal) x0 x1 x2 x3 (ix2 p q)
      = accA (F := Ideal) x0 x1 x2 x3 (ix2 p q) + termAt x0 x1 x2 x3 p q 2 + termAt x0 x1 x2 x3 p q 3 + termAt x0 x1 x2 x3 p q 4 + termAt x0 x1 x2 x3 p q 5 := by
  unfold accB k1_pay7 k1_pay5 k1_pay6
  simp only [addf_apply]
  exact (congrArg₂ (fun a b : EReal => a + b) (congrArg₂ (fun a b : EReal => a + b) (congrArg₂ (fun a b : EReal => a + b) (congrArg₂ (fun a b : EReal => a + b) rfl
      (term_apply x0 _ (pay2_eq x0) x1 x2 x3 _ (pay3_eq x3) 2 2 rfl _ _ _ _ _ _ _ _ _ p q))
      (term_apply x0 _ (pay2_eq x0) x1 x2 x3 _ (pay3_eq x3) 3 3 rfl _ _ _ _ _ _ _ _ _ p q))
      (term_apply x0 _ (pay2_eq x0) x1 x2 x3 _ (pay3_eq x3) 4 4 rfl _ _ _ _ _ _ _ _ _ p q))
      (term_apply x0 _ (pay2_eq x0) x1 x2 x3 _ (pay3_eq x3) 5 5 rfl _ _ _ _ _ _ _ _ _ p q))

/-- After the third part: experts 6 … 8 added. -/
theorem accC_apply :
    accC (F := Ideal) x0 x1 x2 x3 (ix2 p q)
      = accB (F := Ideal) x0 x1 x2 x3 (ix2 p q) + termAt x0 x1 x2 x3 p q 6 + termAt x0 x1 x2 x3 p q 7 + termAt x0 x1 x2 x3 p q 8 := by
  unfold accC k1_pay8
  simp only [addf_apply]
  exact (congrArg₂ (fun a b : EReal => a + b) (congrArg₂ (fun a b : EReal => a + b) (congrArg₂ (fun a b : EReal => a + b) rfl
      (term_apply x0 _ (pay2_eq x0) x1 x2 x3 _ (pay3_eq x3) 6 6 rfl _ _ _ _ _ _ _ _ _ p q))
      (term_apply x0 _ (pay2_eq x0) x1 x2 x3 _ (pay3_eq x3) 7 7 rfl _ _ _ _ _ _ _ _ _ p q))
      (term_apply x0 _ (pay2_eq x0) x1 x2 x3 _ (pay3_eq x3) 8 8 rfl _ _ _ _ _ _ _ _ _ p q))

/-- After the fourth part: experts 9 … 12 added. -/
theorem accD_apply :
    accD (F := Ideal) x0 x1 x2 x3 (ix2 p q)
      = accC (F := Ideal) x0 x1 x2 x3 (ix2 p q) + termAt x0 x1 x2 x3 p q 9 + termAt x0 x1 x2 x3 p q 10 + termAt x0 x1 x2 x3 p q 11 + termAt x0 x1 x2 x3 p q 12 := by
  unfold accD k1_pay10 k1_pay9
  simp only [addf_apply]
  exact (congrArg₂ (fun a b : EReal => a + b) (congrArg₂ (fun a b : EReal => a + b) (congrArg₂ (fun a b : EReal => a + b) (congrArg₂ (fun a b : EReal => a + b) rfl
      (term_apply x0 _ (pay2_eq x0) x1 x2 x3 _ (pay3_eq x3) 9 9 rfl _ _ _ _ _ _ _ _ _ p q))
      (term_apply x0 _ (pay2_eq x0) x1 x2 x3 _ (pay3_eq x3) 10 10 rfl _ _ _ _ _ _ _ _ _ p q))
      (term_apply x0 _ (pay2_eq x0) x1 x2 x3 _ (pay3_eq x3) 11 11 rfl _ _ _ _ _ _ _ _ _ p q))
      (term_apply x0 _ (pay2_eq x0) x1 x2 x3 _ (pay3_eq x3) 12 12 rfl _ _ _ _ _ _ _ _ _ p q))

/-- What is stored: experts 13 … 15 added. -/
theorem expertOut_stage :
    expertOut (F := Ideal) x0 x1 x2 x3 (ix2 p q)
      = accD (F := Ideal) x0 x1 x2 x3 (ix2 p q) + termAt x0 x1 x2 x3 p q 13 + termAt x0 x1 x2 x3 p q 14 + termAt x0 x1 x2 x3 p q 15 := by
  unfold expertOut k1_pay1 k1_pay11
  simp only [addf_apply]
  exact (congrArg₂ (fun a b : EReal => a + b) (congrArg₂ (fun a b : EReal => a + b) (congrArg₂ (fun a b : EReal => a + b) rfl
      (term_apply x0 _ (pay2_eq x0) x1 x2 x3 _ (pay3_eq x3) 13 13 rfl _ _ _ _ _ _ _ _ _ p q))
      (term_apply x0 _ (pay2_eq x0) x1 x2 x3 _ (pay3_eq x3) 14 14 rfl _ _ _ _ _ _ _ _ _ p q))
      (term_apply x0 _ (pay2_eq x0) x1 x2 x3 _ (pay3_eq x3) 15 15 rfl _ _ _ _ _ _ _ _ _ p q))

end Stages

/-- THE EXPERT BLOCK AT AN INDEX. -/
theorem expertOut_apply (x0 : FVec Ideal S256x2048 .bf16) (x1 : FVec Ideal S16x128x2048 .f32) (x2 : FVec Ideal S16x128 .f32)
    (x3 : FVec Ideal S256x16 .f32) (p : Fin 256) (q : Fin 128) :
    expertOut (F := Ideal) x0 x1 x2 x3 (ix2 p q)
      = ∑ e : Fin 16, x3 (ix2 p e) * ((∑ k : Fin 2048, x0 (ix2 p k) * x1 (ix3 e q k)) + x2 (ix2 e q)) := by
  refine Eq.trans ?_ (sum16 (termAt x0 x1 x2 x3 p q)).symm
  rw [expertOut_stage, accD_apply, accC_apply, accB_apply, accA_apply]

end Cert.KernelIdeal.Hand

end
-- ==== Proof.Values1.lean ====
/-
  The expert region on the extended reals: the part of a result block the write-back moves does not depend on what
  fills the weight and bias buffers past their arrays' ends (column q of the block reads row q of every expert's weight
  slice and entry q of its bias row, and the write-back moves only the columns whose rows the fetch filled); and the
  result array the region leaves: the 24 blocks of 128 answers cover the 3000 answers (the last one cut to 56), every
  point writes its block back, so entry (b, a) ends as the selector-weighted sum over the experts of expert e's logit.
-/
import proofs.«406250_j6047313952809_3_alg».proof.Proof.ExpertData
import proofs.«406250_j6047313952809_3_alg».proof.Proof.ExpertIdeal
import proofs.«406250_j6047313952809_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## Filling a block: at an index the transfer moves, the filler is not read -/

theorem fill_moved {G : Pipeline.Grid} (w : Pipeline.Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

theorem fill_indep {G : Pipeline.Grid} (w : Pipeline.Window sig G) {α : Type} (i : G.Coords) (d d' : w.block.Idx → α)
    (g : (w.xblock i).Idx → α) (j : w.block.Idx) (h : w.moved i j = true) :
    w.fill i d g j = w.fill i d' g j := by
  rw [fill_moved w i d g j h, fill_moved w i d' g j h]

/-- The cut sizes of the weight, bias and result windows, decided over the 24 points: only the answer axis is cut, and alike
    for the three; point j's blocks start at answer 128 j and keep 128 answers, the last one 56. -/
theorem cut_facts : ∀ t : Fin cfg1.N,
    win1_1.xsize (grid1.coords t) (0 : Fin 3) = 16
    ∧ win1_1.xsize (grid1.coords t) (1 : Fin 3) = win1_4.xsize (grid1.coords t) (1 : Fin 2)
    ∧ win1_1.xsize (grid1.coords t) (2 : Fin 3) = 2048
    ∧ win1_2.xsize (grid1.coords t) (0 : Fin 2) = 16
    ∧ win1_2.xsize (grid1.coords t) (1 : Fin 2) = win1_4.xsize (grid1.coords t) (1 : Fin 2)
    ∧ win1_4.xsize (grid1.coords t) (0 : Fin 2) = 256
    ∧ t.val * 128 + win1_4.xsize (grid1.coords t) (1 : Fin 2) = min (t.val * 128 + 128) 3000 :=
  (by decide +kernel : ∀ t : Fin grid1.N, _)

/-- Where point j's blocks sit: the whole-array windows at block index 0, the three cut ones at (0, j[, 0]). -/
theorem index_facts : ∀ t : Fin cfg1.N,
    win1_0.index t (0 : Fin 2) = 0 ∧ win1_0.index t (1 : Fin 2) = 0
    ∧ win1_3.index t (0 : Fin 2) = 0 ∧ win1_3.index t (1 : Fin 2) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = t.val
    ∧ win1_4.index t (0 : Fin 2) = 0 ∧ win1_4.index t (1 : Fin 2) = t.val :=
  (by decide +kernel : ∀ t : Fin grid1.N, _)

/-- The expert block's entry (p, q) reads column q of the weight and bias blocks only. -/
theorem expertOut_congr_col (x0 : FVec Ideal S256x2048 .bf16) (x1 x1' : FVec Ideal S16x128x2048 .f32)
    (x2 x2' : FVec Ideal S16x128 .f32) (x3 : FVec Ideal S256x16 .f32) (p : Fin 256) (q : Fin 128)
    (h1 : ∀ (e : Fin 16) (k : Fin 2048), x1 (ix3 e q k) = x1' (ix3 e q k))
    (h2 : ∀ e : Fin 16, x2 (ix2 e q) = x2' (ix2 e q)) :
    expertOut (F := Ideal) x0 x1 x2 x3 (ix2 p q) = expertOut (F := Ideal) x0 x1' x2' x3 (ix2 p q) := by
  rw [expertOut_apply, expertOut_apply]
  simp only [h1, h2]

/-- Entry (p, q) of the expert block, when row p of the attended and selector blocks is the arrays' row p and column q of the
    weight and bias blocks is the arrays' answer a: the selector-weighted sum of the sixteen experts' logits of answer a. -/
theorem expertOut_eq_mixture (x0 : FVec Ideal S256x2048 .bf16) (x1 : FVec Ideal S16x128x2048 .f32)
    (x2 : FVec Ideal S16x128 .f32) (x3 : FVec Ideal S256x16 .f32)
    (sel : Cert.Spec.SSel.Idx → EReal) (att : Cert.Spec.SAtt.Idx → EReal) (W : Cert.Spec.SW.Idx → EReal)
    (bias : Cert.Spec.SBias.Idx → EReal) (p : Fin 256) (q : Fin 128) (a : Fin 3000)
    (h0 : ∀ k : Fin 2048, x0 (ix2 p k) = att (ix2 p k)) (h3 : ∀ e : Fin 16, x3 (ix2 p e) = sel (ix2 p e))
    (h1 : ∀ (e : Fin 16) (k : Fin 2048), x1 (ix3 e q k) = W (ix3 e a k))
    (h2 : ∀ e : Fin 16, x2 (ix2 e q) = bias (ix2 e a)) :
    expertOut (F := Ideal) x0 x1 x2 x3 (ix2 p q) = Cert.Spec.mixture sel att W bias (ix2 p a) := by
  rw [expertOut_apply, Cert.Spec.mixture_apply]
  simp only [h0, h1, h2, h3, Cert.Spec.logitAt]

section Final
variable (V : (c : Dev nD) → (b : Ref sig .tc) → Buf (Elt Ideal) ((c : Thread nD τ).loc b))

/-- What the write-back moves of the body's result is the same whatever fills the weight and bias buffers past the arrays' ends. -/
theorem expert_local (c : Dev nD) (t : Fin cfg1.N) (dW : S16x128x2048.Idx → Elt Ideal .f32) (db : S16x128.Idx → Elt Ideal .f32) :
    win1_4.cut (grid1.coords t) (expertOut (F := Ideal) (iblk1 V c 0 t) (wfill V c t dW) (bfill V c t db) (iblk1 V c 3 t))
      = win1_4.cut (grid1.coords t) (expertOut (F := Ideal) (iblk1 V c 0 t) (wblk V c t) (bblk V c t) (iblk1 V c 3 t)) := by
  obtain ⟨f0, f1, f2, f3, f4, f5, f6⟩ := cut_facts t
  funext j
  have hq : (j (1 : Fin 2)).val < win1_4.xsize (grid1.coords t) (1 : Fin 2) := (j (1 : Fin 2)).isLt
  have hp : (j (0 : Fin 2)).val < 256 := f5 ▸ (j (0 : Fin 2)).isLt
  have hq128 : (j (1 : Fin 2)).val < 128 := by omega
  have hj : win1_4.xinj (grid1.coords t) j = ix2 (⟨(j (0 : Fin 2)).val, hp⟩ : Fin 256) (⟨(j (1 : Fin 2)).val, hq128⟩ : Fin 128) := by
    funext a; match a with | ⟨0, _⟩ => rfl | ⟨1, _⟩ => rfl
  show expertOut (F := Ideal) _ _ _ _ (win1_4.xinj (grid1.coords t) j) = expertOut (F := Ideal) _ _ _ _ (win1_4.xinj (grid1.coords t) j)
  rw [hj]
  refine expertOut_congr_col _ _ _ _ _ _ _ _ (fun e k => ?_) (fun e => ?_)
  · unfold wblk wfill
    refine fill_indep win1_1 (grid1.coords t) _ _ _ _ ((win1_1.moved_iff _ _).mpr fun a => ?_)
    match a with
    | ⟨0, _⟩ => show e.val < win1_1.xsize (grid1.coords t) (0 : Fin 3); rw [f0]; exact e.isLt
    | ⟨1, _⟩ => show (j (1 : Fin 2)).val < win1_1.xsize (grid1.coords t) (1 : Fin 3); rw [f1]; exact hq
    | ⟨2, _⟩ => show k.val < win1_1.xsize (grid1.coords t) (2 : Fin 3); rw [f2]; exact k.isLt
  · unfold bblk bfill
    refine fill_indep win1_2 (grid1.coords t) _ _ _ _ ((win1_2.moved_iff _ _).mpr fun a => ?_)
    match a with
    | ⟨0, _⟩ => show e.val < win1_2.xsize (grid1.coords t) (0 : Fin 2); rw [f3]; exact e.isLt
    | ⟨1, _⟩ => show (j (1 : Fin 2)).val < win1_2.xsize (grid1.coords t) (1 : Fin 2); rw [f4]; exact hq

/-- The attended block is the whole array: its entry (p, k) is the array's. -/
theorem iblk1_0_apply (c : Dev nD) (t : Fin cfg1.N) (p : Fin 256) (k : Fin 2048) :
    iblk1 V c 0 t (ix2 p k) = V c main_v2 (ix2 p k) := by
  obtain ⟨i0, i1, i2, i3, i4, i5, i6, i7, i8, i9, i10⟩ := index_facts t
  show V c main_v2 (((cfg1.win 0).blk t).view.emb (ix2 p k)) = V c main_v2 (ix2 p k)
  refine congrArg _ ?_
  funext a; apply Fin.ext
  match a with
  | ⟨0, _⟩ => show win1_0.index t (0 : Fin 2) * 256 + 1 * p.val = p.val; rw [i0, Nat.zero_mul, Nat.zero_add, Nat.one_mul]
  | ⟨1, _⟩ => show win1_0.index t (1 : Fin 2) * 2048 + 1 * k.val = k.val; rw [i1, Nat.zero_mul, Nat.zero_add, Nat.one_mul]

/-- The selector block is the whole array: its entry (p, e) is the array's. -/
theorem iblk1_3_apply (c : Dev nD) (t : Fin cfg1.N) (p : Fin 256) (e : Fin 16) :
    iblk1 V c 3 t (ix2 p e) = V c main_v4 (ix2 p e) := by
  obtain ⟨i0, i1, i2, i3, i4, i5, i6, i7, i8, i9, i10⟩ := index_facts t
  show V c main_v4 (((cfg1.win 3).blk t).view.emb (ix2 p e)) = V c main_v4 (ix2 p e)
  refine congrArg _ ?_
  funext a; apply Fin.ext
  match a with
  | ⟨0, _⟩ => show win1_3.index t (0 : Fin 2) * 256 + 1 * p.val = p.val; rw [i2, Nat.zero_mul, Nat.zero_add, Nat.one_mul]
  | ⟨1, _⟩ => show win1_3.index t (1 : Fin 2) * 16 + 1 * e.val = e.val; rw [i3, Nat.zero_mul, Nat.zero_add, Nat.one_mul]

/-- Column q of point t's weight block, q among the answers the fetch fills: the weights of answer 128 t + q. -/
theorem wblk_apply (c : Dev nD) (t : Fin cfg1.N) (e : Fin 16) (q : Fin 128) (k : Fin 2048) (a : Fin 3000)
    (hq : q.val < win1_4.xsize (grid1.coords t) (1 : Fin 2)) (ha : a.val = t.val * 128 + q.val) :
    wblk V c t (ix3 e q k) = V c main_arg2 (ix3 e a k) := by
  obtain ⟨f0, f1, f2, f3, f4, f5, f6⟩ := cut_facts t
  obtain ⟨i0, i1, i2, i3, i4, i5, i6, i7, i8, i9, i10⟩ := index_facts t
  have hm : win1_1.moved (grid1.coords t) (ix3 e q k) = true := (win1_1.moved_iff _ _).mpr fun b => by
    match b with
    | ⟨0, _⟩ => show e.val < win1_1.xsize (grid1.coords t) (0 : Fin 3); rw [f0]; exact e.isLt
    | ⟨1, _⟩ => show q.val < win1_1.xsize (grid1.coords t) (1 : Fin 3); rw [f1]; exact hq
    | ⟨2, _⟩ => show k.val < win1_1.xsize (grid1.coords t) (2 : Fin 3); rw [f2]; exact k.isLt
  unfold wblk wfill
  rw [fill_moved win1_1 _ _ _ _ hm]
  show V c main_arg2 (((cfg1.win 1).blk t).view.emb _) = V c main_arg2 (ix3 e a k)
  refine congrArg _ ?_
  funext b; apply Fin.ext
  match b with
  | ⟨0, _⟩ => show win1_1.index t (0 : Fin 3) * 16 + 1 * e.val = e.val; rw [i4, Nat.zero_mul, Nat.zero_add, Nat.one_mul]
  | ⟨1, _⟩ => show win1_1.index t (1 : Fin 3) * 128 + 1 * q.val = a.val; rw [i5, ha, Nat.one_mul]
  | ⟨2, _⟩ => show win1_1.index t (2 : Fin 3) * 2048 + 1 * k.val = k.val; rw [i6, Nat.zero_mul, Nat.zero_add, Nat.one_mul]

/-- Entry q of point t's bias block, q among the answers the fetch fills: the biases of answer 128 t + q. -/
theorem bblk_apply (c : Dev nD) (t : Fin cfg1.N) (e : Fin 16) (q : Fin 128) (a : Fin 3000)
    (hq : q.val < win1_4.xsize (grid1.coords t) (1 : Fin 2)) (ha : a.val = t.val * 128 + q.val) :
    bblk V c t (ix2 e q) = V c main_arg3 (ix2 e a) := by
  obtain ⟨f0, f1, f2, f3, f4, f5, f6⟩ := cut_facts t
  obtain ⟨i0, i1, i2, i3, i4, i5, i6, i7, i8, i9, i10⟩ := index_facts t
  have hm : win1_2.moved (grid1.coords t) (ix2 e q) = true := (win1_2.moved_iff _ _).mpr fun b => by
    match b with
    | ⟨0, _⟩ => show e.val < win1_2.xsize (grid1.coords t) (0 : Fin 2); rw [f3]; exact e.isLt
    | ⟨1, _⟩ => show q.val < win1_2.xsize (grid1.coords t) (1 : Fin 2); rw [f4]; exact hq
  unfold bblk bfill
  rw [fill_moved win1_2 _ _ _ _ hm]
  show V c main_arg3 (((cfg1.win 2).blk t).view.emb _) = V c main_arg3 (ix2 e a)
  refine congrArg _ ?_
  funext b; apply Fin.ext
  match b with
  | ⟨0, _⟩ => show win1_2.index t (0 : Fin 2) * 16 + 1 * e.val = e.val; rw [i7, Nat.zero_mul, Nat.zero_add, Nat.one_mul]
  | ⟨1, _⟩ => show win1_2.index t (1 : Fin 2) * 128 + 1 * q.val = a.val; rw [i8, ha, Nat.one_mul]

/-- An entry of the result array is in point t's block iff each coordinate is in the block's part inside the array. -/
theorem mem_blk1_4 (t : Fin cfg1.N) (i : S256x3000.Idx) :
    i ∈ ((cfg1.win 4).blk t).view.set
      ↔ ∀ a : Fin 2, win1_4.index t a * S256x128.size a ≤ (i a).val
          ∧ (i a).val < win1_4.index t a * S256x128.size a + win1_4.xsize (grid1.coords t) a := by
  show i ∈ ((View.whole main_v5).slice (win1_4.rect t)).set ↔ _
  rw [View.set_slice_whole, Rect.mem_set_unit]
  exact Iff.rfl

/-- The 24 blocks cover the 3000 answers: answer a is in the block of point a / 128, at column a % 128, which the write-back
    moves (at the last point 3000 - 2944 = 56 columns are). -/
theorem cover1_4 (i : S256x3000.Idx) :
    ∃ t : Fin cfg1.N, (cfg1.win 4).flush t = true ∧ i ∈ ((cfg1.win 4).blk t).view.set := by
  have hi0 : (i 0).val < 256 := (i 0).isLt
  have hi1 : (i 1).val < 3000 := (i 1).isLt
  obtain ⟨t, ht⟩ : ∃ t : Fin cfg1.N, t.val = (i 1).val / 128 :=
    ⟨⟨(i 1).val / 128, by rw [show cfg1.N = 24 from N_1]; omega⟩, rfl⟩
  obtain ⟨f0, f1, f2, f3, f4, f5, f6⟩ := cut_facts t
  obtain ⟨i0, i1, i2, i3, i4, i5, i6, i7, i8, i9, i10⟩ := index_facts t
  refine ⟨t, flush1_4 t, ?_⟩
  rw [mem_blk1_4]
  intro a
  match a with
  | ⟨0, _⟩ =>
    show win1_4.index t (0 : Fin 2) * 256 ≤ (i 0).val
      ∧ (i 0).val < win1_4.index t (0 : Fin 2) * 256 + win1_4.xsize (grid1.coords t) (0 : Fin 2)
    rw [i9, f5]; omega
  | ⟨1, _⟩ =>
    show win1_4.index t (1 : Fin 2) * 128 ≤ (i 1).val
      ∧ (i 1).val < win1_4.index t (1 : Fin 2) * 128 + win1_4.xsize (grid1.coords t) (1 : Fin 2)
    rw [i10]; omega

/-- WHAT POINT t WRITES BACK is block t of the mixture of the arrays as the region finds them. -/
theorem flushed1_4 (c : Dev nD) (t : Fin cfg1.N) :
    (dat1 (F := Ideal) V c).flushed 4 t
      = ((cfg1.win 4).blk t).view.read (Elt Ideal)
          (Cert.Spec.mixture (V c main_v4) (V c main_v2) (V c main_arg2) (V c main_arg3)) := by
  show (cfg1.win 4).cut (grid1.coords t) ((dat1 (F := Ideal) V c).after 4 t) = _
  rw [after1_4]
  obtain ⟨f0, f1, f2, f3, f4, f5, f6⟩ := cut_facts t
  obtain ⟨i0, i1, i2, i3, i4, i5, i6, i7, i8, i9, i10⟩ := index_facts t
  funext j
  have hq : (j (1 : Fin 2)).val < win1_4.xsize (grid1.coords t) (1 : Fin 2) := (j (1 : Fin 2)).isLt
  have hp : (j (0 : Fin 2)).val < 256 := f5 ▸ (j (0 : Fin 2)).isLt
  have hq128 : (j (1 : Fin 2)).val < 128 := by omega
  have ha : t.val * 128 + (j (1 : Fin 2)).val < 3000 := by omega
  have hj : win1_4.xinj (grid1.coords t) j = ix2 (⟨(j (0 : Fin 2)).val, hp⟩ : Fin 256) (⟨(j (1 : Fin 2)).val, hq128⟩ : Fin 128) := by
    funext a; match a with | ⟨0, _⟩ => rfl | ⟨1, _⟩ => rfl
  have hemb : ((cfg1.win 4).blk t).view.emb j
      = ix2 (⟨(j (0 : Fin 2)).val, hp⟩ : Fin 256) (⟨t.val * 128 + (j (1 : Fin 2)).val, ha⟩ : Fin 3000) := by
    funext a; apply Fin.ext
    match a with
    | ⟨0, _⟩ => show win1_4.index t (0 : Fin 2) * 256 + 1 * (j (0 : Fin 2)).val = (j (0 : Fin 2)).val; rw [i9]; omega
    | ⟨1, _⟩ => show win1_4.index t (1 : Fin 2) * 128 + 1 * (j (1 : Fin 2)).val = t.val * 128 + (j (1 : Fin 2)).val; rw [i10]; omega
  show expertOut (F := Ideal) _ _ _ _ (win1_4.xinj (grid1.coords t) j)
    = Cert.Spec.mixture (V c main_v4) (V c main_v2) (V c main_arg2) (V c main_arg3) (((cfg1.win 4).blk t).view.emb j)
  rw [hj, hemb]
  refine expertOut_eq_mixture _ _ _ _ _ _ _ _ _ _ _ (fun k => ?_) (fun e => ?_) (fun e k => ?_) (fun e => ?_)
  · exact iblk1_0_apply V c t _ k
  · exact iblk1_3_apply V c t _ e
  · exact wblk_apply V c t e _ k _ hq rfl
  · exact bblk_apply V c t e _ _ hq rfl

/-- THE RESULT ARRAY AFTER THE REGION. -/
theorem final1 (c : Dev nD) :
    (dat1 (F := Ideal) V c).arrAt 4 cfg1.N
      = Cert.Spec.mixture (V c main_v4) (V c main_v2) (V c main_arg2) (V c main_arg3) := by
  refine (dat1 (F := Ideal) V c).arrAt_eq_of_cover 4 _ (fun t _ => flushed1_4 V c t) (fun i => cover1_4 i)

end Final

end Cert.KernelIdeal.Hand

end
-- ==== Proof.HostSide.lean ====
/-
  The host side of the kernel's program read off the buffers' contents between its items, and the precondition decoded.
  The two reshapes flatten the 14 x 14 positions; the expert index is clamped into 0 … 15 (a maximum with 0, a minimum
  with 15), compared with the numbers 0 … 15 and the comparison converted to a float: the selector, one at the
  clamped index and zero elsewhere.  Under the precondition every index already lies in 0 … 15, so the clamp is the identity.
-/
import proofs.«406250_j6047313952809_3_alg».proof.Proof.Gen.KernelIdeal.Regions
import proofs.«406250_j6047313952809_3_alg».proof.Proof.Gen.Pre_finite_inputs
import proofs.«406250_j6047313952809_3_alg».proof.Defs
import proofs.«406250_j6047313952809_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.ReduceAll
import Idealize.ShloMosaic.Lib.Pipeline.Value
import Idealize.ShloMosaic.Lib.StableHlo.Run
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! Words and the selector at one point (in a namespace of their own, opened below). -/
namespace HostWord

/-- The scalar shape has one index. -/
instance subsingleton_scalar_idx : Subsingleton Cert.Pre_finite_inputs.S_.Idx := ⟨fun a b => funext fun d => d.elim0⟩

/-- A word that compares at least 0 and below 16, signed, lies in 0 … 15 as a signed integer. -/
theorem word_range (w : BitVec 32) (h0 : IntOp.cmpi .sge w 0#32 = 1#1) (h16 : IntOp.cmpi .slt w 16#32 = 1#1) :
    0 ≤ w.toInt ∧ w.toInt < 16 := by
  unfold IntOp.cmpi at h0 h16
  rw [StableHlo.Predicate.ofBool_eq_one_iff] at h0 h16
  simp only [BitVec.slt, BitVec.sle, decide_eq_true_eq] at h0 h16
  have e0 : (0#32 : BitVec 32).toInt = 0 := by decide
  have e16 : (16#32 : BitVec 32).toInt = 16 := by decide
  rw [e0] at h0; rw [e16] at h16
  exact ⟨h0, h16⟩

/-- The clamp into 0 … 15 leaves a word already there unchanged. -/
theorem clamp_id (w : BitVec 32) (h0 : 0 ≤ w.toInt) (h16 : w.toInt < 16) :
    IntOp.minsi 15#32 (IntOp.maxsi 0#32 w) = w := by
  have e0 : (0#32 : BitVec 32).toInt = 0 := by decide
  have e15 : (15#32 : BitVec 32).toInt = 15 := by decide
  have hmax : IntOp.maxsi 0#32 w = w := by
    unfold IntOp.maxsi
    rw [if_neg]
    simp only [BitVec.slt, e0, decide_eq_true_eq]; omega
  rw [hmax]
  unfold IntOp.minsi
  rw [if_neg]
  simp only [BitVec.slt, e15, decide_eq_true_eq]; omega

/-- A word is the number e's word exactly when its signed value is e (e below 16). -/
theorem word_eq_iff (w : BitVec 32) (e : Fin 16) : w = BitVec.ofNat 32 e.val ↔ w.toInt = (e.val : Int) := by
  have he : (BitVec.ofNat 32 e.val).toInt = (e.val : Int) :=
    StableHlo.Predicate.toInt_ofNat_small e.val (by have := e.isLt; omega)
  rw [← he]
  exact BitVec.toInt_inj.symm

/-- The comparison of two words converted to a float is one when they are equal and zero otherwise. -/
theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  by_cases h : x = y
  · rw [if_pos h, StableHlo.Predicate.cmpi_eq_iff.2 h]; simp
  · rw [if_neg h]
    have : IntOp.cmpi .eq x y = 0#1 := by
      rcases BitVec.eq_zero_or_eq_one (IntOp.cmpi .eq x y) with h0 | h1
      · exact h0
      · exact absurd (StableHlo.Predicate.cmpi_eq_iff.1 h1) h
    rw [this]; simp

/-- THE SELECTOR AT ONE POINT: for an index word in 0 … 15 naming expert e0, clamping it, comparing with e's word and
    converting gives the indicator of e = e0. -/
theorem selector_word (w : BitVec 32) (e e0 : Fin 16) (h0 : 0 ≤ w.toInt) (h16 : w.toInt < 16) (he0 : ((e0.val : Nat) : Int) = w.toInt) :
    (FloatOps.uitofp (F := Ideal) .f32 (IntOp.cmpi .eq (IntOp.minsi 15#32 (IntOp.maxsi 0#32 w)) (BitVec.ofNat 32 e.val)) : EReal)
      = if e = e0 then 1 else 0 := by
  rw [clamp_id w h0 h16, uitofp_cmpi_eq]
  have hiff : (w = BitVec.ofNat 32 e.val) ↔ e = e0 := (word_eq_iff w e).trans
    ⟨fun h => Fin.ext (by omega), fun h => by subst h; omega⟩
  by_cases h : e = e0
  · rw [if_pos h, if_pos (hiff.2 h)]
  · rw [if_neg h, if_neg (fun h' => h (hiff.1 h'))]

/-- The selector array, as the host operations build it from an index array, read at (b, e). -/
theorem selector_apply (inst : IVec S256 32) (hr : Cert.Spec.InRange inst) (b : Fin 256) (e : Fin 16) :
    (uitofp (F := Ideal) .f32 (cmpi .eq
        (broadcastInDim S256x16 ![0, 1] bcast_S256x1_S256x16_0_1 (broadcastInDim S256x1 ![0] bcast_S256_S256x1_0
          (minsi (broadcastInDim S256 ![] bcast_S_S256 (constantI S_ 32 15#32))
            (maxsi (broadcastInDim S256 ![] bcast_S_S256 (constantI S_ 32 0#32)) inst))))
        (broadcastInDim S256x16 ![0, 1] bcast_S1x16_S256x16_0_1 (iotaInDim S1x16 32 1))) : S256x16.Idx → EReal) (ix2 b e)
      = if e = Cert.Spec.expertOf inst b then (1 : EReal) else 0 := by
  have hb1 : ∀ (v : IVec S256 32), broadcastInDim S256x16 ![0, 1] bcast_S256x1_S256x16_0_1 (broadcastInDim S256x1 ![0] bcast_S256_S256x1_0 v) (ix2 b e) = v (ix1 b) := by
    intro v
    refine (broadcastInDim_apply _ _ _ (ix2 b e) (ix2 b (0 : Fin 1)) ?_).trans (broadcastInDim_apply _ _ _ _ (ix1 b) ?_)
    · intro a; match a with | ⟨0, _⟩ => rfl | ⟨1, _⟩ => rfl
    · intro a; match a with | ⟨0, _⟩ => rfl
  have hb2 : broadcastInDim S256x16 ![0, 1] bcast_S1x16_S256x16_0_1 (iotaInDim S1x16 32 1) (ix2 b e) = BitVec.ofNat 32 e.val := by
    refine (broadcastInDim_apply _ _ _ (ix2 b e) (ix2 (0 : Fin 1) e) ?_).trans rfl
    intro a; match a with | ⟨0, _⟩ => rfl | ⟨1, _⟩ => rfl
  obtain ⟨h0, h16⟩ := hr b
  refine Eq.trans ?_ (selector_word (inst (ix1 b)) e (Cert.Spec.expertOf inst b) h0 h16 (Cert.Spec.expertOf_val hr b))
  show FloatOps.uitofp (F := Ideal) .f32 (IntOp.cmpi .eq _ _) = _
  rw [hb1, hb2]
  rfl

end HostWord
open HostWord

section Host
variable (m : (ℓ : Loc nD τ sig) → Buf (Elt Ideal) ℓ) (outs : Outs (F := Ideal))

/-- After the first host stretch the flattened features are the argument re-laid. -/
theorem V1_main_v0 (c : Dev nD) :
    V1 m c main_v0 = shapeCast S256x2048x196 (m ((c : Thread nD τ).loc main_arg1)) shapeCasts_S256x2048x14x14_S256x2048x196 := by
  show StableHlo.after hostOps0 (V0 m c) (Proc.devRef .tc main_v0) = _
  after_results; rfl
/-- and the flattened mask likewise. -/
theorem V1_main_v1 (c : Dev nD) :
    V1 m c main_v1 = shapeCast S256x1x196 (m ((c : Thread nD τ).loc main_arg0)) shapeCasts_S256x1x14x14_S256x1x196 := by
  show StableHlo.after hostOps0 (V0 m c) (Proc.devRef .tc main_v1) = _
  after_results; rfl

/-- What the expert region finds: the attended array is what the pooling region left, -/
theorem V5_main_v2 (c : Dev nD) : V5 m outs c main_v2 = outs 2 main_v2 c :=
  (V5_of m outs c main_v2 (by decide)).trans <| (V4_of m outs c main_v2 (by decide)).trans <|
    (V3_of m outs c main_v2 (by decide)).trans <| by unfold V2; exact Function.update_self ..
/-- the weights and biases are the arguments, -/
theorem V5_main_arg2 (c : Dev nD) : V5 m outs c main_arg2 = m ((c : Thread nD τ).loc main_arg2) :=
  (V5_of m outs c main_arg2 (by decide)).trans <| (V4_of m outs c main_arg2 (by decide)).trans <|
    (V3_of m outs c main_arg2 (by decide)).trans <| (V2_of m outs c main_arg2 (by decide)).trans <|
    (V1_of m c main_arg2 (by decide)).trans rfl
theorem V5_main_arg3 (c : Dev nD) : V5 m outs c main_arg3 = m ((c : Thread nD τ).loc main_arg3) :=
  (V5_of m outs c main_arg3 (by decide)).trans <| (V4_of m outs c main_arg3 (by decide)).trans <|
    (V3_of m outs c main_arg3 (by decide)).trans <| (V2_of m outs c main_arg3 (by decide)).trans <|
    (V1_of m c main_arg3 (by decide)).trans rfl
/-- What the three later host stretches leave, over any contents before them: the selector from the clamped index, -/
theorem after_hostOps1_2_v4 (W : Valuation τ sig (Elt Ideal)) :
    (StableHlo.after hostOps1_2 W (Proc.devRef .tc main_v4) : S256x16.Idx → EReal)
      = uitofp (F := Ideal) .f32 (cmpi .eq
          (broadcastInDim S256x16 ![0, 1] bcast_S256x1_S256x16_0_1 (broadcastInDim S256x1 ![0] bcast_S256_S256x1_0 (W (Proc.devRef .tc main_v3) : IVec S256 32)))
          (broadcastInDim S256x16 ![0, 1] bcast_S1x16_S256x16_0_1 (iotaInDim S1x16 32 1))) := by
  after_results
  rfl

/-- the clamped index from the two constants and the index, -/
theorem after_hostOps1_1_v3 (W : Valuation τ sig (Elt Ideal)) :
    (StableHlo.after hostOps1_1 W (Proc.devRef .tc main_v3) : IVec S256 32)
      = minsi (broadcastInDim S256 ![] bcast_S_S256 (W (Proc.devRef .tc main_c_0) : IVec S_ 32))
          (maxsi (broadcastInDim S256 ![] bcast_S_S256 (W (Proc.devRef .tc main_c) : IVec S_ 32)) (W (Proc.devRef .tc main_arg4) : IVec S256 32)) := by
  after_results
  rfl

/-- and the two constants, the index untouched. -/
theorem after_hostOps1_c (W : Valuation τ sig (Elt Ideal)) :
    (StableHlo.after hostOps1 W (Proc.devRef .tc main_c) : IVec S_ 32) = constantI S_ 32 0#32
    ∧ (StableHlo.after hostOps1 W (Proc.devRef .tc main_c_0) : IVec S_ 32) = constantI S_ 32 15#32
    ∧ StableHlo.after hostOps1 W (Proc.devRef .tc main_arg4) = W (Proc.devRef .tc main_arg4) := by
  refine ⟨?_, ?_, ?_⟩
  · after_results
  · after_results
  · after_results

/-- and, for indices in range, the selector is the indicator of the named expert. -/
theorem V5_main_v4_apply (c : Dev nD) (hr : Cert.Spec.InRange (m ((c : Thread nD τ).loc main_arg4))) (b : Fin 256) (e : Fin 16) :
    (V5 m outs c main_v4 : S256x16.Idx → EReal) (ix2 b e)
      = if e = Cert.Spec.expertOf (m ((c : Thread nD τ).loc main_arg4)) b then (1 : EReal) else 0 := by
  have e5 := after_hostOps1_2_v4 (V4 m outs c)
  have e4 := after_hostOps1_1_v3 (V3 m outs c)
  obtain ⟨ec, ec0, ea⟩ := after_hostOps1_c (V2 m outs c)
  have ea' : V3 m outs c main_arg4 = m ((c : Thread nD τ).loc main_arg4) :=
    ea.trans ((V2_of m outs c main_arg4 (by decide)).trans ((V1_of m c main_arg4 (by decide)).trans rfl))
  have e5' : (V5 m outs c main_v4 : S256x16.Idx → EReal) = _ := e5
  rw [e5']
  have e4' : (V4 m outs c main_v3 : IVec S256 32) = _ := e4
  rw [e4']
  have ec' : (V3 m outs c main_c : IVec S_ 32) = _ := ec
  have ec0' : (V3 m outs c main_c_0 : IVec S_ 32) = _ := ec0
  rw [ec', ec0', ea']
  exact selector_apply _ hr b e
/-- The pooling region finds the two flattened arrays the first stretch wrote (nothing in between writes them). -/
theorem V1_eq_V0_arg (c : Dev nD) : V1 m c main_arg4 = m ((c : Thread nD τ).loc main_arg4) :=
  (V1_of m c main_arg4 (by decide)).trans rfl

/-- THE PRECONDITION, DECODED: every expert index lies in 0 … 15. -/
theorem inRange_of_pre [hP : Cert.Pre_finite_inputs.Facts] (h : Cert.Pre_KernelIdeal m) (c : Dev nD) :
    Cert.Spec.InRange (m ((c : Thread nD τ).loc main_arg4)) := by
  -- the predicate is a conjunction; its last conjunct is the all-reduction of "0 ≤ index ∧ index < 16"
  have e := congrFun (h c) ValueIdx.ix0
  dsimp only [Cert.Pre_finite_inputs.fn, Cert.Pre_finite_inputs.fn_part1] at e
  have e2 := (IntOp.andi_eq_one.1 e).2
  intro b
  have e3 := Host.reduce_andi_all _ _ _ _ _ e2 (ix1 b)
  obtain ⟨h0, h16⟩ := IntOp.andi_eq_one.1 e3
  exact word_range _ h0 h16

end Host

end Cert.KernelIdeal.Hand

end
-- ==== Proof.Bridge.lean ====
/-
  The kernel's program meets the specification: for expert indices in range, the result array the expert pipeline leaves
  is, per sample, the logits of the expert the index names — the attended array the pooling pipeline left is the masked
  average of the re-laid features and mask, the selector the host made is the indicator of the named expert, and a sum of
  the sixteen experts' logits weighted by that indicator is the named expert's logits.
-/
import proofs.«406250_j6047313952809_3_alg».proof.Proof.Run
import proofs.«406250_j6047313952809_3_alg».proof.Proof.Expert
import proofs.«406250_j6047313952809_3_alg».proof.Proof.PoolIdeal
import proofs.«406250_j6047313952809_3_alg».proof.Proof.Values1
import proofs.«406250_j6047313952809_3_alg».proof.Proof.HostSide
import proofs.«406250_j6047313952809_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat BodyObligationLoose)

variable (m : (ℓ : Loc nD τ sig) → Buf (Elt Ideal) ℓ)

/-- At the ideal instance the expert region's body obligation holds with its result named: the part of the result the
    write-back moves does not depend on the fill past the arrays' ends. -/
theorem body_obligation1_ideal (c : Dev nD) :
    BodyObligationLoose (dat1 (F := Ideal) (E5 m) c) (defs₀ (F := Ideal)) Variants.none () Set.univ (fun _ => false) :=
  body_obligation1_of_local (E5 m) c (expert_local (E5 m) c)

/-- The attended array the expert region finds, at an index: the masked average of the re-laid arguments. -/
theorem attended_apply (c : Dev nD) (b : Fin 256) (k : Fin 2048) :
    (E5 m c main_v2 : S256x2048.Idx → EReal) (ix2 b k)
      = Cert.Spec.attendedAt (shapeCast S256x2048x196 (m ((c : Thread nD τ).loc main_arg1)) shapeCasts_S256x2048x14x14_S256x2048x196)
          (shapeCast S256x1x196 (m ((c : Thread nD τ).loc main_arg0)) shapeCasts_S256x1x14x14_S256x1x196) b k := by
  have e1 : E5 m c main_v2 = (dat0 (F := Ideal) (E1 m) c).arrAt 2 cfg0.N :=
    (V5_main_v2 m (outs2 m) c).trans (X2_arr m c 2)
  rw [e1, final0 (E1 m) c b k]
  show Cert.Spec.attendedAt (V1 m c main_v0) (V1 m c main_v1) b k = _
  rw [V1_main_v0 m c, V1_main_v1 m c]

/-- THE KERNEL'S RESULT, for expert indices in range: the specification's function of the arguments. -/
theorem result_eq (c : Dev nD) (hr : Cert.Spec.InRange (m ((c : Thread nD τ).loc main_arg4))) :
    (dat1 (F := Ideal) (E5 m) c).arrAt 4 cfg1.N
      = Cert.Spec.result (shapeCast S256x2048x196 (m ((c : Thread nD τ).loc main_arg1)) shapeCasts_S256x2048x14x14_S256x2048x196)
          (shapeCast S256x1x196 (m ((c : Thread nD τ).loc main_arg0)) shapeCasts_S256x1x14x14_S256x1x196)
          (m ((c : Thread nD τ).loc main_arg2)) (m ((c : Thread nD τ).loc main_arg3)) (m ((c : Thread nD τ).loc main_arg4)) := by
  rw [final1 (E5 m) c]
  funext j
  obtain ⟨b, a, rfl⟩ : ∃ (b : Fin 256) (a : Fin 3000), j = ix2 b a := ⟨j 0, j 1, eq_ix2 j⟩
  rw [Cert.Spec.mixture_indicator _ _ _ _ (Cert.Spec.expertOf (m ((c : Thread nD τ).loc main_arg4)))
    (fun b e => V5_main_v4_apply m (outs2 m) c hr b e) b a, Cert.Spec.result_apply]
  show Cert.Spec.logitAt (fun k => (E5 m c main_v2 : S256x2048.Idx → EReal) (ix2 b k)) (V5 m (outs2 m) c main_arg2) (V5 m (outs2 m) c main_arg3) _ a = _
  rw [V5_main_arg2 m (outs2 m) c, V5_main_arg3 m (outs2 m) c]
  exact congrArg (fun f => Cert.Spec.logitAt f _ _ _ a) (funext fun k => attended_apply m c b k)

end Cert.KernelIdeal.Hand

end
-- ==== Proof.LibGatherBatchedRows.lean ====
/-
  A batched row gather read at an index.

  `jnp.take_along_axis(x, idx[:, :, None], axis=1)` on an operand `x : [B, K, C]` with indices `idx : [B, Q, 1]` lowers to a
  `stablehlo.gather` whose operand axis 0 and start-indices axis 0 are BATCHING axes, whose operand axis 1 is collapsed and
  named by the start index map, and whose operand axis 2 is the one offset axis (slice sizes `[1, 1, C]`, index vector on
  axis 2 of the start indices).  Result element `(b, q, c)` is then the operand at batch `b`, at the row the start index
  `idx[b, q, 0]` names — read as a signed integer and clamped into `[0, K − 1]`, as StableHLO clamps every start index —,
  at column `c`.
-/
import Idealize.ShloMosaic.Lib.ValueIdx

noncomputable section

namespace Cert.LibGatherBatchedRows

open Idealize.ShloMosaic Idealize.ShloMosaic.ValueIdx

variable {α : Type}

/-- The dimension numbers of the batched row gather for an operand `[B, K, C]`, start indices `[B, Q, 1]` and a result
    `[B, Q, C]`; their well-formedness `wf` is decided on a program's literal shapes. -/
abbrev rowDims (B K C Q : Nat)
    (wf : GatherDims.WF ⟨3, ![B, K, C]⟩ ⟨3, ![B, Q, 1]⟩ ⟨3, ![B, Q, C]⟩ [2] [1] [0] [1] [0] 2 ![1, 1, C]) :
    GatherDims ⟨3, ![B, K, C]⟩ ⟨3, ![B, Q, 1]⟩ ⟨3, ![B, Q, C]⟩ where
  offsetDims := [2]
  collapsedSliceDims := [1]
  operandBatchingDims := [0]
  startIndicesBatchingDims := [0]
  startIndexMap := [1]
  indexVectorDim := 2
  sliceSizes := ![1, 1, C]
  wf := wf

section Axes
variable {B K C Q w : Nat}
  (wf : GatherDims.WF ⟨3, ![B, K, C]⟩ ⟨3, ![B, Q, 1]⟩ ⟨3, ![B, Q, C]⟩ [2] [1] [0] [1] [0] 2 ![1, 1, C])
  (idx : IVec ⟨3, ![B, Q, 1]⟩ w) (b : Fin B) (q : Fin Q) (c : Fin C)

/-- On the batching axis the operand coordinate is the result's batch coordinate. -/
theorem operand_axis0 :
    (rowDims B K C Q wf).start (ix3 b q c) idx 0 + (rowDims B K C Q wf).batchCoord (ix3 b q c) 0
      + (rowDims B K C Q wf).offCoord (ix3 b q c) 0 = b.val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  rfl

/-- On the collapsed axis it is the start index, read signed and clamped into the axis. -/
theorem operand_axis1 :
    (rowDims B K C Q wf).start (ix3 b q c) idx 1 + (rowDims B K C Q wf).batchCoord (ix3 b q c) 1
      + (rowDims B K C Q wf).offCoord (ix3 b q c) 1 = min (idx (ix3 b q ⟨0, Nat.one_pos⟩)).toInt.toNat (K - 1) := by
  rw [GatherDims.batchCoord_eq_zero _ _ _ (fun h => absurd (Fin.val_eq_of_eq (List.mem_singleton.mp h)) (show ¬ (1 : ℕ) = 0 by omega)),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (rowDims B K C Q wf).startIndexMap from List.mem_singleton.mpr rfl)]
  have hsi : (rowDims B K C Q wf).siIdx (ix3 b q c) ⟨List.idxOf (1 : Fin 3) (rowDims B K C Q wf).startIndexMap,
      List.idxOf_lt_length_iff.2 (List.mem_singleton.mpr rfl)⟩ = ix3 b q ⟨0, Nat.one_pos⟩ := by
    funext e; refine Fin.ext ?_
    match e with
    | ⟨0, _⟩ => rfl
    | ⟨1, _⟩ => rfl
    | ⟨2, _⟩ => rfl
  rw [hsi]
  rfl

/-- On the offset axis it is the result's column. -/
theorem operand_axis2 :
    (rowDims B K C Q wf).start (ix3 b q c) idx 2 + (rowDims B K C Q wf).batchCoord (ix3 b q c) 2
      + (rowDims B K C Q wf).offCoord (ix3 b q c) 2 = c.val := by
  rw [GatherDims.batchCoord_eq_zero _ _ _ (fun h => absurd (Fin.val_eq_of_eq (List.mem_singleton.mp h)) (show ¬ (2 : ℕ) = 0 by omega))]
  unfold GatherDims.start
  rw [dif_neg (fun h => absurd (Fin.val_eq_of_eq (List.mem_singleton.mp h)) (show ¬ (2 : ℕ) = 1 by omega))]
  simp only [Nat.zero_add]
  rfl

end Axes

/-- THE GATHER READ AT `(b, q, c)`: the operand at batch `b`, row `idx[b, q, 0]` (signed, clamped into `[0, K − 1]`),
    column `c`. -/
theorem gather_rows_apply {B K C Q w : Nat} (hK : 0 < K)
    (wf : GatherDims.WF ⟨3, ![B, K, C]⟩ ⟨3, ![B, Q, 1]⟩ ⟨3, ![B, Q, C]⟩ [2] [1] [0] [1] [0] 2 ![1, 1, C])
    (x : (⟨3, ![B, K, C]⟩ : Shape).Idx → α) (idx : IVec ⟨3, ![B, Q, 1]⟩ w) (b : Fin B) (q : Fin Q) (c : Fin C) :
    Host.gather (rowDims B K C Q wf) x idx (ix3 b q c)
      = x (ix3 b ⟨min (idx (ix3 b q ⟨0, Nat.one_pos⟩)).toInt.toNat (K - 1), by omega⟩ c) := by
  unfold Host.gather
  congr 1
  funext a
  refine Fin.ext ?_
  match a with
  | ⟨0, _⟩ => exact operand_axis0 wf idx b q c
  | ⟨1, _⟩ => exact operand_axis1 wf idx b q c
  | ⟨2, _⟩ => exact operand_axis2 wf idx b q c

end Cert.LibGatherBatchedRows

end
-- ==== Proof.Reference.lean ====
/-
  The reference program read at an index on the extended reals: for expert indices in 0 … 15 its result is, per sample,
  the logits of the expert the index names.  The index is first wrapped (an index below zero has sixteen added) — in range
  that changes nothing —, the all-experts logits are gathered at it along the expert axis (a gather clamps its start
  index into the axis — in range, nothing again), and the gathered row is kept where the wrapped index is in bounds and
  replaced by a fill word elsewhere — in range it is kept everywhere.

  The pieces, in order: the two facts about a 32-bit word in 0 … 15 (the wrap leaves it alone; both bounds checks pass);
  the wrapped index and the in-bounds flag at a sample (the flag is a conjunction over an axis of extent one, started at
  one); the attended array (the guarded mask times the features summed over the positions, over the summed guarded mask;
  both sums start at the zero word, which is neutral); the logits (attended row against an expert's weights, plus its
  bias); the gather at the named expert's row; the final reshape, which only drops the unit axis.
-/
import proofs.«406250_j6047313952809_3_alg».proof.Proof.Gen.ReferenceIdeal.Run
import proofs.«406250_j6047313952809_3_alg».proof.Proof.Gen.ReferenceIdeal.Read
import proofs.«406250_j6047313952809_3_alg».proof.Proof.LibGatherBatchedRows
import proofs.«406250_j6047313952809_3_alg».proof.Proof.Spec
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Predicate
import Idealize.ShloMosaic.PureOps.Ideal.Laws

set_option maxRecDepth 16384

noncomputable section

namespace Cert.RefValue

open Cert.ReferenceIdeal Cert.ReferenceIdeal.Gen Cert.ReferenceIdeal.Read
open Idealize.ShloMosaic Idealize.ShloMosaic.TcCoe Idealize.ShloMosaic.ValueIdx Idealize.SL.Sem

/-! ## Words: an expert index in 0 … 15 -/

theorem zero_toInt : (0#32 : BitVec 32).toInt = 0 := by decide
theorem fifteen_toInt : (15#32 : BitVec 32).toInt = 15 := by decide

/-- An index that is not negative is left as it is by the wrap. -/
theorem wrap_word (w : BitVec 32) (h0 : 0 ≤ w.toInt) :
    Scalar.select (IntOp.cmpi .slt w 0#32) (IntOp.addi w 16#32) w = w := by
  have hc : IntOp.cmpi .slt w 0#32 = 0#1 := by
    show BitVec.ofBool (w.slt 0#32) = 0#1
    have : w.slt 0#32 = false := by
      rw [BitVec.slt, zero_toInt]; exact decide_eq_false (by omega)
    rw [this]; rfl
  rw [hc]; exact select_zero _ _

/-- An index in 0 … 15 passes both bounds checks. -/
theorem inb_word (w : BitVec 32) (h0 : 0 ≤ w.toInt) (h1 : w.toInt < 16) :
    IntOp.andi (IntOp.cmpi .sge w 0#32) (IntOp.cmpi .sle w 15#32) = 1#1 := by
  have ha : IntOp.cmpi .sge w 0#32 = 1#1 := by
    show BitVec.ofBool ((0#32 : BitVec 32).sle w) = 1#1
    have : (0#32 : BitVec 32).sle w = true := by
      rw [BitVec.sle, zero_toInt]; exact decide_eq_true h0
    rw [this]; rfl
  have hb : IntOp.cmpi .sle w 15#32 = 1#1 := by
    show BitVec.ofBool (w.sle 15#32) = 1#1
    have : w.sle 15#32 = true := by
      rw [BitVec.sle, fifteen_toInt]; exact decide_eq_true (by omega)
    rw [this]; rfl
  rw [ha, hb]; decide

/-- A conjunction of ones, started at one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- An index of the [256, 1, 1] arrays is a sample number followed by two zeros. -/
theorem idx_unit (i : S256x1x1.Idx) : ∃ b : Fin 256, i = ix3 b (0 : Fin 1) (0 : Fin 1) :=
  ⟨i 0, funext fun a => Fin.ext (by
    match a with
    | ⟨0, _⟩ => rfl
    | ⟨1, _⟩ => have h : (i 1).val < 1 := (i 1).isLt; show (i 1).val = 0; omega
    | ⟨2, _⟩ => have h : (i 2).val < 1 := (i 2).isLt; show (i 2).val = 0; omega)⟩

/-! ## The wrapped index and the in-bounds flag -/

/-- In range the wrapped index is the index. -/
theorem wrapped_apply (x4 : IVec S256 32) (hr : Cert.Spec.InRange x4) (b : Fin 256) :
    val_main_call0_v4 (F := Ideal) x4 (ix3 b (0 : Fin 1) (0 : Fin 1)) = x4 (ix1 b) := by
  have e : idx_main_v14 (ix3 b (0 : Fin 1) (0 : Fin 1)) = ix1 b :=
    funext fun a => Fin.ext (by match a with | ⟨0, _⟩ => rfl)
  rw [val_main_call0_v4_apply, val_main_call0_v1_apply, val_main_call0_v3_apply, val_main_v14_apply,
    val_main_call0_v0_apply, val_main_call0_c_apply, val_main_call0_v2_apply, val_main_call0_c_0_apply, e]
  exact wrap_word _ (hr b).1

/-- In range both bounds checks pass at every sample. -/
theorem inb_apply (x4 : IVec S256 32) (hr : Cert.Spec.InRange x4) (i : S256x1x1.Idx) :
    val_main_call0_v10 (F := Ideal) x4 i = 1#1 := by
  obtain ⟨b, rfl⟩ := idx_unit i
  rw [val_main_call0_v10_apply, val_main_call0_v6_apply, val_main_call0_v9_apply, wrapped_apply x4 hr b,
    val_main_call0_v5_apply, val_main_call0_c_2_apply, val_main_call0_v8_apply, val_main_call0_v7_apply,
    val_main_call0_c_1_apply]
  exact inb_word _ (hr b).1 (hr b).2

/-- The conjunction over the unit axis is one. -/
theorem flag_apply (x4 : IVec S256 32) (hr : Cert.Spec.InRange x4) (j : S256x1.Idx) :
    val_main_call0_v11 (F := Ideal) x4 j = 1#1 := by
  unfold val_main_call0_v11
  rw [Host.reduce_eq_foldl, val_main_call0_c_3_apply]
  exact foldl_andi_ones _ (inb_apply x4 hr) _

/-! ## The attended array and the logits -/

/-- Sample `b`'s attended channel `k`: the guarded-mask-weighted sum of the features over the positions, divided by the
    sum of the guarded mask. -/
theorem attended_apply (x0 : FVec Ideal S256x1x14x14 .f32) (x1 : FVec Ideal S256x2048x14x14 .f32) (b : Fin 256) (k : Fin 2048) :
    val_main_v9 (F := Ideal) x0 x1 (ix2 b k)
      = Cert.Spec.attendedAt (shapeCast S256x2048x196 x1 shapeCasts_S256x2048x14x14_S256x2048x196)
          (shapeCast S256x1x196 x0 shapeCasts_S256x1x14x14_S256x1x196) b k := by
  have e6 : ∀ s : Fin 196, idx_main_v6 (ix2 b k) s = ix3 b k s := fun s =>
    funext fun a => Fin.ext (by match a with | ⟨0, _⟩ => rfl | ⟨1, _⟩ => rfl | ⟨2, _⟩ => rfl)
  have e4 : ∀ s : Fin 196, idx_main_v4 (ix3 b k s) = ix3 b (0 : Fin 1) s := fun s =>
    funext fun a => Fin.ext (by match a with | ⟨0, _⟩ => rfl | ⟨1, _⟩ => rfl | ⟨2, _⟩ => rfl)
  have e8 : idx_main_v8 (ix2 b k) = ix2 b (0 : Fin 1) :=
    funext fun a => Fin.ext (by match a with | ⟨0, _⟩ => rfl | ⟨1, _⟩ => rfl)
  have e7 : ∀ s : Fin 196, idx_main_v7 (ix2 b (0 : Fin 1)) s = ix3 b (0 : Fin 1) s := fun s =>
    funext fun a => Fin.ext (by match a with | ⟨0, _⟩ => rfl | ⟨1, _⟩ => rfl | ⟨2, _⟩ => rfl)
  rw [val_main_v9_apply, val_main_v6_apply, val_main_v8_apply, e8, val_main_v7_apply, val_main_cst_0_apply,
    val_main_cst_1_apply]
  simp only [e6, e7, val_main_v5_apply, val_main_v4_apply, e4, val_main_v3_apply, val_main_v2_apply, val_main_cst_apply,
    Ideal.hostDivf_def, Ideal.mulf_def, Ideal.addf_def, Ideal.ofBits_def, Ideal.ofBits_zero_f32, zero_add]
  unfold Cert.Spec.attendedAt val_main_v0 val_main_v1
  refine congrArg (fun t => Ideal.div t _) (Finset.sum_congr rfl fun s _ => ?_)
  exact mul_comm _ _

/-- Expert `e`'s logit of answer `a` for sample `b`. -/
theorem logits_apply (x0 : FVec Ideal S256x1x14x14 .f32) (x1 : FVec Ideal S256x2048x14x14 .f32) (x2 : FVec Ideal S16x3000x2048 .f32)
    (x3 : FVec Ideal S16x3000 .f32) (b : Fin 256) (e : Fin 16) (a : Fin 3000) :
    val_main_v13 (F := Ideal) x0 x1 x2 x3 (ix3 b e a)
      = Cert.Spec.logitAt (Cert.Spec.attendedAt (shapeCast S256x2048x196 x1 shapeCasts_S256x2048x14x14_S256x2048x196)
          (shapeCast S256x1x196 x0 shapeCasts_S256x1x14x14_S256x1x196) b) x2 x3 e a := by
  have el : ∀ k : Fin 2048, lidx_main_v10 (ix3 b e a) k = ix2 b k := fun k =>
    funext fun c => Fin.ext (by match c with | ⟨0, _⟩ => rfl | ⟨1, _⟩ => rfl)
  have er : ∀ k : Fin 2048, ridx_main_v10 (ix3 b e a) k = ix3 e a k := fun k =>
    funext fun c => Fin.ext (by match c with | ⟨0, _⟩ => rfl | ⟨1, _⟩ => rfl | ⟨2, _⟩ => rfl)
  have e12 : idx_main_v11 (idx_main_v12 (ix3 b e a)) = ix2 e a :=
    funext fun c => Fin.ext (by match c with | ⟨0, _⟩ => rfl | ⟨1, _⟩ => rfl)
  rw [val_main_v13_apply, val_main_v10_apply, val_main_v12_apply, val_main_v11_apply, e12]
  simp only [el, er, attended_apply, Ideal.addf_def]
  rfl

/-! ## The gather and the result -/

/-- In range the gathered row is the row of the expert the index names. -/
theorem gathered_apply (x0 : FVec Ideal S256x1x14x14 .f32) (x1 : FVec Ideal S256x2048x14x14 .f32) (x2 : FVec Ideal S16x3000x2048 .f32)
    (x3 : FVec Ideal S16x3000 .f32) (x4 : IVec S256 32) (hr : Cert.Spec.InRange x4) (b : Fin 256) (a : Fin 3000) :
    val_main_call0_v12 (F := Ideal) x0 x1 x2 x3 x4 (ix3 b (0 : Fin 1) a)
      = val_main_v13 (F := Ideal) x0 x1 x2 x3 (ix3 b (Cert.Spec.expertOf x4 b) a) := by
  unfold val_main_call0_v12
  generalize val_main_v13 (F := Ideal) x0 x1 x2 x3 = y
  have hw := wrapped_apply x4 hr b
  generalize val_main_call0_v4 (F := Ideal) x4 = idx at hw
  refine (Cert.LibGatherBatchedRows.gather_rows_apply (B := 256) (K := 16) (C := 3000) (Q := 1) (by decide) _ y idx b (0 : Fin 1) a).trans ?_
  refine congrArg (fun e => y (ix3 b e a)) (Fin.ext ?_)
  show min (idx (ix3 b (0 : Fin 1) (0 : Fin 1))).toInt.toNat (16 - 1) = (Cert.Spec.expertOf x4 b).val
  rw [hw]
  have hv := Cert.Spec.expertOf_val hr b
  obtain ⟨h0, h1⟩ := hr b
  omega

/-- THE REFERENCE'S RESULT, for expert indices in range: the specification's function of the flattened features and mask,
    the weights, the biases and the indices. -/
theorem ref_result (x0 : FVec Ideal S256x1x14x14 .f32) (x1 : FVec Ideal S256x2048x14x14 .f32) (x2 : FVec Ideal S16x3000x2048 .f32)
    (x3 : FVec Ideal S16x3000 .f32) (x4 : IVec S256 32) (hr : Cert.Spec.InRange x4) (b : Fin 256) (a : Fin 3000) :
    val_main_v16 (F := Ideal) x0 x1 x2 x3 x4 (ix2 b a)
      = Cert.Spec.result (shapeCast S256x2048x196 x1 shapeCasts_S256x2048x14x14_S256x2048x196)
          (shapeCast S256x1x196 x0 shapeCasts_S256x1x14x14_S256x1x196) x2 x3 x4 (ix2 b a) := by
  have e16 : idx_main_v16 (ix2 b a) = ix3 b (0 : Fin 1) a := funext fun c => Fin.ext (by
    have hb : b.val < 256 := b.isLt
    have ha : a.val < 3000 := a.isLt
    match c with
    | ⟨0, _⟩ => show (b.val * 3000 + a.val) / 3000 = b.val; omega
    | ⟨1, _⟩ => rfl
    | ⟨2, _⟩ => show (b.val * 3000 + a.val) % 3000 = a.val; omega)
  rw [val_main_v16_apply, e16, val_main_v15_apply, val_main_call0_v13_apply, flag_apply x4 hr, select_one,
    gathered_apply x0 x1 x2 x3 x4 hr, logits_apply, Cert.Spec.result_apply]

end Cert.RefValue

end
-- ==== Proof.lean ====
/-
  The certificate: a masked weighted-average pool over the positions followed by a per-sample choice of one of sixteen
  expert linear layers, as a kernel of two pipelined regions against its array-language reference.

  On the extended reals both programs compute, for a sample b whose expert index e lies in 0 … 15,
      out(b, a) = sum_k att(b, k) W(e, a, k) + bias(e, a),   att(b, k) = (sum_s feat(b,k,s) (mask(b,0,s) + g)) / (sum_s (mask(b,0,s) + g)),
  g the guard word both carry.  The reference forms all sixteen experts' logits and gathers the row its (wrapped, clamped,
  bounds-checked) index names; the kernel clamps the index, makes the indicator of the named expert, and adds up the
  sixteen experts' logits each scaled by its indicator entry: a sum weighted by the indicator of one index is that index's
  term.  The precondition — finite float inputs, and every expert index in 0 … 15 — is used for the index only: there the
  wrap, the clamps and the bounds check are all the identity.

  The frames: the kernel's program is run region by region — the pooling pipeline's blocks tile their arrays; the expert
  pipeline's last weight, bias and result blocks overhang their arrays by 72 of 128 answers, the fetches leaving the
  overhang at contents nothing names.  At the word level the matrix product is an opaque function of its whole operands,
  so nothing is said there of the result block (its window is left unnamed: the frame does not read it); on the extended
  reals a result column depends on the same row of the weight slice and the same bias entry only, so the columns the
  write-back moves are named.  The reference's frame is its run with the result dropped.
-/
import proofs.«406250_j6047313952809_3_alg».proof.Defs
import proofs.«406250_j6047313952809_3_alg».proof.Proof.Gen.Kernel
import proofs.«406250_j6047313952809_3_alg».proof.Proof.Gen.KernelIdeal
import proofs.«406250_j6047313952809_3_alg».proof.Proof.Gen.ReferenceIdeal
import proofs.«406250_j6047313952809_3_alg».proof.Proof.Gen.Pre_finite_inputs
import proofs.«406250_j6047313952809_3_alg».proof.Proof.Gen.ReferenceIdeal.Run
import proofs.«406250_j6047313952809_3_alg».proof.Proof.Gen.ReferenceIdeal.Read
import proofs.«406250_j6047313952809_3_alg».proof.Proof.KRun
import proofs.«406250_j6047313952809_3_alg».proof.Proof.KExpert
import proofs.«406250_j6047313952809_3_alg».proof.Proof.Run
import proofs.«406250_j6047313952809_3_alg».proof.Proof.Expert
import proofs.«406250_j6047313952809_3_alg».proof.Proof.Bridge
import proofs.«406250_j6047313952809_3_alg».proof.Proof.Reference
import Idealize.ShloMosaic.Adequacy
import Idealize.ShloMosaic.Init

noncomputable section

namespace Cert.Proof

open Idealize.ShloMosaic Idealize.ShloMosaic.TcCoe Idealize.ShloMosaic.ValueIdx Idealize.SL.Sem

section Claims
variable [hK : Cert.Kernel.Facts] [hKI : Cert.KernelIdeal.Facts] [hR : Cert.ReferenceIdeal.Facts] [hP : Cert.Pre_finite_inputs.Facts]

/-- The word-level kernel runs and leaves its arguments: the run with the expert region's result window unnamed. -/
theorem frame_p : Cert.frame_Kernel := fun m ρ _ =>
  Cert.Kernel.Hand.frame_of_run m ρ Cert.Kernel.Hand.forget4
    (fun c => Cert.Kernel.Hand.body_obligation1_forget (Cert.Kernel.Hand.E5 m) c)

/-- The idealized kernel likewise. -/
theorem frame_pi : Cert.frame_KernelIdeal := fun m ρ _ =>
  Cert.KernelIdeal.Hand.frame_of_run m ρ Cert.KernelIdeal.Hand.forget4
    (fun c => Cert.KernelIdeal.Hand.body_obligation1_forget (Cert.KernelIdeal.Hand.E5 m) c)

/-- The reference runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories agreeing on the arguments, both programs end with the specification's result. -/
theorem algebraic : Cert.algebraic_KernelIdeal_ReferenceIdeal := by
  intro m ρ m' ρ' hpre hagree
  have hr : ∀ c : Dev Cert.KernelIdeal.nD, Cert.Spec.InRange (m ((c : Thread Cert.KernelIdeal.nD Cert.KernelIdeal.τ).loc Cert.KernelIdeal.main_arg4)) :=
    fun c => Cert.KernelIdeal.Hand.inRange_of_pre m hpre c
  refine ⟨fun c => Cert.Spec.result
      (shapeCast Cert.KernelIdeal.S256x2048x196 (m ((c : Thread Cert.KernelIdeal.nD Cert.KernelIdeal.τ).loc Cert.KernelIdeal.main_arg1)) Cert.KernelIdeal.Facts₀.shapeCasts_S256x2048x14x14_S256x2048x196)
      (shapeCast Cert.KernelIdeal.S256x1x196 (m ((c : Thread Cert.KernelIdeal.nD Cert.KernelIdeal.τ).loc Cert.KernelIdeal.main_arg0)) Cert.KernelIdeal.Facts₀.shapeCasts_S256x1x14x14_S256x1x196)
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Hand.result_eq m c (hr c)), (h c).2⟩)
      (Cert.KernelIdeal.Hand.value_of_run m ρ (fun _ => false) (Cert.KernelIdeal.Hand.body_obligation1_ideal m) rfl)
  · refine (θ_run Cert.ReferenceIdeal.defs _ _).mono (fun r h c => ⟨?_, (h c).2⟩)
      (Cert.ReferenceIdeal.Value.run (F := Ideal) m' ρ')
    rw [(h c).1, Cert.ReferenceIdeal.Read.val_main_v16_eq, (hagree c).1, (hagree c).2.1, (hagree c).2.2.1, (hagree c).2.2.2.1, (hagree c).2.2.2.2]
    funext j
    obtain ⟨b, a, rfl⟩ : ∃ (b : Fin 256) (a : Fin 3000), j = ix2 b a := ⟨j 0, j 1, eq_ix2 j⟩
    exact Cert.RefValue.ref_result _ _ _ _ _ (hr c) b a

end Claims

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
